-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2 : Shape := ⟨2, ![8192, 2]⟩
abbrev S2x2 : Shape := ⟨2, ![2, 2]⟩
abbrev S2 : Shape := ⟨1, ![2]⟩
abbrev S1x8192 : Shape := ⟨2, ![1, 8192]⟩
abbrev S1 : Shape := ⟨1, ![1]⟩
abbrev S_ : Shape := ⟨0, ![]⟩

class Facts : Prop where
  bcast_S_S8192x2 : S_.BroadcastsInDim S8192x2 (![] : Fin 0 → Fin S8192x2.rank)
  reducesTo_S8192x2_S_d0_1 : S8192x2.ReducesTo [0, 1] S_
  h_S_ : 0 < S_.numel
  bcast_S_S2x2 : S_.BroadcastsInDim S2x2 (![] : Fin 0 → Fin S2x2.rank)
  reducesTo_S2x2_S_d0_1 : S2x2.ReducesTo [0, 1] S_
  bcast_S_S2 : S_.BroadcastsInDim S2 (![] : Fin 0 → Fin S2.rank)
  reducesTo_S2_S_d0 : S2.ReducesTo [0] S_
  bcast_S_S1x8192 : S_.BroadcastsInDim S1x8192 (![] : Fin 0 → Fin S1x8192.rank)
  reducesTo_S1x8192_S_d0_1 : S1x8192.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S1x8192 1) : IVec S_ 1 :=
  let main_c_5 : IVec S_ 1 := constantI S_ 1 1#1
  let main_v17 : IVec S_ 1 := (fun x v => Host.reduce IntOp.andi x v reducesTo_S1x8192_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S8192x2 .f32) (main_arg1 : FVec F S2x2 .f32) (main_arg2 : FVec F S2 .f32) (main_arg3 : FVec F S1x8192 .f32) (main_arg4 : FVec F S1 .f32) : IVec S_ 1 :=
  let main_v0 : FVec F S8192x2 .f32 := Host.absf main_arg0
  let main_cst : FVec F S_ .f32 := constant S_ .f32 0x7F800000#32
  let main_v1 : FVec F S8192x2 .f32 := broadcastInDim S8192x2 ![] bcast_S_S8192x2 main_cst
  let main_v2 : IVec S8192x2 1 := cmpf .olt main_v0 main_v1
  let main_c : IVec S_ 1 := constantI S_ 1 1#1
  let main_v3 : IVec S_ 1 := (fun x v => Host.reduce IntOp.andi x v reducesTo_S8192x2_S_d0_1 h_S_) main_v2 main_c
  let main_v4 : FVec F S2x2 .f32 := Host.absf main_arg1
  let main_cst_0 : FVec F S_ .f32 := constant S_ .f32 0x7F800000#32
  let main_v5 : FVec F S2x2 .f32 := broadcastInDim S2x2 ![] bcast_S_S2x2 main_cst_0
  let main_v6 : IVec S2x2 1 := cmpf .olt main_v4 main_v5
  let main_c_1 : IVec S_ 1 := constantI S_ 1 1#1
  let main_v7 : IVec S_ 1 := (fun x v => Host.reduce IntOp.andi x v reducesTo_S2x2_S_d0_1 h_S_) main_v6 main_c_1
  let main_v8 : IVec S_ 1 := andi main_v3 main_v7
  let main_v9 : FVec F S2 .f32 := Host.absf main_arg2
  let main_cst_2 : FVec F S_ .f32 := constant S_ .f32 0x7F800000#32
  let main_v10 : FVec F S2 .f32 := broadcastInDim S2 ![] bcast_S_S2 main_cst_2
  let main_v11 : IVec S2 1 := cmpf .olt main_v9 main_v10
  let main_c_3 : IVec S_ 1 := constantI S_ 1 1#1
  let main_v12 : IVec S_ 1 := (fun x v => Host.reduce IntOp.andi x v reducesTo_S2_S_d0 h_S_) main_v11 main_c_3
  let main_v13 : IVec S_ 1 := andi main_v8 main_v12
  let main_v14 : FVec F S1x8192 .f32 := Host.absf main_arg3
  let main_cst_4 : FVec F S_ .f32 := constant S_ .f32 0x7F800000#32
  let main_v15 : FVec F S1x8192 .f32 := broadcastInDim S1x8192 ![] bcast_S_S1x8192 main_cst_4
  let main_v16 : IVec S1x8192 1 := cmpf .olt main_v14 main_v15
  fn_part1 (F := F) main_arg4 main_v13 main_v16
-- ==== Kernel.lean ====
abbrev S8192x2 : Shape := ⟨2, ![8192, 2]⟩
abbrev S2x2 : Shape := ⟨2, ![2, 2]⟩
abbrev S2 : Shape := ⟨1, ![2]⟩
abbrev S1x8192 : Shape := ⟨2, ![1, 8192]⟩
abbrev S1 : Shape := ⟨1, ![1]⟩
abbrev S1x2 : Shape := ⟨2, ![1, 2]⟩
abbrev S_ : Shape := ⟨0, ![]⟩
abbrev S1x1 : Shape := ⟨2, ![1, 1]⟩
abbrev S8192 : Shape := ⟨1, ![8192]⟩
abbrev S512x2 : Shape := ⟨2, ![512, 2]⟩
abbrev S1024x2 : Shape := ⟨2, ![1024, 2]⟩
abbrev S1x1024 : Shape := ⟨2, ![1, 1024]⟩
abbrev S512 : Shape := ⟨1, ![512]⟩
abbrev S512x1 : Shape := ⟨2, ![512, 1]⟩
abbrev S1024x1 : Shape := ⟨2, ![1024, 1]⟩
abbrev S1024 : Shape := ⟨1, ![1024]⟩
abbrev S512x1024 : Shape := ⟨2, ![512, 1024]⟩

abbrev nBuf : Space → Nat
  | .hbm => 44
  | .vmem => 8
  | .smem => 0
  | _ => 0

abbrev bufTy : (tb : Table) → Fin (tcTables nBuf tb) → BufTy
  | .hbm, ⟨0, _⟩ => ⟨S8192x2, .f32⟩
  | .hbm, ⟨1, _⟩ => ⟨S2x2, .f32⟩
  | .hbm, ⟨2, _⟩ => ⟨S2, .f32⟩
  | .hbm, ⟨3, _⟩ => ⟨S1x8192, .f32⟩
  | .hbm, ⟨4, _⟩ => ⟨S1, .f32⟩
  | .hbm, ⟨5, _⟩ => ⟨S2x2, .f32⟩
  | .hbm, ⟨6, _⟩ => ⟨S8192x2, .f32⟩
  | .hbm, ⟨7, _⟩ => ⟨S1x2, .f32⟩
  | .hbm, ⟨8, _⟩ => ⟨S8192x2, .f32⟩
  | .hbm, ⟨9, _⟩ => ⟨S8192x2, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .i32⟩
  | .hbm, ⟨15, _⟩ => ⟨S_, .f32⟩
  | .hbm, ⟨16, _⟩ => ⟨S_, .f32⟩
  | .hbm, ⟨17, _⟩ => ⟨S1x1, .f32⟩
  | .hbm, ⟨18, _⟩ => ⟨S_, .f32⟩
  | .hbm, ⟨19, _⟩ => ⟨S1x1, .f32⟩
  | .hbm, ⟨20, _⟩ => ⟨S1x1, .f32⟩
  | .hbm, ⟨21, _⟩ => ⟨S8192x2, .f32⟩
  | .hbm, ⟨22, _⟩ => ⟨S8192x2, .f32⟩
  | .hbm, ⟨23, _⟩ => ⟨S8192x2, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .i1⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S8192x2, .f32⟩
  | .hbm, ⟨37, _⟩ => ⟨S8192x2, .f32⟩
  | .hbm, ⟨38, _⟩ => ⟨S8192x2, .f32⟩
  | .hbm, ⟨39, _⟩ => ⟨S8192x2, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .local _ .vmem, ⟨0, _⟩ => ⟨S512x2, .f32⟩
  | .local _ .vmem, ⟨1, _⟩ => ⟨S512x2, .f32⟩
  | .local _ .vmem, ⟨2, _⟩ => ⟨S1024x2, .f32⟩
  | .local _ .vmem, ⟨3, _⟩ => ⟨S1024x2, .f32⟩
  | .local _ .vmem, ⟨4, _⟩ => ⟨S1x1024, .f32⟩
  | .local _ .vmem, ⟨5, _⟩ => ⟨S1x1024, .f32⟩
  | .local _ .vmem, ⟨6, _⟩ => ⟨S512, .f32⟩
  | .local _ .vmem, ⟨7, _⟩ => ⟨S512, .f32⟩
  | _, _ => ⟨S8192x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_c : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_cst_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_cst_1 : Ref sig .tc := ⟨.hbm, 25, rfl⟩
abbrev main_call0_v8 : Ref sig .tc := ⟨.hbm, 26, rfl⟩
abbrev main_call0_cst_2 : Ref sig .tc := ⟨.hbm, 27, rfl⟩
abbrev main_call0_v9 : Ref sig .tc := ⟨.hbm, 28, rfl⟩
abbrev main_call0_v10 : Ref sig .tc := ⟨.hbm, 29, rfl⟩
abbrev main_call0_cst_3 : Ref sig .tc := ⟨.hbm, 30, rfl⟩
abbrev main_call0_v11 : Ref sig .tc := ⟨.hbm, 31, rfl⟩
abbrev main_call0_cst_4 : Ref sig .tc := ⟨.hbm, 32, rfl⟩
abbrev main_call0_call0_v0 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage0_0 : Fin 2 → Memref sig .tc .vmem S512x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S2x2_S2x2_1_0 : S2x2.Transposes [1, 0] S2x2
  bcast_S2_S1x2_1 : S2.BroadcastsInDim S1x2 (![1] : Fin 1 → Fin S1x2.rank)
  bcast_S1x2_S8192x2_0_1 : S1x2.BroadcastsInDim S8192x2 (![0, 1] : Fin 2 → Fin S8192x2.rank)
  reducesTo_S8192x2_S_d0_1 : S8192x2.ReducesTo [0, 1] S_
  h_S_ : 0 < S_.numel
  bcast_S_S1x1 : S_.BroadcastsInDim S1x1 (![] : Fin 0 → Fin S1x1.rank)
  bcast_S1x1_S8192x2_0_1 : S1x1.BroadcastsInDim S8192x2 (![0, 1] : Fin 2 → Fin S8192x2.rank)
  bcast_S_S8192x2 : S_.BroadcastsInDim S8192x2 (![] : Fin 0 → Fin S8192x2.rank)
  inb_S512_S512_0 : ∀ a, (![0] : Fin 1 → Nat) a + S512.size a ≤ S512.size a
  h_S512 : 0 < S512.numel
  inb_S512x2_S512x2_0_0 : ∀ a, (![0, 0] : Fin 2 → Nat) a + S512x2.size a ≤ S512x2.size a
  h_S512x2 : 0 < S512x2.numel
  shapeCasts_S512x2_S512x2 : S512x2.ShapeCasts S512x2
  inb_S1024x2_S1024x2_0_0 : ∀ a, (![0, 0] : Fin 2 → Nat) a + S1024x2.size a ≤ S1024x2.size a
  h_S1024x2 : 0 < S1024x2.numel
  shapeCasts_S1024x2_S1024x2 : S1024x2.ShapeCasts S1024x2
  slices_S512x2_o0_0_S512x1 : S512x2.Slices ![0, 0] S512x1
  slices_S512x2_o0_1_S512x1 : S512x2.Slices ![0, 1] S512x1
  slices_S1024x2_o0_0_S1024x1 : S1024x2.Slices ![0, 0] S1024x1
  shapeCasts_S1024x1_S1024 : S1024x1.ShapeCasts S1024
  slices_S1024x2_o0_1_S1024x1 : S1024x2.Slices ![0, 1] S1024x1
  shapeCasts_S1024_S1x1024 : S1024.ShapeCasts S1x1024
  broadcasts_S512x1_S512x1024 : S512x1.Broadcasts S512x1024
  broadcasts_S1x1024_S512x1024 : S1x1024.Broadcasts S512x1024
  inb_S1x1024_S1x1024_0_0 : ∀ a, (![0, 0] : Fin 2 → Nat) a + S1x1024.size a ≤ S1x1024.size a
  h_S1x1024 : 0 < S1x1024.numel
  reduces_S512x1024_S512 : S512x1024.Reduces [1] S512
  shapeCasts_S512_S512 : S512.ShapeCasts S512
  shapeCasts_S1_S_ : S1.ShapeCasts S_
  bcast_S_S8192 : S_.BroadcastsInDim S8192 (![] : Fin 0 → Fin S8192.rank)
  dot_S8192x2_S2x2_S8192x2_1_0_0_1_n_n_wf : DotDims.WF S8192x2 S2x2 S8192x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2.size a ≤ S8192x2.size a
  hwx0_0 : ∀ i : grid0.Coords, EltTy.bits .f32 = 32 ∨ (Rect.block (s := S8192x2) S512x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2.size a ≤ S8192x2.size a
  hwx0_1 : ∀ i : grid0.Coords, EltTy.bits .f32 = 32 ∨ (Rect.block (s := S8192x2) S1024x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .f32 = 32 ∨ (Rect.block (s := S1x8192) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S8192.size a
  hwx0_3 : ∀ i : grid0.Coords, EltTy.bits .f32 = 32 ∨ (Rect.block (s := S8192) S512.size (cc0_transform_3 i) (hinb0_3 i)).WholeWords (EltTy.packing .f32)

variable [Facts₀]

def dot_S8192x2_S2x2_S8192x2_1_0_0_1_n_n : DotDims S8192x2 S2x2 S8192x2 where
  lhsContracting := [1]
  rhsContracting := [0]
  lhsNonContracting := [0]
  rhsNonContracting := [1]
  lhsBatch := []
  rhsBatch := []
  wf := dot_S8192x2_S2x2_S8192x2_1_0_0_1_n_n_wf

abbrev win0_0 : Pipeline.Window sig grid0 :=
  Pipeline.Window.ofSpec (Memref.whole main_v12) S512x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1024x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x2 : Shape := ⟨2, ![8192, 2]⟩
abbrev S2x2 : Shape := ⟨2, ![2, 2]⟩
abbrev S2 : Shape := ⟨1, ![2]⟩
abbrev S1x8192 : Shape := ⟨2, ![1, 8192]⟩
abbrev S1 : Shape := ⟨1, ![1]⟩
abbrev S1x2 : Shape := ⟨2, ![1, 2]⟩
abbrev S_ : Shape := ⟨0, ![]⟩
abbrev S1x1 : Shape := ⟨2, ![1, 1]⟩
abbrev S8192 : Shape := ⟨1, ![8192]⟩
abbrev S8192x1 : Shape := ⟨2, ![8192, 1]⟩
abbrev S8192x8192 : Shape := ⟨2, ![8192, 8192]⟩
abbrev S2x8192 : Shape := ⟨2, ![2, 8192]⟩

abbrev nBuf : Space → Nat
  | .hbm => 68
  | .vmem => 0
  | .smem => 0
  | _ => 0

abbrev bufTy : (tb : Table) → Fin (tcTables nBuf tb) → BufTy
  | .hbm, ⟨0, _⟩ => ⟨S8192x2, .f32⟩
  | .hbm, ⟨1, _⟩ => ⟨S2x2, .f32⟩
  | .hbm, ⟨2, _⟩ => ⟨S2, .f32⟩
  | .hbm, ⟨3, _⟩ => ⟨S1x8192, .f32⟩
  | .hbm, ⟨4, _⟩ => ⟨S1, .f32⟩
  | .hbm, ⟨5, _⟩ => ⟨S2x2, .f32⟩
  | .hbm, ⟨6, _⟩ => ⟨S8192x2, .f32⟩
  | .hbm, ⟨7, _⟩ => ⟨S1x2, .f32⟩
  | .hbm, ⟨8, _⟩ => ⟨S8192x2, .f32⟩
  | .hbm, ⟨9, _⟩ => ⟨S8192x2, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S8192x2, .f32⟩
  | .hbm, ⟨15, _⟩ => ⟨S8192x2, .f32⟩
  | .hbm, ⟨16, _⟩ => ⟨S_, .i32⟩
  | .hbm, ⟨17, _⟩ => ⟨S_, .f32⟩
  | .hbm, ⟨18, _⟩ => ⟨S_, .f32⟩
  | .hbm, ⟨19, _⟩ => ⟨S1x1, .f32⟩
  | .hbm, ⟨20, _⟩ => ⟨S_, .f32⟩
  | .hbm, ⟨21, _⟩ => ⟨S1x1, .f32⟩
  | .hbm, ⟨22, _⟩ => ⟨S1x1, .f32⟩
  | .hbm, ⟨23, _⟩ => ⟨S8192x2, .f32⟩
  | .hbm, ⟨24, _⟩ => ⟨S8192x2, .f32⟩
  | .hbm, ⟨25, _⟩ => ⟨S8192x2, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .i1⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S8192x2, .f32⟩
  | .hbm, ⟨39, _⟩ => ⟨S8192x2, .f32⟩
  | .hbm, ⟨40, _⟩ => ⟨S8192x2, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S1x8192, .f32⟩
  | .hbm, ⟨45, _⟩ => ⟨S8192x8192, .f32⟩
  | .hbm, ⟨46, _⟩ => ⟨S8192x8192, .f32⟩
  | .hbm, ⟨47, _⟩ => ⟨S8192x8192, .f32⟩
  | .hbm, ⟨48, _⟩ => ⟨S2x8192, .f32⟩
  | .hbm, ⟨49, _⟩ => ⟨S8192x8192, .f32⟩
  | .hbm, ⟨50, _⟩ => ⟨S_, .f32⟩
  | .hbm, ⟨51, _⟩ => ⟨S8192x8192, .f32⟩
  | .hbm, ⟨52, _⟩ => ⟨S8192x8192, .f32⟩
  | .hbm, ⟨53, _⟩ => ⟨S8192x8192, .f32⟩
  | .hbm, ⟨54, _⟩ => ⟨S_, .f32⟩
  | .hbm, ⟨55, _⟩ => ⟨S8192x8192, .f32⟩
  | .hbm, ⟨56, _⟩ => ⟨S8192x8192, .f32⟩
  | .hbm, ⟨57, _⟩ => ⟨S_, .f32⟩
  | .hbm, ⟨58, _⟩ => ⟨S8192x8192, .f32⟩
  | .hbm, ⟨59, _⟩ => ⟨S8192x8192, .f32⟩
  | .hbm, ⟨60, _⟩ => ⟨S8192x8192, .f32⟩
  | .hbm, ⟨61, _⟩ => ⟨S8192x8192, .f32⟩
  | .hbm, ⟨62, _⟩ => ⟨S8192x1, .f32⟩
  | .hbm, ⟨63, _⟩ => ⟨S8192x1, .f32⟩
  | .hbm, ⟨64, _⟩ => ⟨S1x1, .f32⟩
  | .hbm, ⟨65, _⟩ => ⟨S8192x1, .f32⟩
  | .hbm, ⟨66, _⟩ => ⟨S8192x1, .f32⟩
  | .hbm, ⟨67, _⟩ => ⟨S8192, .f32⟩
  | _, _ => ⟨S8192x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_call0_call0_cst : Ref sig .tc := ⟨.hbm, 17, rfl⟩
abbrev main_call0_call0_v0 : Ref sig .tc := ⟨.hbm, 18, rfl⟩
abbrev main_call0_call0_v1 : Ref sig .tc := ⟨.hbm, 19, rfl⟩
abbrev main_call0_call0_cst_0 : Ref sig .tc := ⟨.hbm, 20, rfl⟩
abbrev main_call0_call0_v2 : Ref sig .tc := ⟨.hbm, 21, rfl⟩
abbrev main_call0_call0_v3 : Ref sig .tc := ⟨.hbm, 22, rfl⟩
abbrev main_call0_call0_v4 : Ref sig .tc := ⟨.hbm, 23, rfl⟩
abbrev main_call0_call0_v5 : Ref sig .tc := ⟨.hbm, 24, rfl⟩
abbrev main_call0_call0_v6 : Ref sig .tc := ⟨.hbm, 25, rfl⟩
abbrev main_call0_call0_v7 : Ref sig .tc := ⟨.hbm, 26, rfl⟩
abbrev main_call0_call0_cst_1 : Ref sig .tc := ⟨.hbm, 27, rfl⟩
abbrev main_call0_call0_v8 : Ref sig .tc := ⟨.hbm, 28, rfl⟩
abbrev main_call0_call0_cst_2 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_cst_3 : Ref sig .tc := ⟨.hbm, 32, rfl⟩
abbrev main_call0_call0_v11 : Ref sig .tc := ⟨.hbm, 33, rfl⟩
abbrev main_call0_call0_cst_4 : Ref sig .tc := ⟨.hbm, 34, rfl⟩
abbrev main_call0_call0_call0_v0 : Ref sig .tc := ⟨.hbm, 35, rfl⟩
abbrev main_call0_v0 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_cst_1 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_cst_2 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_cst_3 : Ref sig .tc := ⟨.hbm, 54, rfl⟩
abbrev main_v24 : Ref sig .tc := ⟨.hbm, 55, rfl⟩
abbrev main_v25 : Ref sig .tc := ⟨.hbm, 56, rfl⟩
abbrev main_cst_4 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩

abbrev nD : Nat := 1
abbrev τ : Topo := Topo.v7x

variable {F : FTy → Type} [FloatOps F]

class Facts₀ : Prop where
  transposes_S2x2_S2x2_1_0 : S2x2.Transposes [1, 0] S2x2
  bcast_S2_S1x2_1 : S2.BroadcastsInDim S1x2 (![1] : Fin 1 → Fin S1x2.rank)
  bcast_S1x2_S8192x2_0_1 : S1x2.BroadcastsInDim S8192x2 (![0, 1] : Fin 2 → Fin S8192x2.rank)
  reducesTo_S8192x2_S_d0_1 : S8192x2.ReducesTo [0, 1] S_
  h_S_ : 0 < S_.numel
  bcast_S_S8192x2 : S_.BroadcastsInDim S8192x2 (![] : Fin 0 → Fin S8192x2.rank)
  bcast_S_S1x1 : S_.BroadcastsInDim S1x1 (![] : Fin 0 → Fin S1x1.rank)
  bcast_S1x1_S8192x2_0_1 : S1x1.BroadcastsInDim S8192x2 (![0, 1] : Fin 2 → Fin S8192x2.rank)
  reducesTo_S8192x2_S8192_d1 : S8192x2.ReducesTo [1] S8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x2_S2x8192_1_0 : S8192x2.Transposes [1, 0] S2x8192
  bcast_S_S8192x8192 : S_.BroadcastsInDim S8192x8192 (![] : Fin 0 → Fin S8192x8192.rank)
  transposes_S1x8192_S8192x1_1_0 : S1x8192.Transposes [1, 0] S8192x1
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  shapeCasts_S8192x1_S8192 : S8192x1.ShapeCasts S8192
  dot_S8192x2_S2x2_S8192x2_1_0_0_1_n_n_wf : DotDims.WF S8192x2 S2x2 S8192x2 [1] [0] [0] [1] [] []
  dot_S8192x2_S2x8192_S8192x8192_1_0_0_1_n_n_wf : DotDims.WF S8192x2 S2x8192 S8192x8192 [1] [0] [0] [1] [] []
  dot_S8192x8192_S8192x1_S8192x1_1_0_0_1_n_n_wf : DotDims.WF S8192x8192 S8192x1 S8192x1 [1] [0] [0] [1] [] []

variable [Facts₀]

def dot_S8192x2_S2x2_S8192x2_1_0_0_1_n_n : DotDims S8192x2 S2x2 S8192x2 where
  lhsContracting := [1]
  rhsContracting := [0]
  lhsNonContracting := [0]
  rhsNonContracting := [1]
  lhsBatch := []
  rhsBatch := []
  wf := dot_S8192x2_S2x2_S8192x2_1_0_0_1_n_n_wf
def dot_S8192x2_S2x8192_S8192x8192_1_0_0_1_n_n : DotDims S8192x2 S2x8192 S8192x8192 where
  lhsContracting := [1]
  rhsContracting := [0]
  lhsNonContracting := [0]
  rhsNonContracting := [1]
  lhsBatch := []
  rhsBatch := []
  wf := dot_S8192x2_S2x8192_S8192x8192_1_0_0_1_n_n_wf
def dot_S8192x8192_S8192x1_S8192x1_1_0_0_1_n_n : DotDims S8192x8192 S8192x1 S8192x1 where
  lhsContracting := [1]
  rhsContracting := [0]
  lhsNonContracting := [0]
  rhsNonContracting := [1]
  lhsBatch := []
  rhsBatch := []
  wf := dot_S8192x8192_S8192x1_S8192x1_1_0_0_1_n_n_wf

class Facts : Prop extends Facts₀ where

variable [Facts]
-- ==== Proof.KI.Data.lean ====
/-
  The pairwise kernel's pipeline, core by core: what each window's staging buffer holds after the body at every
  grid point, for ANY contents `V` the unscoped buffers hold when the region is entered.

  The grid is 16 x 8: point `t` is row block `t / 8` and column block `t % 8`. Windows 0 and 1 both read the
  standardized sample matrix (rows `512 (t / 8) ..` and rows `1024 (t % 8) ..`), window 2 reads the weight row's
  columns `1024 (t % 8) ..`, window 3 is the output's rows `512 (t / 8) ..`, written back when the column block is
  the last one. The body never stores into an input buffer, so each input buffer holds its block after the body.
  The output buffer carries the running sum over the column blocks: it is reset to zero when the column block is 0
  and each point adds that block's weighted row sums (`acc`).
-/
import proofs.«149665_j71691594105115_1_alg».proof.Proof.Gen.KernelIdeal.Launch
import proofs.«149665_j71691594105115_1_alg».proof.Proof.Gen.KernelIdeal.Skeleton
import proofs.«149665_j71691594105115_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The three input blocks at point `t`, at their literal types: 512 query rows, 1024 key rows, 1024 weights. -/
abbrev qblk (c : Dev nD) (t : Fin cfg0.N) : Vec F S512x2 .f32 := iblk V c 0 t
abbrev kblk (c : Dev nD) (t : Fin cfg0.N) : Vec F S1024x2 .f32 := iblk V c 1 t
abbrev wblk (c : Dev nD) (t : Fin cfg0.N) : Vec F S1x1024 .f32 := iblk V c 2 t

/-- The weighted row sums of the block pair at point `t`: for each of the 512 query rows the sum over the 1024 key
    rows of `(-1/2) K exp K` times the key's weight, `K` the clamped squared distance. -/
abbrev part (c : Dev nD) (t : Fin cfg0.N) : FVec F S512 .f32 := k0_pay3 (qblk V c t) (kblk V c t) (wblk V c t)

/-- THE ACCUMULATION: what the output's staging buffer holds after the body at position `n`. Where the column block
    is 0 the buffer is zeroed first, so it ends at zero plus the point's row sums; elsewhere at what the point before
    left plus the point's row sums. -/
def acc (c : Dev nD) : (n : ℕ) → n < cfg0.N → Vec F S512 .f32
  | 0, hn => k0_pay1 (part V c ⟨0, hn⟩) (k0_pay2 (F := F))
  | n + 1, hn =>
    if (n + 1) % 8 = 0 then k0_pay1 (part V c ⟨n + 1, hn⟩) (k0_pay2 (F := F))
    else k0_pay1 (part V c ⟨n + 1, hn⟩) (acc c n (Nat.lt_of_succ_lt hn))

theorem acc_reset (c : Dev nD) (t : Fin cfg0.N) (h0 : t.val % 8 = 0) :
    acc V c t.val t.isLt = k0_pay1 (part V c t) (k0_pay2 (F := F)) := by
  obtain ⟨n, hn⟩ := t
  cases n with
  | zero => rfl
  | succ n => exact (if_pos h0).trans rfl

theorem acc_step (c : Dev nD) (t : Fin cfg0.N) (h0 : ¬ t.val % 8 = 0) :
    acc V c t.val t.isLt = k0_pay1 (part V c t) (acc V c (t.val - 1) (Nat.lt_of_le_of_lt (Nat.sub_le _ _) t.isLt)) := by
  obtain ⟨n, hn⟩ := t
  cases n with
  | zero => exact absurd (Nat.zero_mod _) h0
  | succ n => exact (if_neg h0).trans rfl

/-- The proof data on core `c`: the arrays as the region finds them; every input buffer at its block after the body,
    the output buffer at the running sum; the invariant the scoped rest and the generator register; nothing owed.
    Windows 0 and 1 read ONE array, the standardized samples: each holds half of it. -/
def dats (_ : Fin 1) (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => acc V c t.val t.isLt
  Φ _ := Pipeline.ΦA spec0 c
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats V 0 c).A w = V c (Pipeline.arrRef spec0 w) := by
  dsimp only [dats]

theorem after_0 (c : Dev nD) (t : Fin cfg0.N) : (dats V 0 c).after 0 t = iblk V c 0 t := by dsimp only [dats]
theorem after_1 (c : Dev nD) (t : Fin cfg0.N) : (dats V 0 c).after 1 t = iblk V c 1 t := by dsimp only [dats]
theorem after_2 (c : Dev nD) (t : Fin cfg0.N) : (dats V 0 c).after 2 t = iblk V c 2 t := by dsimp only [dats]
theorem after_3 (c : Dev nD) (t : Fin cfg0.N) : (dats V 0 c).after 3 t = acc V c t.val t.isLt := by dsimp only [dats]

end Cert.KernelIdeal.Hand

end
-- ==== Proof.KI.Run.lean ====
/-
  The pairwise program's run: @main as five segments — three stretches of host operations that standardize the
  samples, the kernel region, and the stretch that adds the bias — composed by the library's launch for a list of
  segments. Between two segments a core holds every unscoped buffer whole at a valuation: the launch contents, then
  each stretch's results folded in, and after the region the output array at what the pipeline's write-backs leave.

  Windows 0 and 1 of the region read ONE array, the standardized samples. At the region's entry that buffer, held
  whole, is split in two halves, one per window; at the exit the two halves, still at the entry contents (an input
  array is never written), are joined again.
-/
import proofs.«149665_j71691594105115_1_alg».proof.Proof.KI.Data
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Arrays

variable (V : (c : Dev nD) → (b : Ref sig .tc) → Buf (Elt F) ((c : Thread nD τ).loc b))

/-- The buffers behind the four windows' arrays are three: the samples, the weights, the output. -/
theorem arrRefs_eq : (Finset.univ.image (Pipeline.arrRef spec0) : Finset (Ref sig .tc)) = [main_v12, main_arg3, main_v13].toFinset := by
  decide

/-- The shares the proof data hold the arrays at. -/
theorem share_0 (c : Dev nD) : (dats V 0 c).share 0 = fullShare.left := rfl
theorem share_1 (c : Dev nD) : (dats V 0 c).share 1 = fullShare.right := rfl
theorem share_2 (c : Dev nD) : (dats V 0 c).share 2 = fullShare := rfl
theorem share_3 (c : Dev nD) : (dats V 0 c).share 3 = fullShare := rfl

/-- The three buffers, one by one. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v12) ↦{fullShare} W main_v12) ∗ (((c : Thread nD τ).loc main_arg3) ↦{fullShare} W main_arg3)
          ∗ (((c : Thread nD τ).loc main_v13) ↦{fullShare} W main_v13)) :=
  bigSep_eq_bigSepL_of_eq [main_v12, main_arg3, main_v13] arrRefs_eq (by decide) _

/-- The four windows' arrays, one by one, each at its share. -/
theorem arrays_eq4 (c : Dev nD) (G : (w : Fin cfg0.W) → Buf (Elt F) ((cfg0.win w).arr.view.loc (c : Thread nD τ))) :
    ((dats V 0 c).arrays G : sProp 𝕄)
      = iprop((((c : Thread nD τ).loc main_v12) ↦{fullShare.left} G 0) ∗ (((c : Thread nD τ).loc main_v12) ↦{fullShare.right} G 1)
          ∗ (((c : Thread nD τ).loc main_arg3) ↦{fullShare} G 2) ∗ (((c : Thread nD τ).loc main_v13) ↦{fullShare} G 3)) := by
  unfold Dat.arrays
  rw [bigSep_W0]
  simp only [share_0, share_1, share_2, share_3]
  rw [(arr_whole0 0).set_eq_univ, (arr_whole0 2).set_eq_univ, (arr_whole0 3).set_eq_univ]

/-- ENTRY: the three buffers whole at the entry contents make the four windows' arrays, the samples' buffer split in
    halves between windows 0 and 1. -/
theorem arrays_in (c : Dev nD) :
    (Pipeline.arrBufs (Ix := Unit) (Name := ℕ) (U := UR sig nD τ) (Lvl := ℕ) spec0 c (V c) : sProp 𝕄)
      ⊢ (dats V 0 c).arrays ((dats V 0 c).arrAt · 0) := by
  rw [arrBufs_eq, arrays_eq4]
  iintro ⟨H12, H3, H13⟩
  ihave Hs := (pointsTo_share (PosShare.mem_left_op_right fullShare)).1 $$ H12
  icases Hs with ⟨HL, HR⟩
  isplitl [HL]; · iexact HL
  isplitl [HR]; · iexact HR
  isplitl [H3]; · iexact H3
  iexact H13

/-- EXIT: the four windows' arrays after the last point — the inputs at their entry contents, the output at what the
    write-backs left — are the three buffers whole at any valuation that has the output there and agrees with the
    entry contents at the two inputs; the samples' halves joined again. -/
theorem arrays_out (c : Dev nD) (W : (b : Ref sig .tc) → Buf (Elt F) ((c : Thread nD τ).loc b))
    (h12 : W main_v12 = V c main_v12) (h3 : W main_arg3 = V c main_arg3) (h13 : W main_v13 = (dats V 0 c).arrAt 3 cfg0.N) :
    ((dats V 0 c).arrays ((dats V 0 c).arrAt · cfg0.N) : sProp 𝕄)
      ⊢ Pipeline.arrBufs (Ix := Unit) (Name := ℕ) (U := UR sig nD τ) (Lvl := ℕ) spec0 c W := by
  rw [arrBufs_eq, arrays_eq4, h12, h3, h13,
    show (dats V 0 c).arrAt 0 cfg0.N = V c main_v12 from ((dats V 0 c).arrAt_in 0 rfl _).trans (A_eq V c 0),
    show (dats V 0 c).arrAt 1 cfg0.N = V c main_v12 from ((dats V 0 c).arrAt_in 1 rfl _).trans (A_eq V c 1),
    show (dats V 0 c).arrAt 2 cfg0.N = V c main_arg3 from ((dats V 0 c).arrAt_in 2 rfl _).trans (A_eq V c 2)]
  iintro ⟨HL, HR, H3, H13⟩
  isplitl [HL HR]
  · iapply (pointsTo_share (PosShare.mem_left_op_right fullShare)).2
    isplitl [HL]; · iexact HL
    iexact HR
  isplitl [H3]; · iexact H3
  iexact H13

end Arrays

/-! ## The buffer contents at each segment boundary -/

variable (m : (ℓ : Loc nD τ sig) → Buf (Elt F) ℓ) (ρ : Dev nD → PrngReg)

/-- Core `c`'s buffers at launch, -/
abbrev W0 : Dev nD → Valuation τ sig (Elt F) := fun c b => (s₀ m ρ).mem ((c : Dev nD), b)
/-- after the affine layer and the mean, -/
abbrev W1 : Dev nD → Valuation τ sig (Elt F) := fun c => StableHlo.after hostOps0 (W0 m ρ c)
/-- after the variance, -/
abbrev W2 : Dev nD → Valuation τ sig (Elt F) := fun c => StableHlo.after hostOps0_1 (W1 m ρ c)
/-- and after the standardization: the region's entry. -/
abbrev W3 : Dev nD → Valuation τ sig (Elt F) := fun c => StableHlo.after hostOps0_2 (W2 m ρ c)
/-- The same read at the TensorCore's references (what the region's proof data take). -/
abbrev V3 : (c : Dev nD) → (b : Ref sig .tc) → Buf (Elt F) ((c : Thread nD τ).loc b) := fun c b => W3 m ρ c b
/-- What the pipeline leaves in the output array. -/
abbrev out13 (c : Dev nD) : Buf (Elt F) ((c : Thread nD τ).loc main_v13) := (dats (V3 m ρ) 0 c).arrAt 3 cfg0.N
/-- At the region's exit: the output array at what the pipeline leaves, every other buffer as entered. -/
def W4 (c : Dev nD) : Valuation τ sig (Elt F) := Function.update (W3 m ρ c) (Proc.devRef .tc main_v13) (out13 m ρ c)
abbrev V4 : (c : Dev nD) → (b : Ref sig .tc) → Buf (Elt F) ((c : Thread nD τ).loc b) := fun c b => W4 m ρ c b
/-- After the bias is added: the end. -/
abbrev W5 : Dev nD → Valuation τ sig (Elt F) := fun c => StableHlo.after hostOps1 (W4 m ρ c)

theorem W4_v13 (c : Dev nD) : V4 m ρ c main_v13 = out13 m ρ c := by
  show Function.update (W3 m ρ c) (Proc.devRef .tc main_v13) (out13 m ρ c) (Proc.devRef .tc main_v13) = _
  exact Function.update_self ..
theorem W4_of_ne (c : Dev nD) (b : Ref sig .tc) (hb : b ≠ main_v13) : V4 m ρ c b = V3 m ρ c b := by
  show Function.update (W3 m ρ c) (Proc.devRef .tc main_v13) (out13 m ρ c) (Proc.devRef .tc b) = _
  exact Function.update_of_ne (StableHlo.devRef_ne_of_ne hb) ..

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dats (V3 m ρ) 0 c
abbrev 𝒱₀ : Variants := Variants.none
abbrev L : GSem nD τ sig → Finset Unit := fun _ => ∅
abbrev lv : GSem nD τ sig → Unit → ℕ := fun _ _ => 0
/-- What rides beside the buffers through every segment: the generator register at some state and the core owing
    nothing. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W5 m ρ c) ∗ ∃ r, prngReg c r)

/-! ## The region as a segment -/

section Region

variable (hbody : ∀ (V : (c : Dev nD) → (b : Ref sig .tc) → Buf (Elt F) ((c : Thread nD τ).loc b)) (c : Dev nD),
  BodyObligation (dats (F := F) V 0 c) (defs₀ (F := F)) Variants.none () Set.univ)

set_option backward.isDefEq.respectTransparency.types false in
/-- THE REGION over the thread state: entered from every unscoped buffer at `W3`, left at `W4`. Its arrays are split
    out of the unscoped buffers (the samples' buffer in halves) and put back at the exit; the generator register goes
    into the invariant and comes out; nothing is owed; the kernel has no semaphore of its own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (hbody (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit : (unscopedBufs c (V3 m ρ c) : sProp 𝕄)
        ⊢ iprop((dats (V3 m ρ) 0 c).arrays ((dats (V3 m ρ) 0 c).arrAt · 0) ∗ Pipeline.unscopedRest spec0 c (V3 m ρ c)) := by
      rw [Pipeline.unscopedBufs_split₀ cfgs 0 winFacts₀0.arr_unscoped c (V3 m ρ c)]
      exact sep_mono (arrays_in (V3 m ρ) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((dats (V3 m ρ) 0 c).arrays ((dats (V3 m ρ) 0 c).arrAt · cfg0.N) ∗ Pipeline.unscopedRest spec0 c (V3 m ρ c))
        ⊢ (unscopedBufs c (V4 m ρ c) : sProp 𝕄) := by
      rw [Pipeline.unscopedBufs_split₀ cfgs 0 winFacts₀0.arr_unscoped c (V4 m ρ c)]
      refine sep_mono (arrays_out (V3 m ρ) c (V4 m ρ c) (W4_of_ne m ρ c main_v12 (by decide)) (W4_of_ne m ρ c main_arg3 (by decide)) (W4_v13 m ρ c))
        (Entails.of_eq ?_)
      unfold Pipeline.unscopedRest
      refine bigSep_congr fun b hb => ?_
      rw [W4_of_ne m ρ c b fun e => (Finset.mem_sdiff.mp hb).2 (Finset.mem_image.mpr ⟨3, Finset.mem_univ _, e.symm ▸ rfl⟩)]
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ hbody),
    .host (hseg hostOps1 hostOps1_sub hostOps1_fresh (W4 m ρ)) ]

theorem main_run (c : Dev nD) : main (F := F) c = Pipeline.Seg.run (segs m ρ hbody) := (main_chain c).trans (by chain_rfl)

include hbody in
set_option backward.isDefEq.respectTransparency.types false in
/-- THE RUN: from any memory with zero counters every weakly fair execution of @main terminates, nothing faulting, and
    every final state has every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ hbody)
    (fun c Q => by rw [main_run m ρ hbody c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show (iprop(StableHlo.held (c : Thread nD τ) (Pipeline.ucRefs τ sig) (W5 m ρ c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

end Region

end Cert.KernelIdeal.Hand

end
-- ==== Proof.KI.Final.lean ====
/-
  What the pairwise program's run leaves: every argument as launched, the standardized samples and the weights as the
  region found them, and the result — the pipeline's output array plus the bias at every entry.
-/
import proofs.«149665_j71691594105115_1_alg».proof.Proof.KI.Run
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable {F : FTy → Type} [FloatOps F]

variable (m : (ℓ : Loc nD τ sig) → Buf (Elt F) ℓ) (ρ : Dev nD → PrngReg)

/-! ## No stretch and no region writes an argument -/

theorem W5_of_W4 (c : Dev nD) (b : Ref sig .tc) (h : b ≠ main_v14 ∧ b ≠ main_v15 ∧ b ≠ main_v16) :
    W5 m ρ c (Proc.devRef .tc b) = W4 m ρ c (Proc.devRef .tc b) :=
  StableHlo.after_of_forall_not_mem (b := Proc.devRef .tc b) hostOps1 (W4 m ρ c) (List.forall_iff_forall_mem.mp (by
    obtain ⟨h1, h2, h3⟩ := h
    simp only [hostOps1, List.Forall, StableHlo.unary_writes, StableHlo.binary_writes, StableHlo.reshape_writes, Finset.mem_singleton]
    exact ⟨StableHlo.devRef_ne_of_ne h1, StableHlo.devRef_ne_of_ne h2, StableHlo.devRef_ne_of_ne h3⟩))

theorem W3_arg0 (c : Dev nD) : W3 m ρ c (Proc.devRef .tc main_arg0) = m ((c : Thread nD τ).loc main_arg0) := by
  have e2 : W3 m ρ c (Proc.devRef .tc main_arg0) = W2 m ρ c (Proc.devRef .tc main_arg0) := by
    show StableHlo.after hostOps0_2 (W2 m ρ c) (Proc.devRef .tc main_arg0) = _
    after_results_simp
  have e1 : W2 m ρ c (Proc.devRef .tc main_arg0) = W1 m ρ c (Proc.devRef .tc main_arg0) := by
    show StableHlo.after hostOps0_1 (W1 m ρ c) (Proc.devRef .tc main_arg0) = _
    after_results_simp
  have e0 : W1 m ρ c (Proc.devRef .tc main_arg0) = m ((c : Thread nD τ).loc main_arg0) := by
    show StableHlo.after hostOps0 (W0 m ρ c) (Proc.devRef .tc main_arg0) = _
    after_results_simp
  exact e2.trans (e1.trans e0)

theorem W3_arg1 (c : Dev nD) : W3 m ρ c (Proc.devRef .tc main_arg1) = m ((c : Thread nD τ).loc main_arg1) := by
  have e2 : W3 m ρ c (Proc.devRef .tc main_arg1) = W2 m ρ c (Proc.devRef .tc main_arg1) := by
    show StableHlo.after hostOps0_2 (W2 m ρ c) (Proc.devRef .tc main_arg1) = _
    after_results_simp
  have e1 : W2 m ρ c (Proc.devRef .tc main_arg1) = W1 m ρ c (Proc.devRef .tc main_arg1) := by
    show StableHlo.after hostOps0_1 (W1 m ρ c) (Proc.devRef .tc main_arg1) = _
    after_results_simp
  have e0 : W1 m ρ c (Proc.devRef .tc main_arg1) = m ((c : Thread nD τ).loc main_arg1) := by
    show StableHlo.after hostOps0 (W0 m ρ c) (Proc.devRef .tc main_arg1) = _
    after_results_simp
  exact e2.trans (e1.trans e0)

theorem W3_arg2 (c : Dev nD) : W3 m ρ c (Proc.devRef .tc main_arg2) = m ((c : Thread nD τ).loc main_arg2) := by
  have e2 : W3 m ρ c (Proc.devRef .tc main_arg2) = W2 m ρ c (Proc.devRef .tc main_arg2) := by
    show StableHlo.after hostOps0_2 (W2 m ρ c) (Proc.devRef .tc main_arg2) = _
    after_results_simp
  have e1 : W2 m ρ c (Proc.devRef .tc main_arg2) = W1 m ρ c (Proc.devRef .tc main_arg2) := by
    show StableHlo.after hostOps0_1 (W1 m ρ c) (Proc.devRef .tc main_arg2) = _
    after_results_simp
  have e0 : W1 m ρ c (Proc.devRef .tc main_arg2) = m ((c : Thread nD τ).loc main_arg2) := by
    show StableHlo.after hostOps0 (W0 m ρ c) (Proc.devRef .tc main_arg2) = _
    after_results_simp
  exact e2.trans (e1.trans e0)

theorem W3_arg3 (c : Dev nD) : W3 m ρ c (Proc.devRef .tc main_arg3) = m ((c : Thread nD τ).loc main_arg3) := by
  have e2 : W3 m ρ c (Proc.devRef .tc main_arg3) = W2 m ρ c (Proc.devRef .tc main_arg3) := by
    show StableHlo.after hostOps0_2 (W2 m ρ c) (Proc.devRef .tc main_arg3) = _
    after_results_simp
  have e1 : W2 m ρ c (Proc.devRef .tc main_arg3) = W1 m ρ c (Proc.devRef .tc main_arg3) := by
    show StableHlo.after hostOps0_1 (W1 m ρ c) (Proc.devRef .tc main_arg3) = _
    after_results_simp
  have e0 : W1 m ρ c (Proc.devRef .tc main_arg3) = m ((c : Thread nD τ).loc main_arg3) := by
    show StableHlo.after hostOps0 (W0 m ρ c) (Proc.devRef .tc main_arg3) = _
    after_results_simp
  exact e2.trans (e1.trans e0)

theorem W3_arg4 (c : Dev nD) : W3 m ρ c (Proc.devRef .tc main_arg4) = m ((c : Thread nD τ).loc main_arg4) := by
  have e2 : W3 m ρ c (Proc.devRef .tc main_arg4) = W2 m ρ c (Proc.devRef .tc main_arg4) := by
    show StableHlo.after hostOps0_2 (W2 m ρ c) (Proc.devRef .tc main_arg4) = _
    after_results_simp
  have e1 : W2 m ρ c (Proc.devRef .tc main_arg4) = W1 m ρ c (Proc.devRef .tc main_arg4) := by
    show StableHlo.after hostOps0_1 (W1 m ρ c) (Proc.devRef .tc main_arg4) = _
    after_results_simp
  have e0 : W1 m ρ c (Proc.devRef .tc main_arg4) = m ((c : Thread nD τ).loc main_arg4) := by
    show StableHlo.after hostOps0 (W0 m ρ c) (Proc.devRef .tc main_arg4) = _
    after_results_simp
  exact e2.trans (e1.trans e0)

/-- Each argument ends as launched. -/
theorem W5_arg0 (c : Dev nD) : W5 m ρ c (Proc.devRef .tc main_arg0) = m ((c : Thread nD τ).loc main_arg0) :=
  (W5_of_W4 m ρ c main_arg0 (by decide)).trans ((W4_of_ne m ρ c main_arg0 (by decide)).trans (W3_arg0 m ρ c))
theorem W5_arg1 (c : Dev nD) : W5 m ρ c (Proc.devRef .tc main_arg1) = m ((c : Thread nD τ).loc main_arg1) :=
  (W5_of_W4 m ρ c main_arg1 (by decide)).trans ((W4_of_ne m ρ c main_arg1 (by decide)).trans (W3_arg1 m ρ c))
theorem W5_arg2 (c : Dev nD) : W5 m ρ c (Proc.devRef .tc main_arg2) = m ((c : Thread nD τ).loc main_arg2) :=
  (W5_of_W4 m ρ c main_arg2 (by decide)).trans ((W4_of_ne m ρ c main_arg2 (by decide)).trans (W3_arg2 m ρ c))
theorem W5_arg3 (c : Dev nD) : W5 m ρ c (Proc.devRef .tc main_arg3) = m ((c : Thread nD τ).loc main_arg3) :=
  (W5_of_W4 m ρ c main_arg3 (by decide)).trans ((W4_of_ne m ρ c main_arg3 (by decide)).trans (W3_arg3 m ρ c))
theorem W5_arg4 (c : Dev nD) : W5 m ρ c (Proc.devRef .tc main_arg4) = m ((c : Thread nD τ).loc main_arg4) :=
  (W5_of_W4 m ρ c main_arg4 (by decide)).trans ((W4_of_ne m ρ c main_arg4 (by decide)).trans (W3_arg4 m ρ c))

/-! ## The result -/

/-- The last stretch's result: the output array plus the broadcast bias. -/
theorem W5_v16 (c : Dev nD) : W5 m ρ c (Proc.devRef .tc main_v16)
    = addf (W4 m ρ c (Proc.devRef .tc main_v13))
        (broadcastInDim S8192 ![] bcast_S_S8192 (shapeCast S_ (W4 m ρ c (Proc.devRef .tc main_arg4)) shapeCasts_S1_S_)) := by
  show StableHlo.after hostOps1 (W4 m ρ c) (Proc.devRef .tc main_v16) = _
  after_results
  rfl

end Cert.KernelIdeal.Hand

namespace Cert.KernelIdeal.Hand

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (ρ : Dev nD → PrngReg)

/-- The result, the pipeline's output array and the bias, at their literal types. -/
abbrev resV (c : Dev nD) : FVec Ideal S8192 .f32 := W5 m ρ c (Proc.devRef .tc main_v16)
abbrev outV (c : Dev nD) : FVec Ideal S8192 .f32 := out13 m ρ c
abbrev biasV (c : Dev nD) : FVec Ideal S1 .f32 := m ((c : Thread nD τ).loc main_arg4)

/-- Over the extended reals: entry `i` of the result is entry `i` of what the pipeline leaves plus the bias. -/
theorem W5_v16_apply (c : Dev nD) (i : Fin 8192) :
    resV m ρ c (ix1 i) = outV m ρ c (ix1 i) + biasV m c (ix1 (0 : Fin 1)) := by
  unfold resV outV biasV
  rw [W5_v16, show W4 m ρ c (Proc.devRef .tc main_v13) = out13 m ρ c from W4_v13 m ρ c,
    show W4 m ρ c (Proc.devRef .tc main_arg4) = m ((c : Thread nD τ).loc main_arg4) from (W4_of_ne m ρ c main_arg4 (by decide)).trans (W3_arg4 m ρ c)]
  refine (addf_apply _ _ _).trans ?_
  congr 1
  rw [broadcastInDim_apply (![] : Fin 0 → Fin 1) bcast_S_S8192 _ (ix1 i) ix0 (fun a => a.elim0)]
  exact shapeCast_apply _ shapeCasts_S1_S_ ix0 (ix1 (0 : Fin 1)) (by decide)

end Cert.KernelIdeal.Hand

end
-- ==== Proof.Spec.lean ====
/-
  The function both programs compute, over the extended reals, from the standardized sample matrix `X`
  (8192 rows of two coordinates) and the weight row `w` (8192 entries).

  For a query row `i` and a key row `j`, with `a = X i` and `b = X j`:
    `K i j = max ((|a|² + |b|²) - 2 (a · b)) 0`   (the squared distance, clamped at zero),
    `term i j = ((-1/2) K) (exp K) (w j)`,
  and the result at row `i` is the sum of `term i j` over all 8192 keys. The three literals 2, 0 and -1/2 stay as
  the float words the programs print: the same word stands on both sides, so it is never evaluated (only the zero
  word is, where a sum starts from it).
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx
open scoped BigOperators

/-- The literals, as the words both programs print. -/
abbrev two : EReal := Ideal.ofBits .f32 0x40000000#32
abbrev zero : EReal := Ideal.ofBits .f32 0x00000000#32
abbrev negHalf : EReal := Ideal.ofBits .f32 0xBF000000#32

/-- The clamped squared distance of two points of the plane, from their coordinates. -/
def dist2 (a0 a1 b0 b1 : EReal) : EReal :=
  max (((a0 * a0 + a1 * a1) + (b0 * b0 + b1 * b1)) - two * (a0 * b0 + a1 * b1)) zero

/-- One key's contribution to a query row: `((-1/2) K) (exp K) w`. -/
def term (a0 a1 b0 b1 w : EReal) : EReal :=
  ((negHalf * dist2 a0 a1 b0 b1) * Ideal.exp (dist2 a0 a1 b0 b1)) * w

/-- Query row `i` against key row `j` of the sample matrix, with the key's weight. -/
def pair (X : (⟨2, ![8192, 2]⟩ : Shape).Idx → EReal) (w : (⟨2, ![1, 8192]⟩ : Shape).Idx → EReal) (i j : Fin 8192) : EReal :=
  term (X (ix2 i (0 : Fin 2))) (X (ix2 i (1 : Fin 2))) (X (ix2 j (0 : Fin 2))) (X (ix2 j (1 : Fin 2))) (w (ix2 (0 : Fin 1) j))

/-- THE RESULT before the bias: for each query row the sum over all keys. -/
def G (X : (⟨2, ![8192, 2]⟩ : Shape).Idx → EReal) (w : (⟨2, ![1, 8192]⟩ : Shape).Idx → EReal) (i : Fin 8192) : EReal :=
  ∑ j : Fin 8192, pair X w i j

/-- The zero word is the real zero. -/
theorem zero_eq : zero = 0 := Ideal.ofBits_zero_f32

/-- A sum over 8192 keys taken column block by column block (8 blocks of 1024), each block's sum started from zero
    and added to a running total started from zero, is the sum over all keys: addition on the extended reals is
    commutative and associative and zero is neutral, whatever the terms. -/
theorem blocked_sum (f : Fin 8192 → EReal) :
    (∑ b : Fin 8, ∑ q : Fin 1024, f ⟨1024 * b.val + q.val, by omega⟩) = ∑ j : Fin 8192, f j := by
  rw [← Finset.sum_product']
  refine Finset.sum_bij' (fun p _ => (⟨1024 * p.1.val + p.2.val, by omega⟩ : Fin 8192)) (fun j _ => ((⟨j.val / 1024, by omega⟩ : Fin 8), (⟨j.val % 1024, Nat.mod_lt _ (by norm_num)⟩ : Fin 1024)))
    (fun _ _ => Finset.mem_univ _) (fun _ _ => Finset.mem_univ _) ?_ ?_ (fun _ _ => rfl)
  · rintro ⟨⟨b, hb⟩, ⟨q, hq⟩⟩ _
    simp only [Prod.mk.injEq, Fin.mk.injEq]
    constructor <;> omega
  · rintro ⟨j, hj⟩ _
    simp only [Fin.mk.injEq]
    omega

end Cert.Spec

end
-- ==== Proof.KI.Payload.lean ====
/-
  The kernel body's three pure terms read at an index, over the extended reals: the zero the output block is reset
  to; the running sum plus a block pair's row sums; and the row sums themselves — for query row `p` of the row tile
  the zero the lane sum starts from plus the sum over the 1024 keys of the column tile of `((-1/2) K) (exp K) w`,
  `K` the clamped squared distance of the two points.
-/
import proofs.«149665_j71691594105115_1_alg».proof.Proof.Gen.KernelIdeal.Skeleton
import proofs.«149665_j71691594105115_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.ValueIdx
open scoped BigOperators

/-! ## Two layout operations on a column, read at coordinates -/

section Column
variable {α : Type}

/-- An `[a, 1]` column cast to the vector `[a]` reads, at `i`, the column at `(i, 0)`: the two row-major positions
    are `i * 1 + 0` and `i`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A matrix's column `c` (the cut's offset `o`) taken as an `[a, 1]` column reads, at `(p, 0)`, the matrix at `(p, c)`. -/
theorem column_apply {a n : ℕ} (o : ℕ) (X : (⟨2, ![a, n]⟩ : Shape).Idx → α)
    (h : (⟨2, ![a, n]⟩ : Shape).Slices ![0, o] ⟨2, ![a, 1]⟩) (p : Fin a) (c : Fin n) (hc : c.val = o) :
    extractStridedSlice ⟨2, ![a, 1]⟩ ![0, o] X h (ix2 p (0 : Fin 1)) = X (ix2 p c) :=
  slice2_axis1_apply o X h p (0 : Fin 1) c hc

end Column

/-! ## The reset value and the accumulating store -/

/-- The reset value is the zero word everywhere. -/
theorem pay2_apply (p : Fin 512) : k0_pay2 (F := Ideal) (ix1 p) = Cert.Spec.zero := rfl

/-- The body's last store: what the buffer held plus the point's row sums, entry by entry. -/
theorem pay1_apply (v44 : FVec Ideal S512 .f32) (v45 : Vec Ideal S512 .f32) (p : Fin 512) :
    k0_pay1 (F := Ideal) v44 v45 (ix1 p) = v45 (ix1 p) + v44 (ix1 p) := by
  unfold k0_pay1
  rw [shapeCast_self]
  rfl

/-! ## The row sums -/

/-- The lane sum's source index over row `p` with key `q` inserted is `(p, q)`. -/
theorem lift_row (p : Fin 512) (q : Fin 1024) :
    reduces_S512x1024_S512.lift (ix1 p) q = ix2 p q := by
  funext c
  match c with
  | ⟨0, _⟩ => rfl
  | ⟨1, _⟩ => rfl

/-- An exponential at an index is the exponential of the element. -/
theorem exp_apply {s : Shape} {φ : FTy} (a : FVec Ideal s φ) (i : s.Idx) : exp a i = Ideal.exp (a i) := rfl

/-- The row sums of a block pair: query row `p` against the 1024 keys of the column tile, from zero. -/
theorem pay3_apply (x0 : Vec Ideal S512x2 .f32) (x1 : Vec Ideal S1024x2 .f32) (x2 : Vec Ideal S1x1024 .f32) (p : Fin 512) :
    k0_pay3 (F := Ideal) x0 x1 x2 (ix1 p)
      = Cert.Spec.zero + ∑ q : Fin 1024, Cert.Spec.term (x0 (ix2 p (0 : Fin 2))) (x0 (ix2 p (1 : Fin 2)))
          (x1 (ix2 q (0 : Fin 2))) (x1 (ix2 q (1 : Fin 2))) (x2 (ix2 (0 : Fin 1) q)) := by
  unfold k0_pay3
  refine (Ideal.multiReduction_add_single _ _ reduces_S512x1024_S512 _ _ (ix1 p)).trans ?_
  rw [Cert.Spec.zero_eq, zero_add]
  refine Finset.sum_congr rfl fun (q : Fin 1024) _ => ?_
  rw [lift_row p q]
  simp only [mulf_apply, addf_apply, subf_apply, maximumf_apply, exp_apply, broadcast_apply,
    broadcastTo_a1_ab_apply, broadcastTo_1b_ab_apply, shapeCast_a_1a_apply, shapeCast_a1_a_apply, shapeCast_self]
  rw [column_apply 0 x0 slices_S512x2_o0_0_S512x1 p (0 : Fin 2) rfl,
    column_apply 1 x0 slices_S512x2_o0_1_S512x1 p (1 : Fin 2) rfl,
    column_apply 0 x1 slices_S1024x2_o0_0_S1024x1 q (0 : Fin 2) rfl,
    column_apply 1 x1 slices_S1024x2_o0_1_S1024x1 q (1 : Fin 2) rfl]
  rfl

end Cert.KernelIdeal.Hand

end
-- ==== Proof.KI.Value.lean ====
/-
  What the output array holds after the pipeline, row by row: the specification's function of the standardized sample
  matrix `X` (8192 rows of two coordinates) and the weight row `w` (8192 entries).

  The grid is 16 x 8: point `t` is row tile `t / 8` and column tile `t % 8`. At point `t` the two sample blocks are
  rows `512 (t / 8) ..` and rows `1024 (t % 8) ..` of `X`, the weight block is entries `1024 (t % 8) ..` of `w` (a
  block's coordinate in its array is the block index times the block size plus the coordinate inside the block). So the
  point's row sums are, for row `p` of the row tile, zero plus the sum over the 1024 keys of the column tile of the
  specification's term of query row `512 (t / 8) + p` and key row `1024 (t % 8) + q`.

  The output's buffer is reset to zero where the column tile is 0 and every point adds its row sums, so after point
  `t` it holds the sum over the column tiles `0 … t % 8` of those tiles' 1024 terms each (induction on the point;
  zero is neutral and addition on the extended reals is associative). The points that write back are those of column
  tile 7: there the sum runs over all eight tiles, which is the sum over all 8192 keys, the specification's row. Row
  `i` of the output lies in the block written back at point `8 (i / 512) + 7`, so every row ends at the
  specification's value.
-/
import proofs.«149665_j71691594105115_1_alg».proof.Proof.KI.Data
import proofs.«149665_j71691594105115_1_alg».proof.Proof.KI.Payload
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)
open scoped BigOperators

variable (V : (c : Dev nD) → (b : Ref sig .tc) → Buf (Elt Ideal) ((c : Thread nD τ).loc b))

/-- The printed index maps over the grid: at point `t` window 0 and the output are at row tile `t / 8`, window 1 and
    the weights at column tile `t % 8`; every other block index is 0. -/
theorem point_tiles : ∀ t : Fin cfg0.N, win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = 0 ∧ win0_2.index t (1 : Fin 2) = t.val % 8
    ∧ win0_3.index t (0 : Fin 1) = t.val / 8 :=
  (by decide +kernel : ∀ t : Fin grid0.N, _)

/-- The sample-matrix block of window 0 at point `t`: its row `p` is row `512 (t / 8) + p` of the matrix. -/
theorem qblk_apply (c : Dev nD) (t : Fin cfg0.N) (p : Fin 512) (k : Fin 2) (i : Fin 8192)
    (hi : i.val = 512 * (t.val / 8) + p.val) :
    qblk V c t (ix2 p k) = V c main_v12 (ix2 i k) := by
  obtain ⟨e0, e1, -⟩ := point_tiles t
  show V c main_v12 (((cfg0.win 0).blk t).view.emb (ix2 p k)) = V c main_v12 (ix2 i k)
  congr 1
  funext a
  apply Fin.ext
  match a with
  | ⟨0, _⟩ => show win0_0.index t (0 : Fin 2) * 512 + 1 * p.val = i.val; rw [e0, hi]; omega
  | ⟨1, _⟩ => show win0_0.index t (1 : Fin 2) * 2 + 1 * k.val = k.val; rw [e1]; omega

/-- The sample-matrix block of window 1 at point `t`: its row `q` is row `1024 (t % 8) + q` of the matrix. -/
theorem kblk_apply (c : Dev nD) (t : Fin cfg0.N) (q : Fin 1024) (k : Fin 2) (j : Fin 8192)
    (hj : j.val = 1024 * (t.val % 8) + q.val) :
    kblk V c t (ix2 q k) = V c main_v12 (ix2 j k) := by
  obtain ⟨-, -, e2, e3, -⟩ := point_tiles t
  show V c main_v12 (((cfg0.win 1).blk t).view.emb (ix2 q k)) = V c main_v12 (ix2 j k)
  congr 1
  funext a
  apply Fin.ext
  match a with
  | ⟨0, _⟩ => show win0_1.index t (0 : Fin 2) * 1024 + 1 * q.val = j.val; rw [e2, hj]; omega
  | ⟨1, _⟩ => show win0_1.index t (1 : Fin 2) * 2 + 1 * k.val = k.val; rw [e3]; omega

/-- The weight block at point `t`: its entry `q` is entry `1024 (t % 8) + q` of the weight row. -/
theorem wblk_apply (c : Dev nD) (t : Fin cfg0.N) (q : Fin 1024) (j : Fin 8192)
    (hj : j.val = 1024 * (t.val % 8) + q.val) :
    wblk V c t (ix2 (0 : Fin 1) q) = V c main_arg3 (ix2 (0 : Fin 1) j) := by
  obtain ⟨-, -, -, -, e4, e5, -⟩ := point_tiles t
  show V c main_arg3 (((cfg0.win 2).blk t).view.emb (ix2 (0 : Fin 1) q)) = V c main_arg3 (ix2 (0 : Fin 1) j)
  congr 1
  funext a
  apply Fin.ext
  match a with
  | ⟨0, _⟩ => show win0_2.index t (0 : Fin 2) * 1 + 1 * (0 : Fin 1).val = (0 : Fin 1).val; rw [e4]; rfl
  | ⟨1, _⟩ => show win0_2.index t (1 : Fin 2) * 1024 + 1 * q.val = j.val; rw [e5, hj]; omega

/-- Query row `i` against the key at position `n` of the sample matrix, the keys counted by natural numbers: zero
    past the last key (never read). -/
def pairN (X : S8192x2.Idx → EReal) (w : S1x8192.Idx → EReal) (i : Fin 8192) (n : ℕ) : EReal :=
  if h : n < 8192 then Cert.Spec.pair X w i ⟨n, h⟩ else 0

/-- The row sums of the block pair at point `t`: query row `512 (t / 8) + p` against the 1024 keys of column tile
    `t % 8`, from zero. -/
theorem part_apply (c : Dev nD) (t : Fin cfg0.N) (p : Fin 512) (i : Fin 8192)
    (hi : i.val = 512 * (t.val / 8) + p.val) :
    (part V c t (ix1 p) : EReal)
      = Cert.Spec.zero + ∑ q : Fin 1024, pairN (V c main_v12) (V c main_arg3) i (1024 * (t.val % 8) + q.val) := by
  refine (pay3_apply (qblk V c t) (kblk V c t) (wblk V c t) p).trans ?_
  congr 1
  refine Finset.sum_congr rfl fun q _ => ?_
  have hq : 1024 * (t.val % 8) + q.val < 8192 := by have := q.isLt; omega
  rw [pairN, dif_pos hq]
  unfold Cert.Spec.pair
  rw [qblk_apply V c t p 0 i hi, qblk_apply V c t p 1 i hi, kblk_apply V c t q 0 ⟨_, hq⟩ rfl,
    kblk_apply V c t q 1 ⟨_, hq⟩ rfl, wblk_apply V c t q ⟨_, hq⟩ rfl]

/-- A point whose column tile is 0: the buffer is reset, and ends at the point's row sums. -/
theorem reset_apply (c : Dev nD) (t : Fin cfg0.N) (p : Fin 512) (i : Fin 8192)
    (hi : i.val = 512 * (t.val / 8) + p.val) :
    (k0_pay1 (F := Ideal) (part V c t) (k0_pay2 (F := Ideal)) (ix1 p) : EReal)
      = ∑ q : Fin 1024, pairN (V c main_v12) (V c main_arg3) i (1024 * (t.val % 8) + q.val) := by
  refine (pay1_apply (part V c t) (k0_pay2 (F := Ideal)) p).trans ?_
  rw [pay2_apply p, part_apply V c t p i hi, Cert.Spec.zero_eq, zero_add, zero_add]

/-- THE INVARIANT: after the body at point `n` the output's buffer holds, at row `p`, the sum over the column tiles
    `0 … n % 8` of the row tile `n / 8` of each tile's 1024 terms. By induction on the point: a point of column
    tile 0 resets, every other adds its tile's row sums to what the point before left. -/
theorem acc_apply (c : Dev nD) (p : Fin 512) : ∀ (n : ℕ) (hn : n < cfg0.N) (i : Fin 8192)
    (hi : i.val = 512 * (n / 8) + p.val),
    (acc V c n hn (ix1 p) : EReal)
      = ∑ b ∈ Finset.range (n % 8 + 1), ∑ q : Fin 1024, pairN (V c main_v12) (V c main_arg3) i (1024 * b + q.val)
  | 0, hn, i, hi => by
    refine (reset_apply V c ⟨0, hn⟩ p i hi).trans ?_
    rw [Finset.sum_range_one]
    rfl
  | n + 1, hn, i, hi => by
    by_cases h0 : (n + 1) % 8 = 0
    · rw [acc_reset V c ⟨n + 1, hn⟩ h0]
      refine (reset_apply V c ⟨n + 1, hn⟩ p i hi).trans ?_
      show (∑ q : Fin 1024, pairN (V c main_v12) (V c main_arg3) i (1024 * ((n + 1) % 8) + q.val)) = _
      rw [h0, Finset.sum_range_one]
    · have hs : (n + 1) % 8 = n % 8 + 1 := by omega
      have hi' : i.val = 512 * (n / 8) + p.val := by omega
      rw [acc_step V c ⟨n + 1, hn⟩ h0]
      refine (pay1_apply (part V c ⟨n + 1, hn⟩) (acc V c n (Nat.lt_of_succ_lt hn)) p).trans ?_
      rw [acc_apply c p n (Nat.lt_of_succ_lt hn) i hi', part_apply V c ⟨n + 1, hn⟩ p i hi, Cert.Spec.zero_eq, zero_add]
      show _ + (∑ q : Fin 1024, pairN (V c main_v12) (V c main_arg3) i (1024 * ((n + 1) % 8) + q.val)) = _
      rw [hs, Finset.sum_range_succ _ (n % 8 + 1)]

/-- All eight column tiles: the sum over every key, the specification's row. -/
theorem full_sum (X : S8192x2.Idx → EReal) (w : S1x8192.Idx → EReal) (i : Fin 8192) :
    (∑ b ∈ Finset.range 8, ∑ q : Fin 1024, pairN X w i (1024 * b + q.val)) = Cert.Spec.G X w i := by
  rw [Finset.sum_range, Cert.Spec.G, ← Cert.Spec.blocked_sum]
  refine Finset.sum_congr rfl fun b _ => Finset.sum_congr rfl fun q _ => ?_
  have hq : 1024 * b.val + q.val < 8192 := by have := b.isLt; have := q.isLt; omega
  rw [pairN, dif_pos hq]

/-- WHAT A FLUSHING POINT WRITES BACK (column tile 7): its block of the specification's function. -/
theorem flushed3_eq (c : Dev nD) (t : Fin cfg0.N) (hf : (cfg0.win 3).flush t = true) :
    (dats V 0 c).flushed 3 t = ((cfg0.win 3).blk t).view.read (Elt Ideal)
      (fun idx : S8192.Idx => Cert.Spec.G (V c main_v12) (V c main_arg3) (idx 0)) := by
  have h7 : t.val % 8 = 7 := (flush0_3 t).mp hf
  obtain ⟨-, -, -, -, -, -, e6⟩ := point_tiles t
  show (cfg0.win 3).cut (grid0.coords t) ((dats V 0 c).after 3 t) = _
  rw [after_3]
  funext y
  have hy : (y 0).val < 512 := (y 0).isLt
  have ey : win0_3.xinj (grid0.coords t) y = ix1 (⟨(y 0).val, hy⟩ : Fin 512) := by
    funext a; match a with | ⟨0, _⟩ => rfl
  show (acc V c t.val t.isLt (win0_3.xinj (grid0.coords t) y) : EReal)
    = Cert.Spec.G (V c main_v12) (V c main_arg3) (((cfg0.win 3).blk t).view.emb y 0)
  have hi : (((cfg0.win 3).blk t).view.emb y 0).val = 512 * (t.val / 8) + (y 0).val := by
    show win0_3.index t (0 : Fin 1) * 512 + 1 * (y 0).val = _
    rw [e6]; omega
  rw [ey, acc_apply V c ⟨(y 0).val, hy⟩ t.val t.isLt (((cfg0.win 3).blk t).view.emb y 0) hi, h7]
  exact full_sum _ _ _

/-- THE OUTPUT ARRAY after the pipeline: the specification's function of the sample matrix and the weight row. Row
    `i` is in the block of the flushing point `8 (i / 512) + 7`. -/
theorem arr3_eq (c : Dev nD) : (dats V 0 c).arrAt 3 cfg0.N
    = (fun idx : S8192.Idx => Cert.Spec.G (V c main_v12) (V c main_arg3) (idx 0)) :=
  (dats V 0 c).arrAt_eq_of_cover 3 _ (flushed3_eq V c) fun i => by
    have hi : (i 0).val < 8192 := (i 0).isLt
    obtain ⟨t, ht⟩ : ∃ t : Fin cfg0.N, t.val = 8 * ((i 0).val / 512) + 7 :=
      ⟨⟨8 * ((i 0).val / 512) + 7, by rw [show cfg0.N = 128 from N_0]; omega⟩, rfl⟩
    obtain ⟨-, -, -, -, -, -, e6⟩ := point_tiles t
    refine ⟨t, (flush0_3 t).mpr (by omega), ?_⟩
    show i ∈ ((View.whole main_v13).slice (win0_3.rect t)).set
    rw [View.set_slice_whole, Rect.mem_set_unit]
    intro a
    match a with
    | ⟨0, _⟩ =>
      show win0_3.index t (0 : Fin 1) * 512 ≤ (i 0).val ∧ (i 0).val < win0_3.index t (0 : Fin 1) * 512 + 512
      rw [e6]; omega

/-- Row `i` of the output array after the pipeline is the specification's row `i`. -/
theorem arr3_apply (c : Dev nD) (i : Fin 8192) :
    (dats (F := Ideal) V 0 c).arrAt 3 cfg0.N (ValueIdx.ix1 i) = Cert.Spec.G (V c main_v12) (V c main_arg3) i :=
  congrFun (arr3_eq V c) (ix1 i)

end Cert.KernelIdeal.Hand

end
-- ==== Proof.K.Data.lean ====
/-
  The pairwise kernel's pipeline, core by core: what each window's staging buffer holds after the body at every
  grid point, for ANY contents `V` the unscoped buffers hold when the region is entered.

  The grid is 16 x 8: point `t` is row block `t / 8` and column block `t % 8`. Windows 0 and 1 both read the
  standardized sample matrix (rows `512 (t / 8) ..` and rows `1024 (t % 8) ..`), window 2 reads the weight row's
  columns `1024 (t % 8) ..`, window 3 is the output's rows `512 (t / 8) ..`, written back when the column block is
  the last one. The body never stores into an input buffer, so each input buffer holds its block after the body.
  The output buffer carries the running sum over the column blocks: it is reset to zero when the column block is 0
  and each point adds that block's weighted row sums (`acc`).
-/
import proofs.«149665_j71691594105115_1_alg».proof.Proof.Gen.Kernel.Launch
import proofs.«149665_j71691594105115_1_alg».proof.Proof.Gen.Kernel.Skeleton
import proofs.«149665_j71691594105115_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The three input blocks at point `t`, at their literal types: 512 query rows, 1024 key rows, 1024 weights. -/
abbrev qblk (c : Dev nD) (t : Fin cfg0.N) : Vec F S512x2 .f32 := iblk V c 0 t
abbrev kblk (c : Dev nD) (t : Fin cfg0.N) : Vec F S1024x2 .f32 := iblk V c 1 t
abbrev wblk (c : Dev nD) (t : Fin cfg0.N) : Vec F S1x1024 .f32 := iblk V c 2 t

/-- The weighted row sums of the block pair at point `t`: for each of the 512 query rows the sum over the 1024 key
    rows of `(-1/2) K exp K` times the key's weight, `K` the clamped squared distance. -/
abbrev part (c : Dev nD) (t : Fin cfg0.N) : FVec F S512 .f32 := k0_pay3 (qblk V c t) (kblk V c t) (wblk V c t)

/-- THE ACCUMULATION: what the output's staging buffer holds after the body at position `n`. Where the column block
    is 0 the buffer is zeroed first, so it ends at zero plus the point's row sums; elsewhere at what the point before
    left plus the point's row sums. -/
def acc (c : Dev nD) : (n : ℕ) → n < cfg0.N → Vec F S512 .f32
  | 0, hn => k0_pay1 (part V c ⟨0, hn⟩) (k0_pay2 (F := F))
  | n + 1, hn =>
    if (n + 1) % 8 = 0 then k0_pay1 (part V c ⟨n + 1, hn⟩) (k0_pay2 (F := F))
    else k0_pay1 (part V c ⟨n + 1, hn⟩) (acc c n (Nat.lt_of_succ_lt hn))

theorem acc_reset (c : Dev nD) (t : Fin cfg0.N) (h0 : t.val % 8 = 0) :
    acc V c t.val t.isLt = k0_pay1 (part V c t) (k0_pay2 (F := F)) := by
  obtain ⟨n, hn⟩ := t
  cases n with
  | zero => rfl
  | succ n => exact (if_pos h0).trans rfl

theorem acc_step (c : Dev nD) (t : Fin cfg0.N) (h0 : ¬ t.val % 8 = 0) :
    acc V c t.val t.isLt = k0_pay1 (part V c t) (acc V c (t.val - 1) (Nat.lt_of_le_of_lt (Nat.sub_le _ _) t.isLt)) := by
  obtain ⟨n, hn⟩ := t
  cases n with
  | zero => exact absurd (Nat.zero_mod _) h0
  | succ n => exact (if_neg h0).trans rfl

/-- The proof data on core `c`: the arrays as the region finds them; every input buffer at its block after the body,
    the output buffer at the running sum; the invariant the scoped rest and the generator register; nothing owed.
    Windows 0 and 1 read ONE array, the standardized samples: each holds half of it. -/
def dats (_ : Fin 1) (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => acc V c t.val t.isLt
  Φ _ := Pipeline.ΦA spec0 c
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats V 0 c).A w = V c (Pipeline.arrRef spec0 w) := by
  dsimp only [dats]

theorem after_0 (c : Dev nD) (t : Fin cfg0.N) : (dats V 0 c).after 0 t = iblk V c 0 t := by dsimp only [dats]
theorem after_1 (c : Dev nD) (t : Fin cfg0.N) : (dats V 0 c).after 1 t = iblk V c 1 t := by dsimp only [dats]
theorem after_2 (c : Dev nD) (t : Fin cfg0.N) : (dats V 0 c).after 2 t = iblk V c 2 t := by dsimp only [dats]
theorem after_3 (c : Dev nD) (t : Fin cfg0.N) : (dats V 0 c).after 3 t = acc V c t.val t.isLt := by dsimp only [dats]

end Cert.Kernel.Hand

end
-- ==== Proof.K.Run.lean ====
/-
  The pairwise program's run: @main as five segments — three stretches of host operations that standardize the
  samples, the kernel region, and the stretch that adds the bias — composed by the library's launch for a list of
  segments. Between two segments a core holds every unscoped buffer whole at a valuation: the launch contents, then
  each stretch's results folded in, and after the region the output array at what the pipeline's write-backs leave.

  Windows 0 and 1 of the region read ONE array, the standardized samples. At the region's entry that buffer, held
  whole, is split in two halves, one per window; at the exit the two halves, still at the entry contents (an input
  array is never written), are joined again.
-/
import proofs.«149665_j71691594105115_1_alg».proof.Proof.K.Data
import Idealize.ShloMosaic.Lib.Pipeline.Regions

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Arrays

variable (V : (c : Dev nD) → (b : Ref sig .tc) → Buf (Elt F) ((c : Thread nD τ).loc b))

/-- The buffers behind the four windows' arrays are three: the samples, the weights, the output. -/
theorem arrRefs_eq : (Finset.univ.image (Pipeline.arrRef spec0) : Finset (Ref sig .tc)) = [main_v12, main_arg3, main_v13].toFinset := by
  decide

/-- The shares the proof data hold the arrays at. -/
theorem share_0 (c : Dev nD) : (dats V 0 c).share 0 = fullShare.left := rfl
theorem share_1 (c : Dev nD) : (dats V 0 c).share 1 = fullShare.right := rfl
theorem share_2 (c : Dev nD) : (dats V 0 c).share 2 = fullShare := rfl
theorem share_3 (c : Dev nD) : (dats V 0 c).share 3 = fullShare := rfl

/-- The three buffers, one by one. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v12) ↦{fullShare} W main_v12) ∗ (((c : Thread nD τ).loc main_arg3) ↦{fullShare} W main_arg3)
          ∗ (((c : Thread nD τ).loc main_v13) ↦{fullShare} W main_v13)) :=
  bigSep_eq_bigSepL_of_eq [main_v12, main_arg3, main_v13] arrRefs_eq (by decide) _

/-- The four windows' arrays, one by one, each at its share. -/
theorem arrays_eq4 (c : Dev nD) (G : (w : Fin cfg0.W) → Buf (Elt F) ((cfg0.win w).arr.view.loc (c : Thread nD τ))) :
    ((dats V 0 c).arrays G : sProp 𝕄)
      = iprop((((c : Thread nD τ).loc main_v12) ↦{fullShare.left} G 0) ∗ (((c : Thread nD τ).loc main_v12) ↦{fullShare.right} G 1)
          ∗ (((c : Thread nD τ).loc main_arg3) ↦{fullShare} G 2) ∗ (((c : Thread nD τ).loc main_v13) ↦{fullShare} G 3)) := by
  unfold Dat.arrays
  rw [bigSep_W0]
  simp only [share_0, share_1, share_2, share_3]
  rw [(arr_whole0 0).set_eq_univ, (arr_whole0 2).set_eq_univ, (arr_whole0 3).set_eq_univ]

/-- ENTRY: the three buffers whole at the entry contents make the four windows' arrays, the samples' buffer split in
    halves between windows 0 and 1. -/
theorem arrays_in (c : Dev nD) :
    (Pipeline.arrBufs (Ix := Unit) (Name := ℕ) (U := UR sig nD τ) (Lvl := ℕ) spec0 c (V c) : sProp 𝕄)
      ⊢ (dats V 0 c).arrays ((dats V 0 c).arrAt · 0) := by
  rw [arrBufs_eq, arrays_eq4]
  iintro ⟨H12, H3, H13⟩
  ihave Hs := (pointsTo_share (PosShare.mem_left_op_right fullShare)).1 $$ H12
  icases Hs with ⟨HL, HR⟩
  isplitl [HL]; · iexact HL
  isplitl [HR]; · iexact HR
  isplitl [H3]; · iexact H3
  iexact H13

/-- EXIT: the four windows' arrays after the last point — the inputs at their entry contents, the output at what the
    write-backs left — are the three buffers whole at any valuation that has the output there and agrees with the
    entry contents at the two inputs; the samples' halves joined again. -/
theorem arrays_out (c : Dev nD) (W : (b : Ref sig .tc) → Buf (Elt F) ((c : Thread nD τ).loc b))
    (h12 : W main_v12 = V c main_v12) (h3 : W main_arg3 = V c main_arg3) (h13 : W main_v13 = (dats V 0 c).arrAt 3 cfg0.N) :
    ((dats V 0 c).arrays ((dats V 0 c).arrAt · cfg0.N) : sProp 𝕄)
      ⊢ Pipeline.arrBufs (Ix := Unit) (Name := ℕ) (U := UR sig nD τ) (Lvl := ℕ) spec0 c W := by
  rw [arrBufs_eq, arrays_eq4, h12, h3, h13,
    show (dats V 0 c).arrAt 0 cfg0.N = V c main_v12 from ((dats V 0 c).arrAt_in 0 rfl _).trans (A_eq V c 0),
    show (dats V 0 c).arrAt 1 cfg0.N = V c main_v12 from ((dats V 0 c).arrAt_in 1 rfl _).trans (A_eq V c 1),
    show (dats V 0 c).arrAt 2 cfg0.N = V c main_arg3 from ((dats V 0 c).arrAt_in 2 rfl _).trans (A_eq V c 2)]
  iintro ⟨HL, HR, H3, H13⟩
  isplitl [HL HR]
  · iapply (pointsTo_share (PosShare.mem_left_op_right fullShare)).2
    isplitl [HL]; · iexact HL
    iexact HR
  isplitl [H3]; · iexact H3
  iexact H13

end Arrays

/-! ## The buffer contents at each segment boundary -/

variable (m : (ℓ : Loc nD τ sig) → Buf (Elt F) ℓ) (ρ : Dev nD → PrngReg)

/-- Core `c`'s buffers at launch, -/
abbrev W0 : Dev nD → Valuation τ sig (Elt F) := fun c b => (s₀ m ρ).mem ((c : Dev nD), b)
/-- after the affine layer and the mean, -/
abbrev W1 : Dev nD → Valuation τ sig (Elt F) := fun c => StableHlo.after hostOps0 (W0 m ρ c)
/-- after the variance, -/
abbrev W2 : Dev nD → Valuation τ sig (Elt F) := fun c => StableHlo.after hostOps0_1 (W1 m ρ c)
/-- and after the standardization: the region's entry. -/
abbrev W3 : Dev nD → Valuation τ sig (Elt F) := fun c => StableHlo.after hostOps0_2 (W2 m ρ c)
/-- The same read at the TensorCore's references (what the region's proof data take). -/
abbrev V3 : (c : Dev nD) → (b : Ref sig .tc) → Buf (Elt F) ((c : Thread nD τ).loc b) := fun c b => W3 m ρ c b
/-- What the pipeline leaves in the output array. -/
abbrev out13 (c : Dev nD) : Buf (Elt F) ((c : Thread nD τ).loc main_v13) := (dats (V3 m ρ) 0 c).arrAt 3 cfg0.N
/-- At the region's exit: the output array at what the pipeline leaves, every other buffer as entered. -/
def W4 (c : Dev nD) : Valuation τ sig (Elt F) := Function.update (W3 m ρ c) (Proc.devRef .tc main_v13) (out13 m ρ c)
abbrev V4 : (c : Dev nD) → (b : Ref sig .tc) → Buf (Elt F) ((c : Thread nD τ).loc b) := fun c b => W4 m ρ c b
/-- After the bias is added: the end. -/
abbrev W5 : Dev nD → Valuation τ sig (Elt F) := fun c => StableHlo.after hostOps1 (W4 m ρ c)

theorem W4_v13 (c : Dev nD) : V4 m ρ c main_v13 = out13 m ρ c := by
  show Function.update (W3 m ρ c) (Proc.devRef .tc main_v13) (out13 m ρ c) (Proc.devRef .tc main_v13) = _
  exact Function.update_self ..
theorem W4_of_ne (c : Dev nD) (b : Ref sig .tc) (hb : b ≠ main_v13) : V4 m ρ c b = V3 m ρ c b := by
  show Function.update (W3 m ρ c) (Proc.devRef .tc main_v13) (out13 m ρ c) (Proc.devRef .tc b) = _
  exact Function.update_of_ne (StableHlo.devRef_ne_of_ne hb) ..

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dats (V3 m ρ) 0 c
abbrev 𝒱₀ : Variants := Variants.none
abbrev L : GSem nD τ sig → Finset Unit := fun _ => ∅
abbrev lv : GSem nD τ sig → Unit → ℕ := fun _ _ => 0
/-- What rides beside the buffers through every segment: the generator register at some state and the core owing
    nothing. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W5 m ρ c) ∗ ∃ r, prngReg c r)

/-! ## The region as a segment -/

section Region

variable (hbody : ∀ (V : (c : Dev nD) → (b : Ref sig .tc) → Buf (Elt F) ((c : Thread nD τ).loc b)) (c : Dev nD),
  BodyObligation (dats (F := F) V 0 c) (defs₀ (F := F)) Variants.none () Set.univ)

set_option backward.isDefEq.respectTransparency.types false in
/-- THE REGION over the thread state: entered from every unscoped buffer at `W3`, left at `W4`. Its arrays are split
    out of the unscoped buffers (the samples' buffer in halves) and put back at the exit; the generator register goes
    into the invariant and comes out; nothing is owed; the kernel has no semaphore of its own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (hbody (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit : (unscopedBufs c (V3 m ρ c) : sProp 𝕄)
        ⊢ iprop((dats (V3 m ρ) 0 c).arrays ((dats (V3 m ρ) 0 c).arrAt · 0) ∗ Pipeline.unscopedRest spec0 c (V3 m ρ c)) := by
      rw [Pipeline.unscopedBufs_split₀ cfgs 0 winFacts₀0.arr_unscoped c (V3 m ρ c)]
      exact sep_mono (arrays_in (V3 m ρ) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((dats (V3 m ρ) 0 c).arrays ((dats (V3 m ρ) 0 c).arrAt · cfg0.N) ∗ Pipeline.unscopedRest spec0 c (V3 m ρ c))
        ⊢ (unscopedBufs c (V4 m ρ c) : sProp 𝕄) := by
      rw [Pipeline.unscopedBufs_split₀ cfgs 0 winFacts₀0.arr_unscoped c (V4 m ρ c)]
      refine sep_mono (arrays_out (V3 m ρ) c (V4 m ρ c) (W4_of_ne m ρ c main_v12 (by decide)) (W4_of_ne m ρ c main_arg3 (by decide)) (W4_v13 m ρ c))
        (Entails.of_eq ?_)
      unfold Pipeline.unscopedRest
      refine bigSep_congr fun b hb => ?_
      rw [W4_of_ne m ρ c b fun e => (Finset.mem_sdiff.mp hb).2 (Finset.mem_image.mpr ⟨3, Finset.mem_univ _, e.symm ▸ rfl⟩)]
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ hbody),
    .host (hseg hostOps1 hostOps1_sub hostOps1_fresh (W4 m ρ)) ]

theorem main_run (c : Dev nD) : main (F := F) c = Pipeline.Seg.run (segs m ρ hbody) := (main_chain c).trans (by chain_rfl)

include hbody in
set_option backward.isDefEq.respectTransparency.types false in
/-- THE RUN: from any memory with zero counters every weakly fair execution of @main terminates, nothing faulting, and
    every final state has every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ hbody)
    (fun c Q => by rw [main_run m ρ hbody c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show (iprop(StableHlo.held (c : Thread nD τ) (Pipeline.ucRefs τ sig) (W5 m ρ c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

end Region

end Cert.Kernel.Hand

end
-- ==== Proof.K.Final.lean ====
/-
  What the pairwise program's run leaves: every argument as launched, the standardized samples and the weights as the
  region found them, and the result — the pipeline's output array plus the bias at every entry.
-/
import proofs.«149665_j71691594105115_1_alg».proof.Proof.K.Run
import Idealize.ShloMosaic.Lib.ValueIdx
import Idealize.ShloMosaic.Lib.ValueLayout
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.ValueIdx
open Idealize.SL.Sem

variable {F : FTy → Type} [FloatOps F]

variable (m : (ℓ : Loc nD τ sig) → Buf (Elt F) ℓ) (ρ : Dev nD → PrngReg)

/-! ## No stretch and no region writes an argument -/

theorem W5_of_W4 (c : Dev nD) (b : Ref sig .tc) (h : b ≠ main_v14 ∧ b ≠ main_v15 ∧ b ≠ main_v16) :
    W5 m ρ c (Proc.devRef .tc b) = W4 m ρ c (Proc.devRef .tc b) :=
  StableHlo.after_of_forall_not_mem (b := Proc.devRef .tc b) hostOps1 (W4 m ρ c) (List.forall_iff_forall_mem.mp (by
    obtain ⟨h1, h2, h3⟩ := h
    simp only [hostOps1, List.Forall, StableHlo.unary_writes, StableHlo.binary_writes, StableHlo.reshape_writes, Finset.mem_singleton]
    exact ⟨StableHlo.devRef_ne_of_ne h1, StableHlo.devRef_ne_of_ne h2, StableHlo.devRef_ne_of_ne h3⟩))

theorem W3_arg0 (c : Dev nD) : W3 m ρ c (Proc.devRef .tc main_arg0) = m ((c : Thread nD τ).loc main_arg0) := by
  have e2 : W3 m ρ c (Proc.devRef .tc main_arg0) = W2 m ρ c (Proc.devRef .tc main_arg0) := by
    show StableHlo.after hostOps0_2 (W2 m ρ c) (Proc.devRef .tc main_arg0) = _
    after_results_simp
  have e1 : W2 m ρ c (Proc.devRef .tc main_arg0) = W1 m ρ c (Proc.devRef .tc main_arg0) := by
    show StableHlo.after hostOps0_1 (W1 m ρ c) (Proc.devRef .tc main_arg0) = _
    after_results_simp
  have e0 : W1 m ρ c (Proc.devRef .tc main_arg0) = m ((c : Thread nD τ).loc main_arg0) := by
    show StableHlo.after hostOps0 (W0 m ρ c) (Proc.devRef .tc main_arg0) = _
    after_results_simp
  exact e2.trans (e1.trans e0)

theorem W3_arg1 (c : Dev nD) : W3 m ρ c (Proc.devRef .tc main_arg1) = m ((c : Thread nD τ).loc main_arg1) := by
  have e2 : W3 m ρ c (Proc.devRef .tc main_arg1) = W2 m ρ c (Proc.devRef .tc main_arg1) := by
    show StableHlo.after hostOps0_2 (W2 m ρ c) (Proc.devRef .tc main_arg1) = _
    after_results_simp
  have e1 : W2 m ρ c (Proc.devRef .tc main_arg1) = W1 m ρ c (Proc.devRef .tc main_arg1) := by
    show StableHlo.after hostOps0_1 (W1 m ρ c) (Proc.devRef .tc main_arg1) = _
    after_results_simp
  have e0 : W1 m ρ c (Proc.devRef .tc main_arg1) = m ((c : Thread nD τ).loc main_arg1) := by
    show StableHlo.after hostOps0 (W0 m ρ c) (Proc.devRef .tc main_arg1) = _
    after_results_simp
  exact e2.trans (e1.trans e0)

theorem W3_arg2 (c : Dev nD) : W3 m ρ c (Proc.devRef .tc main_arg2) = m ((c : Thread nD τ).loc main_arg2) := by
  have e2 : W3 m ρ c (Proc.devRef .tc main_arg2) = W2 m ρ c (Proc.devRef .tc main_arg2) := by
    show StableHlo.after hostOps0_2 (W2 m ρ c) (Proc.devRef .tc main_arg2) = _
    after_results_simp
  have e1 : W2 m ρ c (Proc.devRef .tc main_arg2) = W1 m ρ c (Proc.devRef .tc main_arg2) := by
    show StableHlo.after hostOps0_1 (W1 m ρ c) (Proc.devRef .tc main_arg2) = _
    after_results_simp
  have e0 : W1 m ρ c (Proc.devRef .tc main_arg2) = m ((c : Thread nD τ).loc main_arg2) := by
    show StableHlo.after hostOps0 (W0 m ρ c) (Proc.devRef .tc main_arg2) = _
    after_results_simp
  exact e2.trans (e1.trans e0)

theorem W3_arg3 (c : Dev nD) : W3 m ρ c (Proc.devRef .tc main_arg3) = m ((c : Thread nD τ).loc main_arg3) := by
  have e2 : W3 m ρ c (Proc.devRef .tc main_arg3) = W2 m ρ c (Proc.devRef .tc main_arg3) := by
    show StableHlo.after hostOps0_2 (W2 m ρ c) (Proc.devRef .tc main_arg3) = _
    after_results_simp
  have e1 : W2 m ρ c (Proc.devRef .tc main_arg3) = W1 m ρ c (Proc.devRef .tc main_arg3) := by
    show StableHlo.after hostOps0_1 (W1 m ρ c) (Proc.devRef .tc main_arg3) = _
    after_results_simp
  have e0 : W1 m ρ c (Proc.devRef .tc main_arg3) = m ((c : Thread nD τ).loc main_arg3) := by
    show StableHlo.after hostOps0 (W0 m ρ c) (Proc.devRef .tc main_arg3) = _
    after_results_simp
  exact e2.trans (e1.trans e0)

theorem W3_arg4 (c : Dev nD) : W3 m ρ c (Proc.devRef .tc main_arg4) = m ((c : Thread nD τ).loc main_arg4) := by
  have e2 : W3 m ρ c (Proc.devRef .tc main_arg4) = W2 m ρ c (Proc.devRef .tc main_arg4) := by
    show StableHlo.after hostOps0_2 (W2 m ρ c) (Proc.devRef .tc main_arg4) = _
    after_results_simp
  have e1 : W2 m ρ c (Proc.devRef .tc main_arg4) = W1 m ρ c (Proc.devRef .tc main_arg4) := by
    show StableHlo.after hostOps0_1 (W1 m ρ c) (Proc.devRef .tc main_arg4) = _
    after_results_simp
  have e0 : W1 m ρ c (Proc.devRef .tc main_arg4) = m ((c : Thread nD τ).loc main_arg4) := by
    show StableHlo.after hostOps0 (W0 m ρ c) (Proc.devRef .tc main_arg4) = _
    after_results_simp
  exact e2.trans (e1.trans e0)

/-- Each argument ends as launched. -/
theorem W5_arg0 (c : Dev nD) : W5 m ρ c (Proc.devRef .tc main_arg0) = m ((c : Thread nD τ).loc main_arg0) :=
  (W5_of_W4 m ρ c main_arg0 (by decide)).trans ((W4_of_ne m ρ c main_arg0 (by decide)).trans (W3_arg0 m ρ c))
theorem W5_arg1 (c : Dev nD) : W5 m ρ c (Proc.devRef .tc main_arg1) = m ((c : Thread nD τ).loc main_arg1) :=
  (W5_of_W4 m ρ c main_arg1 (by decide)).trans ((W4_of_ne m ρ c main_arg1 (by decide)).trans (W3_arg1 m ρ c))
theorem W5_arg2 (c : Dev nD) : W5 m ρ c (Proc.devRef .tc main_arg2) = m ((c : Thread nD τ).loc main_arg2) :=
  (W5_of_W4 m ρ c main_arg2 (by decide)).trans ((W4_of_ne m ρ c main_arg2 (by decide)).trans (W3_arg2 m ρ c))
theorem W5_arg3 (c : Dev nD) : W5 m ρ c (Proc.devRef .tc main_arg3) = m ((c : Thread nD τ).loc main_arg3) :=
  (W5_of_W4 m ρ c main_arg3 (by decide)).trans ((W4_of_ne m ρ c main_arg3 (by decide)).trans (W3_arg3 m ρ c))
theorem W5_arg4 (c : Dev nD) : W5 m ρ c (Proc.devRef .tc main_arg4) = m ((c : Thread nD τ).loc main_arg4) :=
  (W5_of_W4 m ρ c main_arg4 (by decide)).trans ((W4_of_ne m ρ c main_arg4 (by decide)).trans (W3_arg4 m ρ c))

/-! ## The result -/

/-- The last stretch's result: the output array plus the broadcast bias. -/
theorem W5_v16 (c : Dev nD) : W5 m ρ c (Proc.devRef .tc main_v16)
    = addf (W4 m ρ c (Proc.devRef .tc main_v13))
        (broadcastInDim S8192 ![] bcast_S_S8192 (shapeCast S_ (W4 m ρ c (Proc.devRef .tc main_arg4)) shapeCasts_S1_S_)) := by
  show StableHlo.after hostOps1 (W4 m ρ c) (Proc.devRef .tc main_v16) = _
  after_results
  rfl

end Cert.Kernel.Hand

end
-- ==== Proof.RI.Ops.lean ====
/-
  The reference program's run, written out: @main's sixty-three host operations as one list, in program
  order, the outlined functions' operations inline at their call sites over the call's buffer record, and the
  statement that every weakly fair execution of @main ends with each buffer at the fold of the operations'
  results over the launch contents.
-/
import proofs.«149665_j71691594105115_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the calls unfolded. The first twelve are @main's own: the affine layer
    `XX · W1ᵀ + b1` (a transpose, a contraction, two broadcasts, a sum), its mean over all 16384 entries (a
    zero, a full reduction, the count, a quotient), the centred layer (a broadcast, a difference), and the
    integer 1. The standard deviation is twenty-one more, over the call's buffers: the variance's eighteen
    (the mean once more — zero, reduction, broadcast, count, broadcast, quotient, broadcast —, the deviation
    and its square, the integer 1 as a float, the count less that, a zero, the squares' full reduction, the
    quotient, a zero, the comparison `count − 1 > 0`, the not-a-number constant), the selection's two (the
    constant at its own type, the select), and the square root. The last thirty are @main's own again: the
    standardized layer `X` (a broadcast, a quotient), the squared row norms (a product, a zero, a reduction
    along the columns), their sum `|xᵢ|² + |xⱼ|²` (four broadcasts, a sum), the Gram matrix `X · Xᵀ` (a
    transpose, a contraction), `K = max(|xᵢ|² + |xⱼ|² − 2 ⟨xᵢ, xⱼ⟩, 0)` (the constant 2, its broadcast, a
    product, a difference, a zero, its broadcast, a maximum), `(−½ K) · exp K` (the constant −½, its
    broadcast, a product, an exponential, a product), its contraction with `W2ᵀ` (a transpose, a
    contraction), the bias added (two broadcasts, a sum), and the result as a vector (a reshape). -/
abbrev ops : List (HloOp τ sig (Elt F)) :=
  [ StableHlo.unary main_arg1 main_v0 ((transpose S2x2 [1, 0] · transposes_S2x2_S2x2_1_0) : (⟨S2x2, .f32⟩ : BufTy).Contents (Elt F) → (⟨S2x2, .f32⟩ : BufTy).Contents (Elt F)),
    StableHlo.binary main_arg0 main_v0 main_v1 ((fun l r => Host.dotGeneral dot_S8192x2_S2x2_S8192x2_1_0_0_1_n_n none l r) : (⟨S8192x2, .f32⟩ : BufTy).Contents (Elt F) → (⟨S2x2, .f32⟩ : BufTy).Contents (Elt F) → (⟨S8192x2, .f32⟩ : BufTy).Contents (Elt F)),
    StableHlo.unary main_arg2 main_v2 (broadcastInDim S1x2 ![1] bcast_S2_S1x2_1 : (⟨S2, .f32⟩ : BufTy).Contents (Elt F) → (⟨S1x2, .f32⟩ : BufTy).Contents (Elt F)),
    StableHlo.unary main_v2 main_v3 (broadcastInDim S8192x2 ![0, 1] bcast_S1x2_S8192x2_0_1 : (⟨S1x2, .f32⟩ : BufTy).Contents (Elt F) → (⟨S8192x2, .f32⟩ : BufTy).Contents (Elt F)),
    StableHlo.binary main_v1 main_v3 main_v4 (addf : (⟨S8192x2, .f32⟩ : BufTy).Contents (Elt F) → (⟨S8192x2, .f32⟩ : BufTy).Contents (Elt F) → (⟨S8192x2, .f32⟩ : BufTy).Contents (Elt F)),
    StableHlo.nullary main_cst (constant S_ .f32 0x00000000#32),
    StableHlo.binary main_v4 main_cst main_v5 ((fun x v => Host.reduceAdd x v reducesTo_S8192x2_S_d0_1 h_S_) : (⟨S8192x2, .f32⟩ : BufTy).Contents (Elt F) → (⟨S_, .f32⟩ : BufTy).Contents (Elt F) → (⟨S_, .f32⟩ : BufTy).Contents (Elt F)),
    StableHlo.nullary main_cst_0 (constant S_ .f32 0x46800000#32),
    StableHlo.binary main_v5 main_cst_0 main_v6 (Host.divf : (⟨S_, .f32⟩ : BufTy).Contents (Elt F) → (⟨S_, .f32⟩ : BufTy).Contents (Elt F) → (⟨S_, .f32⟩ : BufTy).Contents (Elt F)),
    StableHlo.unary main_v6 main_v7 (broadcastInDim S8192x2 ![] bcast_S_S8192x2 : (⟨S_, .f32⟩ : BufTy).Contents (Elt F) → (⟨S8192x2, .f32⟩ : BufTy).Contents (Elt F)),
    StableHlo.binary main_v4 main_v7 main_v8 (subf : (⟨S8192x2, .f32⟩ : BufTy).Contents (Elt F) → (⟨S8192x2, .f32⟩ : BufTy).Contents (Elt F) → (⟨S8192x2, .f32⟩ : BufTy).Contents (Elt F)),
    StableHlo.nullary main_c (constantI S_ 32 1#32),
    StableHlo.TRef.nullary (.of main_call0_call0_cst : StableHlo.TRef sig ⟨S_, .f32⟩) (constant S_ .f32 0x00000000#32),
    StableHlo.TRef.binary (.of main_v4 : StableHlo.TRef sig ⟨S8192x2, .f32⟩) (.of main_call0_call0_cst : StableHlo.TRef sig ⟨S_, .f32⟩) (.of main_call0_call0_v0 : StableHlo.TRef sig ⟨S_, .f32⟩) (fun x v => Host.reduceAdd x v reducesTo_S8192x2_S_d0_1 h_S_),
    StableHlo.TRef.unary (.of main_call0_call0_v0 : StableHlo.TRef sig ⟨S_, .f32⟩) (.of main_call0_call0_v1 : StableHlo.TRef sig ⟨S1x1, .f32⟩) (broadcastInDim S1x1 ![] bcast_S_S1x1),
    StableHlo.TRef.nullary (.of main_call0_call0_cst_0 : StableHlo.TRef sig ⟨S_, .f32⟩) (constant S_ .f32 0x46800000#32),
    StableHlo.TRef.unary (.of main_call0_call0_cst_0 : StableHlo.TRef sig ⟨S_, .f32⟩) (.of main_call0_call0_v2 : StableHlo.TRef sig ⟨S1x1, .f32⟩) (broadcastInDim S1x1 ![] bcast_S_S1x1),
    StableHlo.TRef.binary (.of main_call0_call0_v1 : StableHlo.TRef sig ⟨S1x1, .f32⟩) (.of main_call0_call0_v2 : StableHlo.TRef sig ⟨S1x1, .f32⟩) (.of main_call0_call0_v3 : StableHlo.TRef sig ⟨S1x1, .f32⟩) Host.divf,
    StableHlo.TRef.unary (.of main_call0_call0_v3 : StableHlo.TRef sig ⟨S1x1, .f32⟩) (.of main_call0_call0_v4 : StableHlo.TRef sig ⟨S8192x2, .f32⟩) (broadcastInDim S8192x2 ![0, 1] bcast_S1x1_S8192x2_0_1),
    StableHlo.TRef.binary (.of main_v4 : StableHlo.TRef sig ⟨S8192x2, .f32⟩) (.of main_call0_call0_v4 : StableHlo.TRef sig ⟨S8192x2, .f32⟩) (.of main_call0_call0_v5 : StableHlo.TRef sig ⟨S8192x2, .f32⟩) subf,
    StableHlo.TRef.binary (.of main_call0_call0_v5 : StableHlo.TRef sig ⟨S8192x2, .f32⟩) (.of main_call0_call0_v5 : StableHlo.TRef sig ⟨S8192x2, .f32⟩) (.of main_call0_call0_v6 : StableHlo.TRef sig ⟨S8192x2, .f32⟩) mulf,
    StableHlo.TRef.unary (.of main_c : StableHlo.TRef sig ⟨S_, .i32⟩) (.of main_call0_call0_v7 : StableHlo.TRef sig ⟨S_, .f32⟩) (sitofp .f32),
    StableHlo.TRef.nullary (.of main_call0_call0_cst_1 : StableHlo.TRef sig ⟨S_, .f32⟩) (constant S_ .f32 0x46800000#32),
    StableHlo.TRef.binary (.of main_call0_call0_cst_1 : StableHlo.TRef sig ⟨S_, .f32⟩) (.of main_call0_call0_v7 : StableHlo.TRef sig ⟨S_, .f32⟩) (.of main_call0_call0_v8 : StableHlo.TRef sig ⟨S_, .f32⟩) subf,
    StableHlo.TRef.nullary (.of main_call0_call0_cst_2 : StableHlo.TRef sig ⟨S_, .f32⟩) (constant S_ .f32 0x00000000#32),
    StableHlo.TRef.binary (.of main_call0_call0_v6 : StableHlo.TRef sig ⟨S8192x2, .f32⟩) (.of main_call0_call0_cst_2 : StableHlo.TRef sig ⟨S_, .f32⟩) (.of main_call0_call0_v9 : StableHlo.TRef sig ⟨S_, .f32⟩) (fun x v => Host.reduceAdd x v reducesTo_S8192x2_S_d0_1 h_S_),
    StableHlo.TRef.binary (.of main_call0_call0_v9 : StableHlo.TRef sig ⟨S_, .f32⟩) (.of main_call0_call0_v8 : StableHlo.TRef sig ⟨S_, .f32⟩) (.of main_call0_call0_v10 : StableHlo.TRef sig ⟨S_, .f32⟩) Host.divf,
    StableHlo.TRef.nullary (.of main_call0_call0_cst_3 : StableHlo.TRef sig ⟨S_, .f32⟩) (constant S_ .f32 0x00000000#32),
    StableHlo.TRef.binary (.of main_call0_call0_v8 : StableHlo.TRef sig ⟨S_, .f32⟩) (.of main_call0_call0_cst_3 : StableHlo.TRef sig ⟨S_, .f32⟩) (.of main_call0_call0_v11 : StableHlo.TRef sig ⟨S_, .i1⟩) (cmpf .ogt),
    StableHlo.TRef.nullary (.of main_call0_call0_cst_4 : StableHlo.TRef sig ⟨S_, .f32⟩) (constant S_ .f32 0x7FC00000#32),
    StableHlo.TRef.unary (.of main_call0_call0_cst_4 : StableHlo.TRef sig ⟨S_, .f32⟩) (.of main_call0_call0_call0_v0 : StableHlo.TRef sig ⟨S_, .f32⟩) id,
    StableHlo.TRef.ternary (.of main_call0_call0_v11 : StableHlo.TRef sig ⟨S_, .i1⟩) (.of main_call0_call0_v10 : StableHlo.TRef sig ⟨S_, .f32⟩) (.of main_call0_call0_call0_v0 : StableHlo.TRef sig ⟨S_, .f32⟩) (.of main_call0_v0 : StableHlo.TRef sig ⟨S_, .f32⟩) select,
    StableHlo.TRef.unary (.of main_call0_v0 : StableHlo.TRef sig ⟨S_, .f32⟩) (.of main_v9 : StableHlo.TRef sig ⟨S_, .f32⟩) Host.sqrt,
    StableHlo.unary main_v9 main_v10 (broadcastInDim S8192x2 ![] bcast_S_S8192x2 : (⟨S_, .f32⟩ : BufTy).Contents (Elt F) → (⟨S8192x2, .f32⟩ : BufTy).Contents (Elt F)),
    StableHlo.binary main_v8 main_v10 main_v11 (Host.divf : (⟨S8192x2, .f32⟩ : BufTy).Contents (Elt F) → (⟨S8192x2, .f32⟩ : BufTy).Contents (Elt F) → (⟨S8192x2, .f32⟩ : BufTy).Contents (Elt F)),
    StableHlo.binary main_v11 main_v11 main_v12 (mulf : (⟨S8192x2, .f32⟩ : BufTy).Contents (Elt F) → (⟨S8192x2, .f32⟩ : BufTy).Contents (Elt F) → (⟨S8192x2, .f32⟩ : BufTy).Contents (Elt F)),
    StableHlo.nullary main_cst_1 (constant S_ .f32 0x00000000#32),
    StableHlo.binary main_v12 main_cst_1 main_v13 ((fun x v => Host.reduceAdd x v reducesTo_S8192x2_S8192_d1 h_S_) : (⟨S8192x2, .f32⟩ : BufTy).Contents (Elt F) → (⟨S_, .f32⟩ : BufTy).Contents (Elt F) → (⟨S8192, .f32⟩ : BufTy).Contents (Elt F)),
    StableHlo.unary main_v13 main_v14 (broadcastInDim S8192x1 ![0] bcast_S8192_S8192x1_0 : (⟨S8192, .f32⟩ : BufTy).Contents (Elt F) → (⟨S8192x1, .f32⟩ : BufTy).Contents (Elt F)),
    StableHlo.unary main_v13 main_v15 (broadcastInDim S1x8192 ![1] bcast_S8192_S1x8192_1 : (⟨S8192, .f32⟩ : BufTy).Contents (Elt F) → (⟨S1x8192, .f32⟩ : BufTy).Contents (Elt F)),
    StableHlo.unary main_v14 main_v16 (broadcastInDim S8192x8192 ![0, 1] bcast_S8192x1_S8192x8192_0_1 : (⟨S8192x1, .f32⟩ : BufTy).Contents (Elt F) → (⟨S8192x8192, .f32⟩ : BufTy).Contents (Elt F)),
    StableHlo.unary main_v15 main_v17 (broadcastInDim S8192x8192 ![0, 1] bcast_S1x8192_S8192x8192_0_1 : (⟨S1x8192, .f32⟩ : BufTy).Contents (Elt F) → (⟨S8192x8192, .f32⟩ : BufTy).Contents (Elt F)),
    StableHlo.binary main_v16 main_v17 main_v18 (addf : (⟨S8192x8192, .f32⟩ : BufTy).Contents (Elt F) → (⟨S8192x8192, .f32⟩ : BufTy).Contents (Elt F) → (⟨S8192x8192, .f32⟩ : BufTy).Contents (Elt F)),
    StableHlo.unary main_v11 main_v19 ((transpose S2x8192 [1, 0] · transposes_S8192x2_S2x8192_1_0) : (⟨S8192x2, .f32⟩ : BufTy).Contents (Elt F) → (⟨S2x8192, .f32⟩ : BufTy).Contents (Elt F)),
    StableHlo.binary main_v11 main_v19 main_v20 ((fun l r => Host.dotGeneral dot_S8192x2_S2x8192_S8192x8192_1_0_0_1_n_n none l r) : (⟨S8192x2, .f32⟩ : BufTy).Contents (Elt F) → (⟨S2x8192, .f32⟩ : BufTy).Contents (Elt F) → (⟨S8192x8192, .f32⟩ : BufTy).Contents (Elt F)),
    StableHlo.nullary main_cst_2 (constant S_ .f32 0x40000000#32),
    StableHlo.unary main_cst_2 main_v21 (broadcastInDim S8192x8192 ![] bcast_S_S8192x8192 : (⟨S_, .f32⟩ : BufTy).Contents (Elt F) → (⟨S8192x8192, .f32⟩ : BufTy).Contents (Elt F)),
    StableHlo.binary main_v21 main_v20 main_v22 (mulf : (⟨S8192x8192, .f32⟩ : BufTy).Contents (Elt F) → (⟨S8192x8192, .f32⟩ : BufTy).Contents (Elt F) → (⟨S8192x8192, .f32⟩ : BufTy).Contents (Elt F)),
    StableHlo.binary main_v18 main_v22 main_v23 (subf : (⟨S8192x8192, .f32⟩ : BufTy).Contents (Elt F) → (⟨S8192x8192, .f32⟩ : BufTy).Contents (Elt F) → (⟨S8192x8192, .f32⟩ : BufTy).Contents (Elt F)),
    StableHlo.nullary main_cst_3 (constant S_ .f32 0x00000000#32),
    StableHlo.unary main_cst_3 main_v24 (broadcastInDim S8192x8192 ![] bcast_S_S8192x8192 : (⟨S_, .f32⟩ : BufTy).Contents (Elt F) → (⟨S8192x8192, .f32⟩ : BufTy).Contents (Elt F)),
    StableHlo.binary main_v23 main_v24 main_v25 (maximumf : (⟨S8192x8192, .f32⟩ : BufTy).Contents (Elt F) → (⟨S8192x8192, .f32⟩ : BufTy).Contents (Elt F) → (⟨S8192x8192, .f32⟩ : BufTy).Contents (Elt F)),
    StableHlo.nullary main_cst_4 (constant S_ .f32 0xBF000000#32),
    StableHlo.unary main_cst_4 main_v26 (broadcastInDim S8192x8192 ![] bcast_S_S8192x8192 : (⟨S_, .f32⟩ : BufTy).Contents (Elt F) → (⟨S8192x8192, .f32⟩ : BufTy).Contents (Elt F)),
    StableHlo.binary main_v26 main_v25 main_v27 (mulf : (⟨S8192x8192, .f32⟩ : BufTy).Contents (Elt F) → (⟨S8192x8192, .f32⟩ : BufTy).Contents (Elt F) → (⟨S8192x8192, .f32⟩ : BufTy).Contents (Elt F)),
    StableHlo.unary main_v25 main_v28 (Host.exp : (⟨S8192x8192, .f32⟩ : BufTy).Contents (Elt F) → (⟨S8192x8192, .f32⟩ : BufTy).Contents (Elt F)),
    StableHlo.binary main_v27 main_v28 main_v29 (mulf : (⟨S8192x8192, .f32⟩ : BufTy).Contents (Elt F) → (⟨S8192x8192, .f32⟩ : BufTy).Contents (Elt F) → (⟨S8192x8192, .f32⟩ : BufTy).Contents (Elt F)),
    StableHlo.unary main_arg3 main_v30 ((transpose S8192x1 [1, 0] · transposes_S1x8192_S8192x1_1_0) : (⟨S1x8192, .f32⟩ : BufTy).Contents (Elt F) → (⟨S8192x1, .f32⟩ : BufTy).Contents (Elt F)),
    StableHlo.binary main_v29 main_v30 main_v31 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F)),
    StableHlo.unary main_arg4 main_v32 (broadcastInDim S1x1 ![1] bcast_S1_S1x1_1 : (⟨S1, .f32⟩ : BufTy).Contents (Elt F) → (⟨S1x1, .f32⟩ : BufTy).Contents (Elt F)),
    StableHlo.unary main_v32 main_v33 (broadcastInDim S8192x1 ![0, 1] bcast_S1x1_S8192x1_0_1 : (⟨S1x1, .f32⟩ : BufTy).Contents (Elt F) → (⟨S8192x1, .f32⟩ : BufTy).Contents (Elt F)),
    StableHlo.binary main_v31 main_v33 main_v34 (addf : (⟨S8192x1, .f32⟩ : BufTy).Contents (Elt F) → (⟨S8192x1, .f32⟩ : BufTy).Contents (Elt F) → (⟨S8192x1, .f32⟩ : BufTy).Contents (Elt F)),
    StableHlo.reshape main_v34 main_v35 rfl shapeCasts_S8192x1_S8192 ]

-- sixty-three binds re-associated: the rewrite under the chain recurses once per statement
set_option maxRecDepth 4096 in
/-- @main is that straight line: the functions' definitions unfolded at their calls, both sides are one chain
    of host steps once sequencing is reassociated. -/
theorem main_eq (c : Dev nD) : main (F := F) c = StableHlo.seq ops := by
  simp only [main, fn_std.body, fn_var.body, fn_where.body, seq, bind_assoc, pure_bind]

/-- The signature scopes no buffer: the reference launches no kernel. -/
theorem scopedRefs_eq : (Finset.univ.filter fun b : Ref sig .tc => b.isScoped) = ∅ := by decide
/-- It scopes no semaphore either: it has none. -/
theorem scopedSems_eq : (Finset.univ.filter fun sm : SemLoc sig => sm.isScoped .tc) = ∅ := by decide

/-- Every operation touches TensorCore references only. -/
theorem ops_sub : (ops : List (HloOp τ sig (Elt F))).Forall fun op => op.bufs ⊆ StableHlo.tcRefs τ sig :=
  ⟨unary_bufs_sub .., binary_bufs_sub .., unary_bufs_sub .., unary_bufs_sub .., binary_bufs_sub .., nullary_bufs_sub ..,
    binary_bufs_sub .., nullary_bufs_sub .., binary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., binary_bufs_sub .., nullary_bufs_sub .., binary_bufs_sub .., nullary_bufs_sub ..,
    unary_bufs_sub .., ternary_bufs_sub .., unary_bufs_sub .., unary_bufs_sub .., binary_bufs_sub .., binary_bufs_sub ..,
    nullary_bufs_sub .., binary_bufs_sub .., unary_bufs_sub .., unary_bufs_sub .., unary_bufs_sub .., unary_bufs_sub ..,
    binary_bufs_sub .., unary_bufs_sub .., binary_bufs_sub .., nullary_bufs_sub .., unary_bufs_sub .., binary_bufs_sub ..,
    binary_bufs_sub .., nullary_bufs_sub .., unary_bufs_sub .., binary_bufs_sub .., nullary_bufs_sub .., unary_bufs_sub ..,
    binary_bufs_sub .., unary_bufs_sub .., binary_bufs_sub .., unary_bufs_sub .., binary_bufs_sub .., unary_bufs_sub ..,
    unary_bufs_sub .., binary_bufs_sub .., reshape_bufs_sub ..⟩

/-- On every device, for any float values, from any memory with zero counters: every weakly fair execution of
    @main terminates, and every final state has each buffer at the operations' fold over the launch contents. -/
theorem run_all (m : (ℓ : Loc nD τ sig) → Buf (Elt F) ℓ) (ρ : Dev nD → PrngReg) :
    θ_run defs (onTc (τ := τ) (main (F := F))) ⟨m, fun _ => 0, ρ⟩ fun r => ∀ (d : Dev nD) (b : Ref sig .tc),
      r.2.mem ((d.tc : Thread nD τ).loc b) = StableHlo.after ops (StableHlo.launchContents m d) (Proc.devRef .tc b) :=
  StableHlo.run_seq scopedRefs_eq scopedSems_eq defs main (fun _ => ops) main_eq (fun _ => ops_sub) m ρ

/-! ## The arguments end as launched

Each operation writes the one buffer of the value it defines, and no value's buffer is an argument's: the fold
at an argument's buffer walks back, operation by operation, to the contents it started from. -/

set_option maxRecDepth 16384 in
theorem after_arg0 (V : Valuation τ sig (Elt F)) :
    StableHlo.after ops V (Proc.devRef .tc main_arg0) = V (Proc.devRef .tc main_arg0) := by
  after_results_simp

set_option maxRecDepth 16384 in
theorem after_arg1 (V : Valuation τ sig (Elt F)) :
    StableHlo.after ops V (Proc.devRef .tc main_arg1) = V (Proc.devRef .tc main_arg1) := by
  after_results_simp

set_option maxRecDepth 16384 in
theorem after_arg2 (V : Valuation τ sig (Elt F)) :
    StableHlo.after ops V (Proc.devRef .tc main_arg2) = V (Proc.devRef .tc main_arg2) := by
  after_results_simp

set_option maxRecDepth 16384 in
theorem after_arg3 (V : Valuation τ sig (Elt F)) :
    StableHlo.after ops V (Proc.devRef .tc main_arg3) = V (Proc.devRef .tc main_arg3) := by
  after_results_simp

set_option maxRecDepth 16384 in
theorem after_arg4 (V : Valuation τ sig (Elt F)) :
    StableHlo.after ops V (Proc.devRef .tc main_arg4) = V (Proc.devRef .tc main_arg4) := by
  after_results_simp

end Cert.ReferenceIdeal.Hand

end
-- ==== Proof.RI.Split.lean ====
/-
  The reference's sixty-three operations in two stretches: the thirty-five that standardize the samples (the affine
  layer, its mean, its unbiased variance and the quotient by the standard deviation, ending in the matrix `X`) and
  the twenty-eight that follow (squared row norms, the Gram matrix, the clamped squared distances, `(-1/2) K exp K`,
  its contraction with the weights, the bias). Running all of them is running the second stretch from what the first
  leaves.
-/
import proofs.«149665_j71691594105115_1_alg».proof.Proof.RI.Ops

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The standardization: the first thirty-five operations, ending in `main_v11`. -/
abbrev stdOps : List (HloOp τ sig (Elt F)) :=
  [ StableHlo.unary main_arg1 main_v0 ((transpose S2x2 [1, 0] · transposes_S2x2_S2x2_1_0) : (⟨S2x2, .f32⟩ : BufTy).Contents (Elt F) → (⟨S2x2, .f32⟩ : BufTy).Contents (Elt F)),
    StableHlo.binary main_arg0 main_v0 main_v1 ((fun l r => Host.dotGeneral dot_S8192x2_S2x2_S8192x2_1_0_0_1_n_n none l r) : (⟨S8192x2, .f32⟩ : BufTy).Contents (Elt F) → (⟨S2x2, .f32⟩ : BufTy).Contents (Elt F) → (⟨S8192x2, .f32⟩ : BufTy).Contents (Elt F)),
    StableHlo.unary main_arg2 main_v2 (broadcastInDim S1x2 ![1] bcast_S2_S1x2_1 : (⟨S2, .f32⟩ : BufTy).Contents (Elt F) → (⟨S1x2, .f32⟩ : BufTy).Contents (Elt F)),
    StableHlo.unary main_v2 main_v3 (broadcastInDim S8192x2 ![0, 1] bcast_S1x2_S8192x2_0_1 : (⟨S1x2, .f32⟩ : BufTy).Contents (Elt F) → (⟨S8192x2, .f32⟩ : BufTy).Contents (Elt F)),
    StableHlo.binary main_v1 main_v3 main_v4 (addf : (⟨S8192x2, .f32⟩ : BufTy).Contents (Elt F) → (⟨S8192x2, .f32⟩ : BufTy).Contents (Elt F) → (⟨S8192x2, .f32⟩ : BufTy).Contents (Elt F)),
    StableHlo.nullary main_cst (constant S_ .f32 0x00000000#32),
    StableHlo.binary main_v4 main_cst main_v5 ((fun x v => Host.reduceAdd x v reducesTo_S8192x2_S_d0_1 h_S_) : (⟨S8192x2, .f32⟩ : BufTy).Contents (Elt F) → (⟨S_, .f32⟩ : BufTy).Contents (Elt F) → (⟨S_, .f32⟩ : BufTy).Contents (Elt F)),
    StableHlo.nullary main_cst_0 (constant S_ .f32 0x46800000#32),
    StableHlo.binary main_v5 main_cst_0 main_v6 (Host.divf : (⟨S_, .f32⟩ : BufTy).Contents (Elt F) → (⟨S_, .f32⟩ : BufTy).Contents (Elt F) → (⟨S_, .f32⟩ : BufTy).Contents (Elt F)),
    StableHlo.unary main_v6 main_v7 (broadcastInDim S8192x2 ![] bcast_S_S8192x2 : (⟨S_, .f32⟩ : BufTy).Contents (Elt F) → (⟨S8192x2, .f32⟩ : BufTy).Contents (Elt F)),
    StableHlo.binary main_v4 main_v7 main_v8 (subf : (⟨S8192x2, .f32⟩ : BufTy).Contents (Elt F) → (⟨S8192x2, .f32⟩ : BufTy).Contents (Elt F) → (⟨S8192x2, .f32⟩ : BufTy).Contents (Elt F)),
    StableHlo.nullary main_c (constantI S_ 32 1#32),
    StableHlo.TRef.nullary (.of main_call0_call0_cst : StableHlo.TRef sig ⟨S_, .f32⟩) (constant S_ .f32 0x00000000#32),
    StableHlo.TRef.binary (.of main_v4 : StableHlo.TRef sig ⟨S8192x2, .f32⟩) (.of main_call0_call0_cst : StableHlo.TRef sig ⟨S_, .f32⟩) (.of main_call0_call0_v0 : StableHlo.TRef sig ⟨S_, .f32⟩) (fun x v => Host.reduceAdd x v reducesTo_S8192x2_S_d0_1 h_S_),
    StableHlo.TRef.unary (.of main_call0_call0_v0 : StableHlo.TRef sig ⟨S_, .f32⟩) (.of main_call0_call0_v1 : StableHlo.TRef sig ⟨S1x1, .f32⟩) (broadcastInDim S1x1 ![] bcast_S_S1x1),
    StableHlo.TRef.nullary (.of main_call0_call0_cst_0 : StableHlo.TRef sig ⟨S_, .f32⟩) (constant S_ .f32 0x46800000#32),
    StableHlo.TRef.unary (.of main_call0_call0_cst_0 : StableHlo.TRef sig ⟨S_, .f32⟩) (.of main_call0_call0_v2 : StableHlo.TRef sig ⟨S1x1, .f32⟩) (broadcastInDim S1x1 ![] bcast_S_S1x1),
    StableHlo.TRef.binary (.of main_call0_call0_v1 : StableHlo.TRef sig ⟨S1x1, .f32⟩) (.of main_call0_call0_v2 : StableHlo.TRef sig ⟨S1x1, .f32⟩) (.of main_call0_call0_v3 : StableHlo.TRef sig ⟨S1x1, .f32⟩) Host.divf,
    StableHlo.TRef.unary (.of main_call0_call0_v3 : StableHlo.TRef sig ⟨S1x1, .f32⟩) (.of main_call0_call0_v4 : StableHlo.TRef sig ⟨S8192x2, .f32⟩) (broadcastInDim S8192x2 ![0, 1] bcast_S1x1_S8192x2_0_1),
    StableHlo.TRef.binary (.of main_v4 : StableHlo.TRef sig ⟨S8192x2, .f32⟩) (.of main_call0_call0_v4 : StableHlo.TRef sig ⟨S8192x2, .f32⟩) (.of main_call0_call0_v5 : StableHlo.TRef sig ⟨S8192x2, .f32⟩) subf,
    StableHlo.TRef.binary (.of main_call0_call0_v5 : StableHlo.TRef sig ⟨S8192x2, .f32⟩) (.of main_call0_call0_v5 : StableHlo.TRef sig ⟨S8192x2, .f32⟩) (.of main_call0_call0_v6 : StableHlo.TRef sig ⟨S8192x2, .f32⟩) mulf,
    StableHlo.TRef.unary (.of main_c : StableHlo.TRef sig ⟨S_, .i32⟩) (.of main_call0_call0_v7 : StableHlo.TRef sig ⟨S_, .f32⟩) (sitofp .f32),
    StableHlo.TRef.nullary (.of main_call0_call0_cst_1 : StableHlo.TRef sig ⟨S_, .f32⟩) (constant S_ .f32 0x46800000#32),
    StableHlo.TRef.binary (.of main_call0_call0_cst_1 : StableHlo.TRef sig ⟨S_, .f32⟩) (.of main_call0_call0_v7 : StableHlo.TRef sig ⟨S_, .f32⟩) (.of main_call0_call0_v8 : StableHlo.TRef sig ⟨S_, .f32⟩) subf,
    StableHlo.TRef.nullary (.of main_call0_call0_cst_2 : StableHlo.TRef sig ⟨S_, .f32⟩) (constant S_ .f32 0x00000000#32),
    StableHlo.TRef.binary (.of main_call0_call0_v6 : StableHlo.TRef sig ⟨S8192x2, .f32⟩) (.of main_call0_call0_cst_2 : StableHlo.TRef sig ⟨S_, .f32⟩) (.of main_call0_call0_v9 : StableHlo.TRef sig ⟨S_, .f32⟩) (fun x v => Host.reduceAdd x v reducesTo_S8192x2_S_d0_1 h_S_),
    StableHlo.TRef.binary (.of main_call0_call0_v9 : StableHlo.TRef sig ⟨S_, .f32⟩) (.of main_call0_call0_v8 : StableHlo.TRef sig ⟨S_, .f32⟩) (.of main_call0_call0_v10 : StableHlo.TRef sig ⟨S_, .f32⟩) Host.divf,
    StableHlo.TRef.nullary (.of main_call0_call0_cst_3 : StableHlo.TRef sig ⟨S_, .f32⟩) (constant S_ .f32 0x00000000#32),
    StableHlo.TRef.binary (.of main_call0_call0_v8 : StableHlo.TRef sig ⟨S_, .f32⟩) (.of main_call0_call0_cst_3 : StableHlo.TRef sig ⟨S_, .f32⟩) (.of main_call0_call0_v11 : StableHlo.TRef sig ⟨S_, .i1⟩) (cmpf .ogt),
    StableHlo.TRef.nullary (.of main_call0_call0_cst_4 : StableHlo.TRef sig ⟨S_, .f32⟩) (constant S_ .f32 0x7FC00000#32),
    StableHlo.TRef.unary (.of main_call0_call0_cst_4 : StableHlo.TRef sig ⟨S_, .f32⟩) (.of main_call0_call0_call0_v0 : StableHlo.TRef sig ⟨S_, .f32⟩) id,
    StableHlo.TRef.ternary (.of main_call0_call0_v11 : StableHlo.TRef sig ⟨S_, .i1⟩) (.of main_call0_call0_v10 : StableHlo.TRef sig ⟨S_, .f32⟩) (.of main_call0_call0_call0_v0 : StableHlo.TRef sig ⟨S_, .f32⟩) (.of main_call0_v0 : StableHlo.TRef sig ⟨S_, .f32⟩) select,
    StableHlo.TRef.unary (.of main_call0_v0 : StableHlo.TRef sig ⟨S_, .f32⟩) (.of main_v9 : StableHlo.TRef sig ⟨S_, .f32⟩) Host.sqrt,
    StableHlo.unary main_v9 main_v10 (broadcastInDim S8192x2 ![] bcast_S_S8192x2 : (⟨S_, .f32⟩ : BufTy).Contents (Elt F) → (⟨S8192x2, .f32⟩ : BufTy).Contents (Elt F)),
    StableHlo.binary main_v8 main_v10 main_v11 (Host.divf : (⟨S8192x2, .f32⟩ : BufTy).Contents (Elt F) → (⟨S8192x2, .f32⟩ : BufTy).Contents (Elt F) → (⟨S8192x2, .f32⟩ : BufTy).Contents (Elt F)) ]

/-- What follows the standardization: the last twenty-eight operations, ending in `main_v35`. -/
abbrev tailOps : List (HloOp τ sig (Elt F)) :=
  [ StableHlo.binary main_v11 main_v11 main_v12 (mulf : (⟨S8192x2, .f32⟩ : BufTy).Contents (Elt F) → (⟨S8192x2, .f32⟩ : BufTy).Contents (Elt F) → (⟨S8192x2, .f32⟩ : BufTy).Contents (Elt F)),
    StableHlo.nullary main_cst_1 (constant S_ .f32 0x00000000#32),
    StableHlo.binary main_v12 main_cst_1 main_v13 ((fun x v => Host.reduceAdd x v reducesTo_S8192x2_S8192_d1 h_S_) : (⟨S8192x2, .f32⟩ : BufTy).Contents (Elt F) → (⟨S_, .f32⟩ : BufTy).Contents (Elt F) → (⟨S8192, .f32⟩ : BufTy).Contents (Elt F)),
    StableHlo.unary main_v13 main_v14 (broadcastInDim S8192x1 ![0] bcast_S8192_S8192x1_0 : (⟨S8192, .f32⟩ : BufTy).Contents (Elt F) → (⟨S8192x1, .f32⟩ : BufTy).Contents (Elt F)),
    StableHlo.unary main_v13 main_v15 (broadcastInDim S1x8192 ![1] bcast_S8192_S1x8192_1 : (⟨S8192, .f32⟩ : BufTy).Contents (Elt F) → (⟨S1x8192, .f32⟩ : BufTy).Contents (Elt F)),
    StableHlo.unary main_v14 main_v16 (broadcastInDim S8192x8192 ![0, 1] bcast_S8192x1_S8192x8192_0_1 : (⟨S8192x1, .f32⟩ : BufTy).Contents (Elt F) → (⟨S8192x8192, .f32⟩ : BufTy).Contents (Elt F)),
    StableHlo.unary main_v15 main_v17 (broadcastInDim S8192x8192 ![0, 1] bcast_S1x8192_S8192x8192_0_1 : (⟨S1x8192, .f32⟩ : BufTy).Contents (Elt F) → (⟨S8192x8192, .f32⟩ : BufTy).Contents (Elt F)),
    StableHlo.binary main_v16 main_v17 main_v18 (addf : (⟨S8192x8192, .f32⟩ : BufTy).Contents (Elt F) → (⟨S8192x8192, .f32⟩ : BufTy).Contents (Elt F) → (⟨S8192x8192, .f32⟩ : BufTy).Contents (Elt F)),
    StableHlo.unary main_v11 main_v19 ((transpose S2x8192 [1, 0] · transposes_S8192x2_S2x8192_1_0) : (⟨S8192x2, .f32⟩ : BufTy).Contents (Elt F) → (⟨S2x8192, .f32⟩ : BufTy).Contents (Elt F)),
    StableHlo.binary main_v11 main_v19 main_v20 ((fun l r => Host.dotGeneral dot_S8192x2_S2x8192_S8192x8192_1_0_0_1_n_n none l r) : (⟨S8192x2, .f32⟩ : BufTy).Contents (Elt F) → (⟨S2x8192, .f32⟩ : BufTy).Contents (Elt F) → (⟨S8192x8192, .f32⟩ : BufTy).Contents (Elt F)),
    StableHlo.nullary main_cst_2 (constant S_ .f32 0x40000000#32),
    StableHlo.unary main_cst_2 main_v21 (broadcastInDim S8192x8192 ![] bcast_S_S8192x8192 : (⟨S_, .f32⟩ : BufTy).Contents (Elt F) → (⟨S8192x8192, .f32⟩ : BufTy).Contents (Elt F)),
    StableHlo.binary main_v21 main_v20 main_v22 (mulf : (⟨S8192x8192, .f32⟩ : BufTy).Contents (Elt F) → (⟨S8192x8192, .f32⟩ : BufTy).Contents (Elt F) → (⟨S8192x8192, .f32⟩ : BufTy).Contents (Elt F)),
    StableHlo.binary main_v18 main_v22 main_v23 (subf : (⟨S8192x8192, .f32⟩ : BufTy).Contents (Elt F) → (⟨S8192x8192, .f32⟩ : BufTy).Contents (Elt F) → (⟨S8192x8192, .f32⟩ : BufTy).Contents (Elt F)),
    StableHlo.nullary main_cst_3 (constant S_ .f32 0x00000000#32),
    StableHlo.unary main_cst_3 main_v24 (broadcastInDim S8192x8192 ![] bcast_S_S8192x8192 : (⟨S_, .f32⟩ : BufTy).Contents (Elt F) → (⟨S8192x8192, .f32⟩ : BufTy).Contents (Elt F)),
    StableHlo.binary main_v23 main_v24 main_v25 (maximumf : (⟨S8192x8192, .f32⟩ : BufTy).Contents (Elt F) → (⟨S8192x8192, .f32⟩ : BufTy).Contents (Elt F) → (⟨S8192x8192, .f32⟩ : BufTy).Contents (Elt F)),
    StableHlo.nullary main_cst_4 (constant S_ .f32 0xBF000000#32),
    StableHlo.unary main_cst_4 main_v26 (broadcastInDim S8192x8192 ![] bcast_S_S8192x8192 : (⟨S_, .f32⟩ : BufTy).Contents (Elt F) → (⟨S8192x8192, .f32⟩ : BufTy).Contents (Elt F)),
    StableHlo.binary main_v26 main_v25 main_v27 (mulf : (⟨S8192x8192, .f32⟩ : BufTy).Contents (Elt F) → (⟨S8192x8192, .f32⟩ : BufTy).Contents (Elt F) → (⟨S8192x8192, .f32⟩ : BufTy).Contents (Elt F)),
    StableHlo.unary main_v25 main_v28 (Host.exp : (⟨S8192x8192, .f32⟩ : BufTy).Contents (Elt F) → (⟨S8192x8192, .f32⟩ : BufTy).Contents (Elt F)),
    StableHlo.binary main_v27 main_v28 main_v29 (mulf : (⟨S8192x8192, .f32⟩ : BufTy).Contents (Elt F) → (⟨S8192x8192, .f32⟩ : BufTy).Contents (Elt F) → (⟨S8192x8192, .f32⟩ : BufTy).Contents (Elt F)),
    StableHlo.unary main_arg3 main_v30 ((transpose S8192x1 [1, 0] · transposes_S1x8192_S8192x1_1_0) : (⟨S1x8192, .f32⟩ : BufTy).Contents (Elt F) → (⟨S8192x1, .f32⟩ : BufTy).Contents (Elt F)),
    StableHlo.binary main_v29 main_v30 main_v31 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F)),
    StableHlo.unary main_arg4 main_v32 (broadcastInDim S1x1 ![1] bcast_S1_S1x1_1 : (⟨S1, .f32⟩ : BufTy).Contents (Elt F) → (⟨S1x1, .f32⟩ : BufTy).Contents (Elt F)),
    StableHlo.unary main_v32 main_v33 (broadcastInDim S8192x1 ![0, 1] bcast_S1x1_S8192x1_0_1 : (⟨S1x1, .f32⟩ : BufTy).Contents (Elt F) → (⟨S8192x1, .f32⟩ : BufTy).Contents (Elt F)),
    StableHlo.binary main_v31 main_v33 main_v34 (addf : (⟨S8192x1, .f32⟩ : BufTy).Contents (Elt F) → (⟨S8192x1, .f32⟩ : BufTy).Contents (Elt F) → (⟨S8192x1, .f32⟩ : BufTy).Contents (Elt F)),
    StableHlo.reshape main_v34 main_v35 rfl shapeCasts_S8192x1_S8192 ]

theorem ops_split : (ops : List (HloOp τ sig (Elt F))) = stdOps ++ tailOps := rfl

/-- Running two stretches in a row is running the second from what the first leaves. -/
theorem after_append' (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih _

theorem after_ops (V : Valuation τ sig (Elt F)) :
    StableHlo.after (ops (F := F)) V = StableHlo.after tailOps (StableHlo.after stdOps V) := by
  rw [ops_split]; exact after_append' ..

end Cert.ReferenceIdeal.Hand

end
-- ==== Proof.RI.StdArgs.lean ====
/-
  The standardization writes none of the arguments: the weights and the bias reach the rest of the reference as
  launched.
-/
import proofs.«149665_j71691594105115_1_alg».proof.Proof.RI.Split

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem std_arg3 (V : Valuation τ sig (Elt F)) :
    StableHlo.after (stdOps (F := F)) V (Proc.devRef .tc main_arg3) = V (Proc.devRef .tc main_arg3) := by
  after_results_simp

theorem std_arg4 (V : Valuation τ sig (Elt F)) :
    StableHlo.after (stdOps (F := F)) V (Proc.devRef .tc main_arg4) = V (Proc.devRef .tc main_arg4) := by
  after_results_simp

end Cert.ReferenceIdeal.Hand

end
-- ==== Proof.Bridge.lean ====
/-
  The two programs standardize the samples by the same operations.

  Both compute the affine layer `A = XX · W1ᵀ + b1` (8192 samples, 2 features), its mean `μ` over all
  16384 entries, its unbiased variance `σ² = Σ (A − μ)² / (16384 − 1)`, and `X = (A − μ) / √σ²`, by the same
  thirty-five operations. They differ only in the order of three of them: one program broadcasts the mean
  and takes the difference `A − μ` before the variance is computed, the other after. No operation reads a
  buffer the moved ones write in between, so each program's result is the same composed term of the three
  arguments; this module names that term and reads it off each program's list of operations.
-/
import proofs.«149665_j71691594105115_1_alg».proof.Proof.Gen.KernelIdeal.Launch
import proofs.«149665_j71691594105115_1_alg».proof.Proof.RI.Split
import Idealize.ShloMosaic.Lib.StableHlo.Run

set_option maxRecDepth 16384

noncomputable section

namespace Cert.Proof.Bridge

open Idealize.ShloMosaic Idealize.ShloMosaic.TcCoe Idealize.SL.Sem Idealize.ShloMosaic.StableHlo

variable {F : FTy → Type} [FloatOps F]

/-! ## The standardization as one term

Written over the kernel program's shapes; the reference's shapes of the same names are the same shapes,
and a shape relation has one proof. -/

section Term

open Cert.KernelIdeal Cert.KernelIdeal.Gen

/-- The affine layer `A = XX · W1ᵀ + b1`: the contraction of the samples' feature axis with the transposed
    weight matrix's first axis, plus the bias broadcast along the samples. -/
def affine (xx : (⟨S8192x2, .f32⟩ : BufTy).Contents (Elt F)) (w1 : (⟨S2x2, .f32⟩ : BufTy).Contents (Elt F))
    (b1 : (⟨S2, .f32⟩ : BufTy).Contents (Elt F)) : (⟨S8192x2, .f32⟩ : BufTy).Contents (Elt F) :=
  addf (Host.dotGeneral dot_S8192x2_S2x2_S8192x2_1_0_0_1_n_n none xx (transpose S2x2 [1, 0] w1 transposes_S2x2_S2x2_1_0))
    (broadcastInDim S8192x2 ![0, 1] bcast_S1x2_S8192x2_0_1 (broadcastInDim S1x2 ![1] bcast_S2_S1x2_1 b1))

/-- The mean of all 16384 entries: their sum from zero, divided by the count. -/
def mean (A : (⟨S8192x2, .f32⟩ : BufTy).Contents (Elt F)) : (⟨S_, .f32⟩ : BufTy).Contents (Elt F) :=
  Host.divf (Host.reduceAdd A (constant (F := F) S_ .f32 0x00000000#32) reducesTo_S8192x2_S_d0_1 h_S_) (constant (F := F) S_ .f32 0x46800000#32)

/-- The unbiased variance of all 16384 entries, with `c` the number of degrees of freedom given up (the
    integer 1): the mean once more (the sum and the count each as a 1 × 1 matrix, their quotient broadcast
    to every entry), the squared deviations' sum, divided by `16384 − c`; not-a-number unless `16384 − c > 0`. -/
def variance (A : (⟨S8192x2, .f32⟩ : BufTy).Contents (Elt F)) (c : (⟨S_, .i32⟩ : BufTy).Contents (Elt F)) :
    (⟨S_, .f32⟩ : BufTy).Contents (Elt F) :=
  select
    (cmpf .ogt (subf (constant (F := F) S_ .f32 0x46800000#32) (sitofp .f32 c)) (constant (F := F) S_ .f32 0x00000000#32))
    (Host.divf
      (Host.reduceAdd
        (mulf
          (subf A (broadcastInDim S8192x2 ![0, 1] bcast_S1x1_S8192x2_0_1
            (Host.divf
              (broadcastInDim S1x1 ![] bcast_S_S1x1 (Host.reduceAdd A (constant (F := F) S_ .f32 0x00000000#32) reducesTo_S8192x2_S_d0_1 h_S_))
              (broadcastInDim S1x1 ![] bcast_S_S1x1 (constant (F := F) S_ .f32 0x46800000#32)))))
          (subf A (broadcastInDim S8192x2 ![0, 1] bcast_S1x1_S8192x2_0_1
            (Host.divf
              (broadcastInDim S1x1 ![] bcast_S_S1x1 (Host.reduceAdd A (constant (F := F) S_ .f32 0x00000000#32) reducesTo_S8192x2_S_d0_1 h_S_))
              (broadcastInDim S1x1 ![] bcast_S_S1x1 (constant (F := F) S_ .f32 0x46800000#32))))))
        (constant (F := F) S_ .f32 0x00000000#32) reducesTo_S8192x2_S_d0_1 h_S_)
      (subf (constant (F := F) S_ .f32 0x46800000#32) (sitofp .f32 c)))
    (id (constant (F := F) S_ .f32 0x7FC00000#32))

/-- The standardized layer `X = (A − μ) / √σ²`, mean and standard deviation broadcast to every entry. -/
def standardize (A : (⟨S8192x2, .f32⟩ : BufTy).Contents (Elt F)) : (⟨S8192x2, .f32⟩ : BufTy).Contents (Elt F) :=
  Host.divf (subf A (broadcastInDim S8192x2 ![] bcast_S_S8192x2 (mean A)))
    (broadcastInDim S8192x2 ![] bcast_S_S8192x2 (Host.sqrt (variance A (constantI S_ 32 1#32))))

end Term

/-! ## The kernel's program: three stretches -/

section Kernel

open Cert.KernelIdeal Cert.KernelIdeal.Gen

/-- The last stretch divides the centred layer by the broadcast square root of what the middle stretch left. -/
theorem last_v12 (W : Valuation τ sig (Elt F)) :
    StableHlo.after hostOps0_2 W (Proc.devRef .tc main_v12)
      = Host.divf (subf (W (Proc.devRef .tc main_v4)) (broadcastInDim S8192x2 ![] bcast_S_S8192x2 (W (Proc.devRef .tc main_v6))))
          (broadcastInDim S8192x2 ![] bcast_S_S8192x2 (Host.sqrt (W (Proc.devRef .tc main_v7)))) := by
  after_results

/-- The middle stretch (the variance function) leaves the variance of the layer it is given. -/
theorem mid_v7 (W : Valuation τ sig (Elt F)) :
    StableHlo.after hostOps0_1 W (Proc.devRef .tc main_v7)
      = variance (W (Proc.devRef .tc main_v4)) (W (Proc.devRef .tc main_c)) := by
  after_results
  rfl

/-- The middle stretch writes neither the layer nor its mean. -/
theorem mid_v4 (W : Valuation τ sig (Elt F)) :
    StableHlo.after hostOps0_1 W (Proc.devRef .tc main_v4) = W (Proc.devRef .tc main_v4) := by
  after_results
theorem mid_v6 (W : Valuation τ sig (Elt F)) :
    StableHlo.after hostOps0_1 W (Proc.devRef .tc main_v6) = W (Proc.devRef .tc main_v6) := by
  after_results

/-- The first stretch leaves the affine layer, its mean, and the integer 1. -/
theorem first_v4 (V : Valuation τ sig (Elt F)) :
    StableHlo.after hostOps0 V (Proc.devRef .tc main_v4)
      = affine (V (Proc.devRef .tc main_arg0)) (V (Proc.devRef .tc main_arg1)) (V (Proc.devRef .tc main_arg2)) := by
  after_results
  rfl
theorem first_v6 (V : Valuation τ sig (Elt F)) :
    StableHlo.after hostOps0 V (Proc.devRef .tc main_v6)
      = mean (affine (V (Proc.devRef .tc main_arg0)) (V (Proc.devRef .tc main_arg1)) (V (Proc.devRef .tc main_arg2))) := by
  after_results
  rfl
theorem first_c (V : Valuation τ sig (Elt F)) :
    StableHlo.after hostOps0 V (Proc.devRef .tc main_c) = constantI S_ 32 1#32 := by
  after_results

/-- The kernel program's samples: the standardized affine layer of its three arguments. -/
theorem kernel_std (V : Valuation τ sig (Elt F)) :
    StableHlo.after hostOps0_2 (StableHlo.after hostOps0_1 (StableHlo.after hostOps0 V)) (Proc.devRef .tc main_v12)
      = standardize (affine (V (Proc.devRef .tc main_arg0)) (V (Proc.devRef .tc main_arg1)) (V (Proc.devRef .tc main_arg2))) := by
  rw [last_v12, mid_v7, mid_v4, mid_v6, first_v4, first_v6, first_c]
  rfl

end Kernel

/-! ## The reference: one stretch -/

section Reference

open Cert.ReferenceIdeal Cert.ReferenceIdeal.Gen Cert.ReferenceIdeal.Hand

/-- The reference's samples: the same term of its three arguments. -/
theorem reference_std (V : Valuation τ sig (Elt F)) :
    StableHlo.after stdOps V (Proc.devRef .tc main_v11)
      = standardize (affine (V (Proc.devRef .tc main_arg0)) (V (Proc.devRef .tc main_arg1)) (V (Proc.devRef .tc main_arg2))) := by
  after_results_simp
  rfl

end Reference

/-! ## The two agree -/

/-- From valuations that agree on the samples, the weights and the bias, the two programs leave the same
    standardized layer. -/
theorem std_eq (Vk : Valuation Cert.KernelIdeal.τ Cert.KernelIdeal.sig (Elt F)) (Vr : Valuation Cert.ReferenceIdeal.τ Cert.ReferenceIdeal.sig (Elt F))
    (h0 : Vr (Proc.devRef .tc Cert.ReferenceIdeal.main_arg0) = Vk (Proc.devRef .tc Cert.KernelIdeal.main_arg0))
    (h1 : Vr (Proc.devRef .tc Cert.ReferenceIdeal.main_arg1) = Vk (Proc.devRef .tc Cert.KernelIdeal.main_arg1))
    (h2 : Vr (Proc.devRef .tc Cert.ReferenceIdeal.main_arg2) = Vk (Proc.devRef .tc Cert.KernelIdeal.main_arg2)) :
    StableHlo.after Cert.ReferenceIdeal.Hand.stdOps Vr (Proc.devRef .tc Cert.ReferenceIdeal.main_v11)
      = StableHlo.after Cert.KernelIdeal.Gen.hostOps0_2 (StableHlo.after Cert.KernelIdeal.Gen.hostOps0_1 (StableHlo.after Cert.KernelIdeal.Gen.hostOps0 Vk)) (Proc.devRef .tc Cert.KernelIdeal.main_v12) := by
  refine (reference_std Vr).trans (Eq.trans ?_ (kernel_std Vk).symm)
  rw [h0, h1, h2]

end Cert.Proof.Bridge

end
-- ==== Proof.Assembly.lean ====
/-
  The certificate's claims from their parts. Both programs standardize the samples by the same operations; the
  kernel's pipeline then leaves in its output array, row by row, the sum over all keys of `((-1/2) K) (exp K) w` —
  accumulated column tile by column tile — and the reference computes the same sums by one matrix contraction; both
  add the bias. So the two results are one function of the arguments, entry by entry, over the extended reals: sums
  there may be taken in any order and grouping, and nothing else differs between the two sides.
-/
import proofs.«149665_j71691594105115_1_alg».proof.Defs
import proofs.«149665_j71691594105115_1_alg».proof.Proof.KI.Final
import proofs.«149665_j71691594105115_1_alg».proof.Proof.KI.Value
import proofs.«149665_j71691594105115_1_alg».proof.Proof.K.Final
import proofs.«149665_j71691594105115_1_alg».proof.Proof.RI.StdArgs
import proofs.«149665_j71691594105115_1_alg».proof.Proof.Bridge
import proofs.«149665_j71691594105115_1_alg».proof.Proof.Gen.Pre_finite_inputs

set_option maxRecDepth 16384

noncomputable section

namespace Cert.Proof.Parts

open Idealize.ShloMosaic Idealize.ShloMosaic.TcCoe Idealize.ShloMosaic.ValueIdx
open Idealize.SL.Sem
open Idealize.ShloMosaic.Pipeline (BodyObligation)

/-! ## The three frames -/

theorem frame_k
    (hbody : ∀ (V : (c : Dev Cert.Kernel.nD) → (b : Ref Cert.Kernel.sig .tc) → Buf (Elt Bits) ((c : Thread Cert.Kernel.nD Cert.Kernel.τ).loc b)) (c : Dev Cert.Kernel.nD),
      BodyObligation (Cert.Kernel.Hand.dats (F := Bits) V 0 c) (Cert.Kernel.defs₀ (F := Bits)) Variants.none () Set.univ) :
    Cert.frame_Kernel := fun m ρ _ =>
  (θ_run (Cert.Kernel.defs (F := Bits)) _ _).mono (fun r h c =>
    ⟨(h c _ (Cert.Kernel.Hand.mem_uc Cert.Kernel.main_arg0 (by decide))).trans (Cert.Kernel.Hand.W5_arg0 m ρ c),
     (h c _ (Cert.Kernel.Hand.mem_uc Cert.Kernel.main_arg1 (by decide))).trans (Cert.Kernel.Hand.W5_arg1 m ρ c),
     (h c _ (Cert.Kernel.Hand.mem_uc Cert.Kernel.main_arg2 (by decide))).trans (Cert.Kernel.Hand.W5_arg2 m ρ c),
     (h c _ (Cert.Kernel.Hand.mem_uc Cert.Kernel.main_arg3 (by decide))).trans (Cert.Kernel.Hand.W5_arg3 m ρ c),
     (h c _ (Cert.Kernel.Hand.mem_uc Cert.Kernel.main_arg4 (by decide))).trans (Cert.Kernel.Hand.W5_arg4 m ρ c)⟩)
    (Cert.Kernel.Hand.run_main m ρ hbody)

theorem frame_ki
    (hbody : ∀ (V : (c : Dev Cert.KernelIdeal.nD) → (b : Ref Cert.KernelIdeal.sig .tc) → Buf (Elt Ideal) ((c : Thread Cert.KernelIdeal.nD Cert.KernelIdeal.τ).loc b)) (c : Dev Cert.KernelIdeal.nD),
      BodyObligation (Cert.KernelIdeal.Hand.dats (F := Ideal) V 0 c) (Cert.KernelIdeal.defs₀ (F := Ideal)) Variants.none () Set.univ) :
    Cert.frame_KernelIdeal := fun m ρ _ =>
  (θ_run (Cert.KernelIdeal.defs (F := Ideal)) _ _).mono (fun r h c =>
    ⟨(h c _ (Cert.KernelIdeal.Hand.mem_uc Cert.KernelIdeal.main_arg0 (by decide))).trans (Cert.KernelIdeal.Hand.W5_arg0 m ρ c),
     (h c _ (Cert.KernelIdeal.Hand.mem_uc Cert.KernelIdeal.main_arg1 (by decide))).trans (Cert.KernelIdeal.Hand.W5_arg1 m ρ c),
     (h c _ (Cert.KernelIdeal.Hand.mem_uc Cert.KernelIdeal.main_arg2 (by decide))).trans (Cert.KernelIdeal.Hand.W5_arg2 m ρ c),
     (h c _ (Cert.KernelIdeal.Hand.mem_uc Cert.KernelIdeal.main_arg3 (by decide))).trans (Cert.KernelIdeal.Hand.W5_arg3 m ρ c),
     (h c _ (Cert.KernelIdeal.Hand.mem_uc Cert.KernelIdeal.main_arg4 (by decide))).trans (Cert.KernelIdeal.Hand.W5_arg4 m ρ c)⟩)
    (Cert.KernelIdeal.Hand.run_main m ρ hbody)

theorem frame_ri : Cert.frame_ReferenceIdeal := fun m ρ _ =>
  (θ_run (Cert.ReferenceIdeal.defs (F := Ideal)) _ _).mono (fun r h c =>
    ⟨(h c Cert.ReferenceIdeal.main_arg0).trans (Cert.ReferenceIdeal.Hand.after_arg0 _),
     (h c Cert.ReferenceIdeal.main_arg1).trans (Cert.ReferenceIdeal.Hand.after_arg1 _),
     (h c Cert.ReferenceIdeal.main_arg2).trans (Cert.ReferenceIdeal.Hand.after_arg2 _),
     (h c Cert.ReferenceIdeal.main_arg3).trans (Cert.ReferenceIdeal.Hand.after_arg3 _),
     (h c Cert.ReferenceIdeal.main_arg4).trans (Cert.ReferenceIdeal.Hand.after_arg4 _)⟩)
    (Cert.ReferenceIdeal.Hand.run_all (F := Ideal) m ρ)

/-! ## The two results are one function -/

/-- The launch contents of the reference's memory, as the valuation its operations run from. -/
abbrev Lr (m' : (ℓ : Loc Cert.ReferenceIdeal.nD Cert.ReferenceIdeal.τ Cert.ReferenceIdeal.sig) → Buf (Elt Ideal) ℓ) (c : Dev Cert.ReferenceIdeal.nD) :
    Valuation Cert.ReferenceIdeal.τ Cert.ReferenceIdeal.sig (Elt Ideal) := StableHlo.launchContents m' c

theorem algebraic
    (hbody : ∀ (V : (c : Dev Cert.KernelIdeal.nD) → (b : Ref Cert.KernelIdeal.sig .tc) → Buf (Elt Ideal) ((c : Thread Cert.KernelIdeal.nD Cert.KernelIdeal.τ).loc b)) (c : Dev Cert.KernelIdeal.nD),
      BodyObligation (Cert.KernelIdeal.Hand.dats (F := Ideal) V 0 c) (Cert.KernelIdeal.defs₀ (F := Ideal)) Variants.none () Set.univ)
    (htail : ∀ (Vp : Valuation Cert.ReferenceIdeal.τ Cert.ReferenceIdeal.sig (Elt Ideal)) (i : Fin 8192),
      StableHlo.after (Cert.ReferenceIdeal.Hand.tailOps (F := Ideal)) Vp (Proc.devRef .tc Cert.ReferenceIdeal.main_v35) (ix1 i)
        = Cert.Spec.G (Vp (Proc.devRef .tc Cert.ReferenceIdeal.main_v11)) (Vp (Proc.devRef .tc Cert.ReferenceIdeal.main_arg3)) i
          + Vp (Proc.devRef .tc Cert.ReferenceIdeal.main_arg4) (ix1 (0 : Fin 1))) :
    Cert.algebraic_KernelIdeal_ReferenceIdeal := by
  intro m ρ m' ρ' _ hagree
  refine ⟨fun c => Cert.KernelIdeal.Hand.W5 m ρ c (Proc.devRef .tc Cert.KernelIdeal.main_v16), ?_, ?_⟩
  · exact (θ_run (Cert.KernelIdeal.defs (F := Ideal)) _ _).mono (fun r h c =>
      ⟨h c _ (Cert.KernelIdeal.Hand.mem_uc Cert.KernelIdeal.main_v16 (by decide)),
       (h c _ (Cert.KernelIdeal.Hand.mem_uc Cert.KernelIdeal.main_arg0 (by decide))).trans (Cert.KernelIdeal.Hand.W5_arg0 m ρ c),
       (h c _ (Cert.KernelIdeal.Hand.mem_uc Cert.KernelIdeal.main_arg1 (by decide))).trans (Cert.KernelIdeal.Hand.W5_arg1 m ρ c),
       (h c _ (Cert.KernelIdeal.Hand.mem_uc Cert.KernelIdeal.main_arg2 (by decide))).trans (Cert.KernelIdeal.Hand.W5_arg2 m ρ c),
       (h c _ (Cert.KernelIdeal.Hand.mem_uc Cert.KernelIdeal.main_arg3 (by decide))).trans (Cert.KernelIdeal.Hand.W5_arg3 m ρ c),
       (h c _ (Cert.KernelIdeal.Hand.mem_uc Cert.KernelIdeal.main_arg4 (by decide))).trans (Cert.KernelIdeal.Hand.W5_arg4 m ρ c)⟩)
      (Cert.KernelIdeal.Hand.run_main m ρ hbody)
  · refine (θ_run (Cert.ReferenceIdeal.defs (F := Ideal)) _ _).mono (fun r h c =>
      ⟨?_,
       (h c Cert.ReferenceIdeal.main_arg0).trans (Cert.ReferenceIdeal.Hand.after_arg0 _),
       (h c Cert.ReferenceIdeal.main_arg1).trans (Cert.ReferenceIdeal.Hand.after_arg1 _),
       (h c Cert.ReferenceIdeal.main_arg2).trans (Cert.ReferenceIdeal.Hand.after_arg2 _),
       (h c Cert.ReferenceIdeal.main_arg3).trans (Cert.ReferenceIdeal.Hand.after_arg3 _),
       (h c Cert.ReferenceIdeal.main_arg4).trans (Cert.ReferenceIdeal.Hand.after_arg4 _)⟩)
      (Cert.ReferenceIdeal.Hand.run_all (F := Ideal) m' ρ')
    refine (h c Cert.ReferenceIdeal.main_v35).trans ?_
    rw [Cert.ReferenceIdeal.Hand.after_ops]
    funext idx
    obtain ⟨i, rfl⟩ : ∃ i : Fin 8192, idx = ix1 i := ⟨idx 0, eq_ix1 idx⟩
    refine (htail _ i).trans ?_
    rw [Cert.ReferenceIdeal.Hand.std_arg3, Cert.ReferenceIdeal.Hand.std_arg4]
    refine Eq.trans ?_ (Cert.KernelIdeal.Hand.W5_v16_apply m ρ c i).symm
    have hX := Cert.Proof.Bridge.std_eq (F := Ideal) (Cert.KernelIdeal.Hand.W0 m ρ c) (StableHlo.launchContents m' c)
      (hagree c).1 (hagree c).2.1 (hagree c).2.2.1
    have hG := Cert.KernelIdeal.Hand.arr3_apply (Cert.KernelIdeal.Hand.V3 m ρ) c i
    rw [hX]
    refine Eq.trans ?_ (congrArg₂ (· + ·) hG.symm rfl)
    refine congrArg₂ (· + ·) ?_ ?_
    · refine congrArg (fun w => Cert.Spec.G _ w i) ?_
      exact ((hagree c).2.2.2.1).trans (Cert.KernelIdeal.Hand.W3_arg3 m ρ c).symm
    · exact congrFun (hagree c).2.2.2.2 (ix1 (0 : Fin 1))

end Cert.Proof.Parts

end
-- ==== Proof.KI.Body.lean ====
/-
  The pairwise kernel's body at one grid point, and the body obligation of the pipeline's proof data.

  The body is handed four whole staging buffers: the 512 query rows, the 1024 key rows, the 1024 weights and the
  512 running row sums. Where the column block is 0 it first stores the zero vector over the running sums. Then it
  reads the three inputs, forms for each of the 512 query rows the sum over the 1024 keys of `(-1/2) K exp K` times
  the key's weight (`K` the clamped squared distance), reads the running sums back and stores running sums plus
  row sums over them. So the buffer of running sums ends at `zero + row sums` where the column block is 0 and at
  `what it held + row sums` elsewhere; the input buffers are only read and keep their contents.

  The obligation at point `t` follows by the case of `t % 8`: each input buffer holds its block of the array at
  every point (fetched there or not: an unfetched window's block index has not moved); the output buffer, where the
  column block is not 0, holds what the body left at the point before, since it is written back only after the last
  column block.
-/
import proofs.«149665_j71691594105115_1_alg».proof.Proof.KI.Data
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-buffer loads and stores

Every load and store of the body goes through the rectangle at offset zero whose extents are the buffer's own: a load
through it reads the contents, a store through it replaces them. -/

/-- The zero offsets of a one-axis and of a two-axis buffer are the constant zero function. -/
theorem hz1 : (![0] : Fin 1 → Nat) = fun _ => 0 := funext fun a => by fin_cases a <;> rfl
theorem hz2 : (![0, 0] : Fin 2 → Nat) = fun _ => 0 := funext fun a => by fin_cases a <;> rfl

/-- A whole-buffer load of the query rows reads what the buffer holds. -/
theorem ld0 (arg2 : Memref sig .tc .vmem S512x2 .f32) (harg2 : arg2.IsWhole) (x0 : Vec F S512x2 .f32) :
    View.readAt (Elt F) arg2.view (Rect.unit ![0, 0] S512x2.size inb_S512x2_S512x2_0_0).toLoadRect (harg2.unread x0) = x0 := by
  rw [View.readAt_eq_ld, harg2.read_unread, View.ld_unit_zero (S := S512x2) hz2]

/-- A whole-buffer load of the key rows reads what the buffer holds. -/
theorem ld1 (arg3 : Memref sig .tc .vmem S1024x2 .f32) (harg3 : arg3.IsWhole) (x1 : Vec F S1024x2 .f32) :
    View.readAt (Elt F) arg3.view (Rect.unit ![0, 0] S1024x2.size inb_S1024x2_S1024x2_0_0).toLoadRect (harg3.unread x1) = x1 := by
  rw [View.readAt_eq_ld, harg3.read_unread, View.ld_unit_zero (S := S1024x2) hz2]

/-- A whole-buffer load of the weights reads what the buffer holds. -/
theorem ld2 (arg4 : Memref sig .tc .vmem S1x1024 .f32) (harg4 : arg4.IsWhole) (x2 : Vec F S1x1024 .f32) :
    View.readAt (Elt F) arg4.view (Rect.unit ![0, 0] S1x1024.size inb_S1x1024_S1x1024_0_0).toLoadRect (harg4.unread x2) = x2 := by
  rw [View.readAt_eq_ld, harg4.read_unread, View.ld_unit_zero (S := S1x1024) hz2]

/-- A whole-buffer load of the running sums reads what the buffer holds. -/
theorem ld3 (arg5 : Memref sig .tc .vmem S512 .f32) (harg5 : arg5.IsWhole) (xo : Vec F S512 .f32) :
    View.readAt (Elt F) arg5.view (Rect.unit ![0] S512.size inb_S512_S512_0).toLoadRect (harg5.unread xo) = xo := by
  rw [View.readAt_eq_ld, harg5.read_unread, View.ld_unit_zero (S := S512) hz1]

/-- A whole-buffer load after one whole-buffer store of `w` reads `w`. -/
theorem rc3 (arg5 : Memref sig .tc .vmem S512 .f32) (w : Vec F S512 .f32) :
    arg5.view.readCov [(⟨Rect.unit ![0] S512.size inb_S512_S512_0, w⟩ : View.Piece (Elt F) S512 .f32)] (Rect.unit ![0] S512.size inb_S512_S512_0).toLoadRect = w :=
  View.readCov_unit_zero (S := S512) arg5.view hz1 inb_S512_S512_0 w

/-- A whole-buffer store, made last, covers every index of the 512 running sums. -/
theorem cover_cons (P : Vec F S512 .f32) (L : List (View.Piece (Elt F) S512 .f32)) (y : S512.Idx) :
    ∃ p ∈ ((⟨Rect.unit ![0] S512.size inb_S512_S512_0, P⟩ : View.Piece (Elt F) S512 .f32) :: L), y ∈ p.1.set :=
  ⟨_, List.mem_cons_self, View.mem_set_unit_zero (S := S512) hz1 inb_S512_S512_0 y⟩

/-- After one whole-buffer store of `P` the buffer reads `P`, whatever it held. -/
theorem read_one (v : View sig .tc .vmem S512 .f32) (f : v.ty.Contents (Elt F)) (P : Vec F S512 .f32) :
    v.read (Elt F) (v.writes (Elt F) f [⟨Rect.unit ![0] S512.size inb_S512_S512_0, P⟩]) = P :=
  (View.read_writes_eq_canon v f _ (cover_cons P [])).trans (View.canon_unit_zero (S := S512) hz1 inb_S512_S512_0 P)

/-- After a whole-buffer store of `z` and then one of `P` the buffer reads `P`: the later store covers the earlier. -/
theorem read_two (v : View sig .tc .vmem S512 .f32) (f : v.ty.Contents (Elt F)) (P z : Vec F S512 .f32) :
    v.read (Elt F) (v.writes (Elt F) f [⟨Rect.unit ![0] S512.size inb_S512_S512_0, P⟩, ⟨Rect.unit ![0] S512.size inb_S512_S512_0, z⟩]) = P :=
  (View.read_writes_eq_canon v f _ (cover_cons P [⟨Rect.unit ![0] S512.size inb_S512_S512_0, z⟩])).trans
    (View.canon_cons_unit_zero (S := S512) hz1 inb_S512_S512_0 P _)

/-! ## What the two stores leave -/

/-- Where the column block is 0: the zero vector stored, then `row sums + (the buffer read back)` stored over it. The
    read-back is the zero vector, the three input loads read the inputs' contents, so the buffer ends at
    `row sums + zero`, whatever it held before. -/
theorem fin_A (arg2 : Memref sig .tc .vmem S512x2 .f32) (harg2 : arg2.IsWhole)
    (arg3 : Memref sig .tc .vmem S1024x2 .f32) (harg3 : arg3.IsWhole)
    (arg4 : Memref sig .tc .vmem S1x1024 .f32) (harg4 : arg4.IsWhole)
    (arg5 : Memref sig .tc .vmem S512 .f32) (f3 : arg5.view.ty.Contents (Elt F))
    (x0 : Vec F S512x2 .f32) (x1 : Vec F S1024x2 .f32) (x2 : Vec F S1x1024 .f32) :
    View.read (Elt F) arg5.view (arg5.view.writes (Elt F) f3
      [⟨Rect.unit ![0] S512.size inb_S512_S512_0,
          k0_pay1
            (k0_pay3
              (View.readAt (Elt F) arg2.view (Rect.unit ![0, 0] S512x2.size inb_S512x2_S512x2_0_0).toLoadRect (harg2.unread x0))
              (View.readAt (Elt F) arg3.view (Rect.unit ![0, 0] S1024x2.size inb_S1024x2_S1024x2_0_0).toLoadRect (harg3.unread x1))
              (View.readAt (Elt F) arg4.view (Rect.unit ![0, 0] S1x1024.size inb_S1x1024_S1x1024_0_0).toLoadRect (harg4.unread x2)))
            (arg5.view.readCov [⟨Rect.unit ![0] S512.size inb_S512_S512_0, k0_pay2⟩] (Rect.unit ![0] S512.size inb_S512_S512_0).toLoadRect)⟩,
        ⟨Rect.unit ![0] S512.size inb_S512_S512_0, k0_pay2⟩]) = k0_pay1 (k0_pay3 x0 x1 x2) (k0_pay2 (F := F)) := by
  refine (read_two arg5.view f3 _ _).trans ?_
  rw [ld0, ld1, ld2, rc3]

/-- Elsewhere: one store of `row sums + (the buffer read)` over a buffer holding `xo`. The load reads `xo`, the three
    input loads read the inputs' contents, so the buffer ends at `row sums + xo`. -/
theorem fin_B (arg2 : Memref sig .tc .vmem S512x2 .f32) (harg2 : arg2.IsWhole)
    (arg3 : Memref sig .tc .vmem S1024x2 .f32) (harg3 : arg3.IsWhole)
    (arg4 : Memref sig .tc .vmem S1x1024 .f32) (harg4 : arg4.IsWhole)
    (arg5 : Memref sig .tc .vmem S512 .f32) (harg5 : arg5.IsWhole)
    (x0 : Vec F S512x2 .f32) (x1 : Vec F S1024x2 .f32) (x2 : Vec F S1x1024 .f32) (xo : Vec F S512 .f32) :
    View.read (Elt F) arg5.view (arg5.view.writes (Elt F) (harg5.unread xo)
      [⟨Rect.unit ![0] S512.size inb_S512_S512_0,
          k0_pay1
            (k0_pay3
              (View.readAt (Elt F) arg2.view (Rect.unit ![0, 0] S512x2.size inb_S512x2_S512x2_0_0).toLoadRect (harg2.unread x0))
              (View.readAt (Elt F) arg3.view (Rect.unit ![0, 0] S1024x2.size inb_S1024x2_S1024x2_0_0).toLoadRect (harg3.unread x1))
              (View.readAt (Elt F) arg4.view (Rect.unit ![0, 0] S1x1024.size inb_S1x1024_S1x1024_0_0).toLoadRect (harg4.unread x2)))
            (View.readAt (Elt F) arg5.view (Rect.unit ![0] S512.size inb_S512_S512_0).toLoadRect (harg5.unread xo))⟩]) =
      k0_pay1 (k0_pay3 x0 x1 x2) xo := by
  refine (read_one arg5.view _ _).trans ?_
  rw [ld0, ld1, ld2, ld3]

/-! ## The branch condition -/

/-- The body's one condition, from the grid coordinates: the column block's index is 0. -/
abbrev cond (i : grid0.Coords) : Prop := (Scalar.cmpi .ne (Scalar.extui (Scalar.cmpi .eq (BitVec.ofNat 32 (i 1).val) 0#32)) 0#32) = 1#1

/-- Over the 16 x 8 grid it holds exactly at the points whose position is a multiple of 8 (all 128 points compared). -/
theorem hcond : ∀ t : Fin cfg0.N, cond (grid0.coords t) ↔ t.val % 8 = 0 :=
  (by decide +kernel : ∀ t : Fin grid0.N, cond (grid0.coords t) ↔ t.val % 8 = 0)

/-! ## The body's two runs -/

set_option maxHeartbeats 1000000 in
/-- Where the column block is 0: from the three inputs at `x0`, `x1`, `x2` and the running sums at anything, the body
    runs to the inputs unchanged and the running sums at `row sums of (x0, x1, x2) + zero`. -/
theorem runA (c : Dev nD) (i : grid0.Coords)
    (arg2 : Memref sig .tc .vmem S512x2 .f32) (harg2 : arg2.IsWhole)
    (arg3 : Memref sig .tc .vmem S1024x2 .f32) (harg3 : arg3.IsWhole)
    (arg4 : Memref sig .tc .vmem S1x1024 .f32) (harg4 : arg4.IsWhole)
    (arg5 : Memref sig .tc .vmem S512 .f32) (harg5 : arg5.IsWhole)
    (hc : cond i)
    (x0 : Vec F S512x2 .f32) (x1 : Vec F S1024x2 .f32) (x2 : Vec F S1x1024 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k0_pay1 (k0_pay3 x0 x1 x2) (k0_pay2 (F := F)))) -∗ K ⟨⟩))
      ⊢ wp frame (wpE (defs₀ (F := F)) Variants.none c none) E (cc0__pairwise_rbf_kernel i arg2 harg2 arg3 harg3 arg4 harg4 arg5 harg5) K := by
  simp only [cc0__pairwise_rbf_kernel_eq_skeleton]; unfold cc0__pairwise_rbf_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, Hk⟩
  obtain rfl := harg2.eq_unread hf0; obtain rfl := harg3.eq_unread hf1; obtain rfl := harg4.eq_unread hf2
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact H3
  ipureintro
  sl_unfold_words
  exact fin_A arg2 harg2 arg3 harg3 arg4 harg4 arg5 f3 x0 x1 x2

set_option maxHeartbeats 1000000 in
/-- Elsewhere: from the three inputs at `x0`, `x1`, `x2` and the running sums at `xo`, the body runs to the inputs
    unchanged and the running sums at `row sums of (x0, x1, x2) + xo`. -/
theorem runB (c : Dev nD) (i : grid0.Coords)
    (arg2 : Memref sig .tc .vmem S512x2 .f32) (harg2 : arg2.IsWhole)
    (arg3 : Memref sig .tc .vmem S1024x2 .f32) (harg3 : arg3.IsWhole)
    (arg4 : Memref sig .tc .vmem S1x1024 .f32) (harg4 : arg4.IsWhole)
    (arg5 : Memref sig .tc .vmem S512 .f32) (harg5 : arg5.IsWhole)
    (hc : ¬ cond i)
    (x0 : Vec F S512x2 .f32) (x1 : Vec F S1024x2 .f32) (x2 : Vec F S1x1024 .f32) (xo : Vec F S512 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo
        ∗ (iprop(owns (c : Thread nD τ) arg2 fullShare x0 ∗ owns (c : Thread nD τ) arg3 fullShare x1 ∗ owns (c : Thread nD τ) arg4 fullShare x2
            ∗ owns (c : Thread nD τ) arg5 fullShare (k0_pay1 (k0_pay3 x0 x1 x2) xo)) -∗ K ⟨⟩))
      ⊢ wp frame (wpE (defs₀ (F := F)) Variants.none c none) E (cc0__pairwise_rbf_kernel i arg2 harg2 arg3 harg3 arg4 harg4 arg5 harg5) K := by
  simp only [cc0__pairwise_rbf_kernel_eq_skeleton]; unfold cc0__pairwise_rbf_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1; obtain rfl := harg4.eq_unread hf2; obtain rfl := harg5.eq_unread hf3
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact H3
  ipureintro
  exact fin_B arg2 harg2 arg3 harg3 arg4 harg4 arg5 harg5 x0 x1 x2 xo

/-! ## What the staging buffers hold when the body is called -/

variable (V : (c : Dev nD) → (b : Ref sig .tc) → Buf (Elt F) ((c : Thread nD τ).loc b))

/-- Each window's current staging buffer at point `t`, and that it is a whole buffer. -/
abbrev ms0 (t : Fin cfg0.N) : Memref sig .tc .vmem S512x2 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x2 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512 .f32 := win0_3.stage (cfg0.slots t 3)
abbrev hs3 (t : Fin cfg0.N) : (ms3 t).IsWhole := hstage0_3 ((cfg0.slots t 3).cast nbuf0_3)

/-- The query rows' buffer holds the point's block of the sample matrix at every point: fetched there, it is the block;
    not fetched, the block index is the one of the point before, whose block the body left in place. -/
theorem before_0 (c : Dev nD) (t : Fin cfg0.N) (d) : (dats V 0 c).before 0 t d = iblk V c 0 t :=
  ((dats V 0 c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)

/-- The key rows' buffer holds the point's block of the sample matrix at every point. -/
theorem before_1 (c : Dev nD) (t : Fin cfg0.N) (d) : (dats V 0 c).before 1 t d = iblk V c 1 t :=
  ((dats V 0 c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)

/-- The weights' buffer holds the point's block of the weight row at every point. -/
theorem before_2 (c : Dev nD) (t : Fin cfg0.N) (d) : (dats V 0 c).before 2 t d = iblk V c 2 t :=
  ((dats V 0 c).before_in_eq_fetched 2 rfl (fun _ => rfl) (fun _ _ _ => rfl)
      (fun t => by rw [after_2]; unfold Dat.blockOf iblk; rw [A_eq]; try rfl) t d).trans
    (by unfold Dat.fetched Dat.blockOf iblk; rw [A_eq]; try rfl)

/-- Where the column block is not 0 the running sums' buffer holds what the body left at the point before: the point is
    not the first, and the point before, whose column block is not the last (`(t - 1) % 8 ≠ 7`), was not written back. -/
theorem before_3_B (c : Dev nD) (t : Fin cfg0.N) (h0 : ¬ t.val % 8 = 0) (d) :
    (dats V 0 c).before 3 t d = acc V c (t.val - 1) (Nat.lt_of_le_of_lt (Nat.sub_le _ _) t.isLt) := by
  have hN : t.val < 128 := lt_of_lt_of_eq t.isLt (show cfg0.N = 128 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation -/

/-- What the body is called with at point `t`, the four windows one by one, -/
def bodyPre (c : Dev nD) (t : Fin cfg0.N) : sProp 𝕄 :=
  iprop((dats V 0 c).Φ t.castSucc ∗ (dats V 0 c).owesAt () t.castSucc
    ∗ (∃ d, owns (c : Thread nD τ) (ms0 t) fullShare ((dats V 0 c).before 0 t d))
    ∗ (∃ d, owns (c : Thread nD τ) (ms1 t) fullShare ((dats V 0 c).before 1 t d))
    ∗ (∃ d, owns (c : Thread nD τ) (ms2 t) fullShare ((dats V 0 c).before 2 t d))
    ∗ (∃ d, owns (c : Thread nD τ) (ms3 t) fullShare ((dats V 0 c).before 3 t d)))

/-- and what it returns. -/
def bodyPost (c : Dev nD) (t : Fin cfg0.N) : sProp 𝕄 :=
  iprop((dats V 0 c).Φ t.succ ∗ (dats V 0 c).owesAt () t.succ
    ∗ owns (c : Thread nD τ) (ms0 t) fullShare ((dats V 0 c).after 0 t)
    ∗ owns (c : Thread nD τ) (ms1 t) fullShare ((dats V 0 c).after 1 t)
    ∗ owns (c : Thread nD τ) (ms2 t) fullShare ((dats V 0 c).after 2 t)
    ∗ owns (c : Thread nD τ) (ms3 t) fullShare ((dats V 0 c).after 3 t))

set_option maxHeartbeats 800000 in
/-- The body at any point. The input buffers hold their blocks. If `t % 8 = 0` the condition holds, the running sums
    end at `row sums + zero`, which is the accumulation at a reset point; otherwise the condition fails, the buffer
    holds the accumulation at `t - 1` and ends at `row sums +` that, the accumulation's step. The invariant and the
    core's debt pass through untouched. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dats V 0 c).Φ t.succ = (dats V 0 c).Φ t.castSucc from rfl,
    show (dats V 0 c).owesAt () t.succ = (dats V 0 c).owesAt () t.castSucc from rfl,
    after_0, after_1, after_2, after_3]
  by_cases h0 : t.val % 8 = 0
  · rw [acc_reset V c t h0]
    iintro ⟨HΦ, Ho, ⟨%d0, H0⟩, ⟨%d1, H1⟩, ⟨%d2, H2⟩, ⟨%d3, H3⟩⟩
    iapply (runA c (grid0.coords t) (ms0 t) (hs0 t) (ms1 t) (hs1 t) (ms2 t) (hs2 t) (ms3 t) (hs3 t) ((hcond t).mpr h0)
      (qblk V c t) (kblk V c t) (wblk V c t) Set.univ _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [acc_step V c t h0]
    simp only [before_3_B V c t h0]
    iintro ⟨HΦ, Ho, ⟨%d0, H0⟩, ⟨%d1, H1⟩, ⟨%d2, H2⟩, ⟨%d3, H3⟩⟩
    iapply (runB c (grid0.coords t) (ms0 t) (hs0 t) (ms1 t) (hs1 t) (ms2 t) (hs2 t) (ms3 t) (hs3 t) (fun h => h0 ((hcond t).mp h))
      (qblk V c t) (kblk V c t) (wblk V c t) (acc V c (t.val - 1) (Nat.lt_of_le_of_lt (Nat.sub_le _ _) t.isLt)) Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The body obligation of the proof data, at every point: the four windows conjoined one by one, then the body's run. -/
theorem body_obligation (c : Dev nD) :
    BodyObligation (dats (F := F) V 0 c) (defs₀ (F := F)) Variants.none () Set.univ := fun t => by
  rw [bigSep_W0, bigSep_W0]
  exact sound_body V c t

end Cert.KernelIdeal.Hand

end
-- ==== Proof.K.Body.lean ====
/-
  The pairwise kernel's body at one grid point, and the body obligation of the pipeline's proof data.

  The body is handed four whole staging buffers: the 512 query rows, the 1024 key rows, the 1024 weights and the
  512 running row sums. Where the column block is 0 it first stores the zero vector over the running sums. Then it
  reads the three inputs, forms for each of the 512 query rows the sum over the 1024 keys of `(-1/2) K exp K` times
  the key's weight (`K` the clamped squared distance), reads the running sums back and stores running sums plus
  row sums over them. So the buffer of running sums ends at `zero + row sums` where the column block is 0 and at
  `what it held + row sums` elsewhere; the input buffers are only read and keep their contents.

  The obligation at point `t` follows by the case of `t % 8`: each input buffer holds its block of the array at
  every point (fetched there or not: an unfetched window's block index has not moved); the output buffer, where the
  column block is not 0, holds what the body left at the point before, since it is written back only after the last
  column block.
-/
import proofs.«149665_j71691594105115_1_alg».proof.Proof.K.Data
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-buffer loads and stores

Every load and store of the body goes through the rectangle at offset zero whose extents are the buffer's own: a load
through it reads the contents, a store through it replaces them. -/

/-- The zero offsets of a one-axis and of a two-axis buffer are the constant zero function. -/
theorem hz1 : (![0] : Fin 1 → Nat) = fun _ => 0 := funext fun a => by fin_cases a <;> rfl
theorem hz2 : (![0, 0] : Fin 2 → Nat) = fun _ => 0 := funext fun a => by fin_cases a <;> rfl

/-- A whole-buffer load of the query rows reads what the buffer holds. -/
theorem ld0 (arg2 : Memref sig .tc .vmem S512x2 .f32) (harg2 : arg2.IsWhole) (x0 : Vec F S512x2 .f32) :
    View.readAt (Elt F) arg2.view (Rect.unit ![0, 0] S512x2.size inb_S512x2_S512x2_0_0).toLoadRect (harg2.unread x0) = x0 := by
  rw [View.readAt_eq_ld, harg2.read_unread, View.ld_unit_zero (S := S512x2) hz2]

/-- A whole-buffer load of the key rows reads what the buffer holds. -/
theorem ld1 (arg3 : Memref sig .tc .vmem S1024x2 .f32) (harg3 : arg3.IsWhole) (x1 : Vec F S1024x2 .f32) :
    View.readAt (Elt F) arg3.view (Rect.unit ![0, 0] S1024x2.size inb_S1024x2_S1024x2_0_0).toLoadRect (harg3.unread x1) = x1 := by
  rw [View.readAt_eq_ld, harg3.read_unread, View.ld_unit_zero (S := S1024x2) hz2]

/-- A whole-buffer load of the weights reads what the buffer holds. -/
theorem ld2 (arg4 : Memref sig .tc .vmem S1x1024 .f32) (harg4 : arg4.IsWhole) (x2 : Vec F S1x1024 .f32) :
    View.readAt (Elt F) arg4.view (Rect.unit ![0, 0] S1x1024.size inb_S1x1024_S1x1024_0_0).toLoadRect (harg4.unread x2) = x2 := by
  rw [View.readAt_eq_ld, harg4.read_unread, View.ld_unit_zero (S := S1x1024) hz2]

/-- A whole-buffer load of the running sums reads what the buffer holds. -/
theorem ld3 (arg5 : Memref sig .tc .vmem S512 .f32) (harg5 : arg5.IsWhole) (xo : Vec F S512 .f32) :
    View.readAt (Elt F) arg5.view (Rect.unit ![0] S512.size inb_S512_S512_0).toLoadRect (harg5.unread xo) = xo := by
  rw [View.readAt_eq_ld, harg5.read_unread, View.ld_unit_zero (S := S512) hz1]

/-- A whole-buffer load after one whole-buffer store of `w` reads `w`. -/
theorem rc3 (arg5 : Memref sig .tc .vmem S512 .f32) (w : Vec F S512 .f32) :
    arg5.view.readCov [(⟨Rect.unit ![0] S512.size inb_S512_S512_0, w⟩ : View.Piece (Elt F) S512 .f32)] (Rect.unit ![0] S512.size inb_S512_S512_0).toLoadRect = w :=
  View.readCov_unit_zero (S := S512) arg5.view hz1 inb_S512_S512_0 w

/-- A whole-buffer store, made last, covers every index of the 512 running sums. -/
theorem cover_cons (P : Vec F S512 .f32) (L : List (View.Piece (Elt F) S512 .f32)) (y : S512.Idx) :
    ∃ p ∈ ((⟨Rect.unit ![0] S512.size inb_S512_S512_0, P⟩ : View.Piece (Elt F) S512 .f32) :: L), y ∈ p.1.set :=
  ⟨_, List.mem_cons_self, View.mem_set_unit_zero (S := S512) hz1 inb_S512_S512_0 y⟩

/-- After one whole-buffer store of `P` the buffer reads `P`, whatever it held. -/
theorem read_one (v : View sig .tc .vmem S512 .f32) (f : v.ty.Contents (Elt F)) (P : Vec F S512 .f32) :
    v.read (Elt F) (v.writes (Elt F) f [⟨Rect.unit ![0] S512.size inb_S512_S512_0, P⟩]) = P :=
  (View.read_writes_eq_canon v f _ (cover_cons P [])).trans (View.canon_unit_zero (S := S512) hz1 inb_S512_S512_0 P)

/-- After a whole-buffer store of `z` and then one of `P` the buffer reads `P`: the later store covers the earlier. -/
theorem read_two (v : View sig .tc .vmem S512 .f32) (f : v.ty.Contents (Elt F)) (P z : Vec F S512 .f32) :
    v.read (Elt F) (v.writes (Elt F) f [⟨Rect.unit ![0] S512.size inb_S512_S512_0, P⟩, ⟨Rect.unit ![0] S512.size inb_S512_S512_0, z⟩]) = P :=
  (View.read_writes_eq_canon v f _ (cover_cons P [⟨Rect.unit ![0] S512.size inb_S512_S512_0, z⟩])).trans
    (View.canon_cons_unit_zero (S := S512) hz1 inb_S512_S512_0 P _)

/-! ## What the two stores leave -/

/-- Where the column block is 0: the zero vector stored, then `row sums + (the buffer read back)` stored over it. The
    read-back is the zero vector, the three input loads read the inputs' contents, so the buffer ends at
    `row sums + zero`, whatever it held before. -/
theorem fin_A (arg2 : Memref sig .tc .vmem S512x2 .f32) (harg2 : arg2.IsWhole)
    (arg3 : Memref sig .tc .vmem S1024x2 .f32) (harg3 : arg3.IsWhole)
    (arg4 : Memref sig .tc .vmem S1x1024 .f32) (harg4 : arg4.IsWhole)
    (arg5 : Memref sig .tc .vmem S512 .f32) (f3 : arg5.view.ty.Contents (Elt F))
    (x0 : Vec F S512x2 .f32) (x1 : Vec F S1024x2 .f32) (x2 : Vec F S1x1024 .f32) :
    View.read (Elt F) arg5.view (arg5.view.writes (Elt F) f3
      [⟨Rect.unit ![0] S512.size inb_S512_S512_0,
          k0_pay1
            (k0_pay3
              (View.readAt (Elt F) arg2.view (Rect.unit ![0, 0] S512x2.size inb_S512x2_S512x2_0_0).toLoadRect (harg2.unread x0))
              (View.readAt (Elt F) arg3.view (Rect.unit ![0, 0] S1024x2.size inb_S1024x2_S1024x2_0_0).toLoadRect (harg3.unread x1))
              (View.readAt (Elt F) arg4.view (Rect.unit ![0, 0] S1x1024.size inb_S1x1024_S1x1024_0_0).toLoadRect (harg4.unread x2)))
            (arg5.view.readCov [⟨Rect.unit ![0] S512.size inb_S512_S512_0, k0_pay2⟩] (Rect.unit ![0] S512.size inb_S512_S512_0).toLoadRect)⟩,
        ⟨Rect.unit ![0] S512.size inb_S512_S512_0, k0_pay2⟩]) = k0_pay1 (k0_pay3 x0 x1 x2) (k0_pay2 (F := F)) := by
  refine (read_two arg5.view f3 _ _).trans ?_
  rw [ld0, ld1, ld2, rc3]

/-- Elsewhere: one store of `row sums + (the buffer read)` over a buffer holding `xo`. The load reads `xo`, the three
    input loads read the inputs' contents, so the buffer ends at `row sums + xo`. -/
theorem fin_B (arg2 : Memref sig .tc .vmem S512x2 .f32) (harg2 : arg2.IsWhole)
    (arg3 : Memref sig .tc .vmem S1024x2 .f32) (harg3 : arg3.IsWhole)
    (arg4 : Memref sig .tc .vmem S1x1024 .f32) (harg4 : arg4.IsWhole)
    (arg5 : Memref sig .tc .vmem S512 .f32) (harg5 : arg5.IsWhole)
    (x0 : Vec F S512x2 .f32) (x1 : Vec F S1024x2 .f32) (x2 : Vec F S1x1024 .f32) (xo : Vec F S512 .f32) :
    View.read (Elt F) arg5.view (arg5.view.writes (Elt F) (harg5.unread xo)
      [⟨Rect.unit ![0] S512.size inb_S512_S512_0,
          k0_pay1
            (k0_pay3
              (View.readAt (Elt F) arg2.view (Rect.unit ![0, 0] S512x2.size inb_S512x2_S512x2_0_0).toLoadRect (harg2.unread x0))
              (View.readAt (Elt F) arg3.view (Rect.unit ![0, 0] S1024x2.size inb_S1024x2_S1024x2_0_0).toLoadRect (harg3.unread x1))
              (View.readAt (Elt F) arg4.view (Rect.unit ![0, 0] S1x1024.size inb_S1x1024_S1x1024_0_0).toLoadRect (harg4.unread x2)))
            (View.readAt (Elt F) arg5.view (Rect.unit ![0] S512.size inb_S512_S512_0).toLoadRect (harg5.unread xo))⟩]) =
      k0_pay1 (k0_pay3 x0 x1 x2) xo := by
  refine (read_one arg5.view _ _).trans ?_
  rw [ld0, ld1, ld2, ld3]

/-! ## The branch condition -/

/-- The body's one condition, from the grid coordinates: the column block's index is 0. -/
abbrev cond (i : grid0.Coords) : Prop := (Scalar.cmpi .ne (Scalar.extui (Scalar.cmpi .eq (BitVec.ofNat 32 (i 1).val) 0#32)) 0#32) = 1#1

/-- Over the 16 x 8 grid it holds exactly at the points whose position is a multiple of 8 (all 128 points compared). -/
theorem hcond : ∀ t : Fin cfg0.N, cond (grid0.coords t) ↔ t.val % 8 = 0 :=
  (by decide +kernel : ∀ t : Fin grid0.N, cond (grid0.coords t) ↔ t.val % 8 = 0)

/-! ## The body's two runs -/

set_option maxHeartbeats 1000000 in
/-- Where the column block is 0: from the three inputs at `x0`, `x1`, `x2` and the running sums at anything, the body
    runs to the inputs unchanged and the running sums at `row sums of (x0, x1, x2) + zero`. -/
theorem runA (c : Dev nD) (i : grid0.Coords)
    (arg2 : Memref sig .tc .vmem S512x2 .f32) (harg2 : arg2.IsWhole)
    (arg3 : Memref sig .tc .vmem S1024x2 .f32) (harg3 : arg3.IsWhole)
    (arg4 : Memref sig .tc .vmem S1x1024 .f32) (harg4 : arg4.IsWhole)
    (arg5 : Memref sig .tc .vmem S512 .f32) (harg5 : arg5.IsWhole)
    (hc : cond i)
    (x0 : Vec F S512x2 .f32) (x1 : Vec F S1024x2 .f32) (x2 : Vec F S1x1024 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k0_pay1 (k0_pay3 x0 x1 x2) (k0_pay2 (F := F)))) -∗ K ⟨⟩))
      ⊢ wp frame (wpE (defs₀ (F := F)) Variants.none c none) E (cc0__pairwise_rbf_kernel i arg2 harg2 arg3 harg3 arg4 harg4 arg5 harg5) K := by
  simp only [cc0__pairwise_rbf_kernel_eq_skeleton]; unfold cc0__pairwise_rbf_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, Hk⟩
  obtain rfl := harg2.eq_unread hf0; obtain rfl := harg3.eq_unread hf1; obtain rfl := harg4.eq_unread hf2
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact H3
  ipureintro
  sl_unfold_words
  exact fin_A arg2 harg2 arg3 harg3 arg4 harg4 arg5 f3 x0 x1 x2

set_option maxHeartbeats 1000000 in
/-- Elsewhere: from the three inputs at `x0`, `x1`, `x2` and the running sums at `xo`, the body runs to the inputs
    unchanged and the running sums at `row sums of (x0, x1, x2) + xo`. -/
theorem runB (c : Dev nD) (i : grid0.Coords)
    (arg2 : Memref sig .tc .vmem S512x2 .f32) (harg2 : arg2.IsWhole)
    (arg3 : Memref sig .tc .vmem S1024x2 .f32) (harg3 : arg3.IsWhole)
    (arg4 : Memref sig .tc .vmem S1x1024 .f32) (harg4 : arg4.IsWhole)
    (arg5 : Memref sig .tc .vmem S512 .f32) (harg5 : arg5.IsWhole)
    (hc : ¬ cond i)
    (x0 : Vec F S512x2 .f32) (x1 : Vec F S1024x2 .f32) (x2 : Vec F S1x1024 .f32) (xo : Vec F S512 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo
        ∗ (iprop(owns (c : Thread nD τ) arg2 fullShare x0 ∗ owns (c : Thread nD τ) arg3 fullShare x1 ∗ owns (c : Thread nD τ) arg4 fullShare x2
            ∗ owns (c : Thread nD τ) arg5 fullShare (k0_pay1 (k0_pay3 x0 x1 x2) xo)) -∗ K ⟨⟩))
      ⊢ wp frame (wpE (defs₀ (F := F)) Variants.none c none) E (cc0__pairwise_rbf_kernel i arg2 harg2 arg3 harg3 arg4 harg4 arg5 harg5) K := by
  simp only [cc0__pairwise_rbf_kernel_eq_skeleton]; unfold cc0__pairwise_rbf_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1; obtain rfl := harg4.eq_unread hf2; obtain rfl := harg5.eq_unread hf3
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact H3
  ipureintro
  exact fin_B arg2 harg2 arg3 harg3 arg4 harg4 arg5 harg5 x0 x1 x2 xo

/-! ## What the staging buffers hold when the body is called -/

variable (V : (c : Dev nD) → (b : Ref sig .tc) → Buf (Elt F) ((c : Thread nD τ).loc b))

/-- Each window's current staging buffer at point `t`, and that it is a whole buffer. -/
abbrev ms0 (t : Fin cfg0.N) : Memref sig .tc .vmem S512x2 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x2 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512 .f32 := win0_3.stage (cfg0.slots t 3)
abbrev hs3 (t : Fin cfg0.N) : (ms3 t).IsWhole := hstage0_3 ((cfg0.slots t 3).cast nbuf0_3)

/-- The query rows' buffer holds the point's block of the sample matrix at every point: fetched there, it is the block;
    not fetched, the block index is the one of the point before, whose block the body left in place. -/
theorem before_0 (c : Dev nD) (t : Fin cfg0.N) (d) : (dats V 0 c).before 0 t d = iblk V c 0 t :=
  ((dats V 0 c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)

/-- The key rows' buffer holds the point's block of the sample matrix at every point. -/
theorem before_1 (c : Dev nD) (t : Fin cfg0.N) (d) : (dats V 0 c).before 1 t d = iblk V c 1 t :=
  ((dats V 0 c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)

/-- The weights' buffer holds the point's block of the weight row at every point. -/
theorem before_2 (c : Dev nD) (t : Fin cfg0.N) (d) : (dats V 0 c).before 2 t d = iblk V c 2 t :=
  ((dats V 0 c).before_in_eq_fetched 2 rfl (fun _ => rfl) (fun _ _ _ => rfl)
      (fun t => by rw [after_2]; unfold Dat.blockOf iblk; rw [A_eq]; try rfl) t d).trans
    (by unfold Dat.fetched Dat.blockOf iblk; rw [A_eq]; try rfl)

/-- Where the column block is not 0 the running sums' buffer holds what the body left at the point before: the point is
    not the first, and the point before, whose column block is not the last (`(t - 1) % 8 ≠ 7`), was not written back. -/
theorem before_3_B (c : Dev nD) (t : Fin cfg0.N) (h0 : ¬ t.val % 8 = 0) (d) :
    (dats V 0 c).before 3 t d = acc V c (t.val - 1) (Nat.lt_of_le_of_lt (Nat.sub_le _ _) t.isLt) := by
  have hN : t.val < 128 := lt_of_lt_of_eq t.isLt (show cfg0.N = 128 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation -/

/-- What the body is called with at point `t`, the four windows one by one, -/
def bodyPre (c : Dev nD) (t : Fin cfg0.N) : sProp 𝕄 :=
  iprop((dats V 0 c).Φ t.castSucc ∗ (dats V 0 c).owesAt () t.castSucc
    ∗ (∃ d, owns (c : Thread nD τ) (ms0 t) fullShare ((dats V 0 c).before 0 t d))
    ∗ (∃ d, owns (c : Thread nD τ) (ms1 t) fullShare ((dats V 0 c).before 1 t d))
    ∗ (∃ d, owns (c : Thread nD τ) (ms2 t) fullShare ((dats V 0 c).before 2 t d))
    ∗ (∃ d, owns (c : Thread nD τ) (ms3 t) fullShare ((dats V 0 c).before 3 t d)))

/-- and what it returns. -/
def bodyPost (c : Dev nD) (t : Fin cfg0.N) : sProp 𝕄 :=
  iprop((dats V 0 c).Φ t.succ ∗ (dats V 0 c).owesAt () t.succ
    ∗ owns (c : Thread nD τ) (ms0 t) fullShare ((dats V 0 c).after 0 t)
    ∗ owns (c : Thread nD τ) (ms1 t) fullShare ((dats V 0 c).after 1 t)
    ∗ owns (c : Thread nD τ) (ms2 t) fullShare ((dats V 0 c).after 2 t)
    ∗ owns (c : Thread nD τ) (ms3 t) fullShare ((dats V 0 c).after 3 t))

set_option maxHeartbeats 800000 in
/-- The body at any point. The input buffers hold their blocks. If `t % 8 = 0` the condition holds, the running sums
    end at `row sums + zero`, which is the accumulation at a reset point; otherwise the condition fails, the buffer
    holds the accumulation at `t - 1` and ends at `row sums +` that, the accumulation's step. The invariant and the
    core's debt pass through untouched. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dats V 0 c).Φ t.succ = (dats V 0 c).Φ t.castSucc from rfl,
    show (dats V 0 c).owesAt () t.succ = (dats V 0 c).owesAt () t.castSucc from rfl,
    after_0, after_1, after_2, after_3]
  by_cases h0 : t.val % 8 = 0
  · rw [acc_reset V c t h0]
    iintro ⟨HΦ, Ho, ⟨%d0, H0⟩, ⟨%d1, H1⟩, ⟨%d2, H2⟩, ⟨%d3, H3⟩⟩
    iapply (runA c (grid0.coords t) (ms0 t) (hs0 t) (ms1 t) (hs1 t) (ms2 t) (hs2 t) (ms3 t) (hs3 t) ((hcond t).mpr h0)
      (qblk V c t) (kblk V c t) (wblk V c t) Set.univ _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [acc_step V c t h0]
    simp only [before_3_B V c t h0]
    iintro ⟨HΦ, Ho, ⟨%d0, H0⟩, ⟨%d1, H1⟩, ⟨%d2, H2⟩, ⟨%d3, H3⟩⟩
    iapply (runB c (grid0.coords t) (ms0 t) (hs0 t) (ms1 t) (hs1 t) (ms2 t) (hs2 t) (ms3 t) (hs3 t) (fun h => h0 ((hcond t).mp h))
      (qblk V c t) (kblk V c t) (wblk V c t) (acc V c (t.val - 1) (Nat.lt_of_le_of_lt (Nat.sub_le _ _) t.isLt)) Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The body obligation of the proof data, at every point: the four windows conjoined one by one, then the body's run. -/
theorem body_obligation (c : Dev nD) :
    BodyObligation (dats (F := F) V 0 c) (defs₀ (F := F)) Variants.none () Set.univ := fun t => by
  rw [bigSep_W0, bigSep_W0]
  exact sound_body V c t

end Cert.Kernel.Hand

end
-- ==== Proof.RI.Value.lean ====
/-
  The reference's result read at an index. What follows the standardization is twenty-eight operations over the
  standardized samples `X` (8192 rows of two coordinates), the weight row `w` and the one-entry bias `b`: the squared row
  norms `|xᵣ|² = 0 + (xᵣ₀² + xᵣ₁²)` (a sum along the columns started from the zero word), their sum
  `|xᵢ|² + |xⱼ|²` laid out as a square matrix, the Gram matrix `⟨xᵢ, xⱼ⟩` (a contraction over the two columns),
  `K = max (|xᵢ|² + |xⱼ|² − 2 ⟨xᵢ, xⱼ⟩) 0`, the matrix `(−½ K) exp K`, its contraction with the weights' column (a sum
  over the 8192 keys), the bias added, and the column read as a vector. Read entry by entry, each operation is the
  extended reals' own; the only literal evaluated is the zero word where a sum starts from it, and `0 + s = s`. So the
  result at row `i` is the specification's sum over all keys, plus the bias — for any contents the operations start
  from: the standardization stays a variable.
-/
import proofs.«149665_j71691594105115_1_alg».proof.Proof.RI.Split
import proofs.«149665_j71691594105115_1_alg».proof.Proof.Spec
import Idealize.ShloMosaic.Lib.IdealHost
import Idealize.ShloMosaic.Lib.Pipeline.Value
import Idealize.ShloMosaic.Lib.ValueLayout

noncomputable section

namespace Cert.ReferenceIdeal.Hand.Tail

open Cert.ReferenceIdeal Cert.ReferenceIdeal.Gen Idealize.ShloMosaic Idealize.ShloMosaic.TcCoe Idealize.SL.Sem Idealize.ShloMosaic.StableHlo
open Idealize.ShloMosaic.ValueIdx
open scoped BigOperators

/-! ## The row sums of squares -/

theorem hred : S8192x2.Reduces [1] S8192 := by decide

/-- The squared norm of row `r`: the reduction along the two columns of the entrywise square. It starts from the zero
    word, which is the real zero, so the sum is the two squares. -/
theorem sq_apply (X : (⟨S8192x2, .f32⟩ : BufTy).Contents (Elt Ideal)) (r : Fin 8192) :
    Host.reduceAdd (F := Ideal) (mulf X X) (constant (F := Ideal) S_ .f32 0x00000000#32) reducesTo_S8192x2_S8192_d1 h_S_ (ix1 r)
      = X (ix2 r (0 : Fin 2)) * X (ix2 r (0 : Fin 2)) + X (ix2 r (1 : Fin 2)) * X (ix2 r (1 : Fin 2)) := by
  rw [hostReduceAdd_apply, Ideal.hostReduceAdd_single reducesTo_S8192x2_S8192_d1 hred]
  have e : ∀ k : Fin 2, hred.lift (ix1 r) k = ix2 r k := fun k => funext fun a => Fin.ext (by
    match a with
    | ⟨0, _⟩ => rfl
    | ⟨1, _⟩ => rfl)
  show Cert.Spec.zero + ∑ k : Fin 2, X (hred.lift (ix1 r) k) * X (hred.lift (ix1 r) k) = _
  rw [Cert.Spec.zero_eq, zero_add, Fin.sum_univ_two, e, e]

/-! ## The two broadcasts of the row norms -/

/-- A vector laid down the rows of the square matrix (through a column): entry `(i, j)` is the vector's `i`. -/
theorem bcol_apply (v : (⟨S8192, .f32⟩ : BufTy).Contents (Elt Ideal)) (i j : Fin 8192) :
    broadcastInDim S8192x8192 ![0, 1] bcast_S8192x1_S8192x8192_0_1 (broadcastInDim S8192x1 ![0] bcast_S8192_S8192x1_0 v) (ix2 i j)
      = v (ix1 i) := by
  refine (broadcastInDim_apply ![0, 1] bcast_S8192x1_S8192x8192_0_1 _ (ix2 i j) (ix2 i (0 : Fin 1)) ?_).trans ?_
  · intro a
    match a with
    | ⟨0, _⟩ => rfl
    | ⟨1, _⟩ => rfl
  · exact broadcastInDim_apply ![0] bcast_S8192_S8192x1_0 v (ix2 i (0 : Fin 1)) (ix1 i) (by
      intro a
      match a with
      | ⟨0, _⟩ => rfl)

/-- A vector laid along the columns of the square matrix (through a row): entry `(i, j)` is the vector's `j`. -/
theorem brow_apply (v : (⟨S8192, .f32⟩ : BufTy).Contents (Elt Ideal)) (i j : Fin 8192) :
    broadcastInDim S8192x8192 ![0, 1] bcast_S1x8192_S8192x8192_0_1 (broadcastInDim S1x8192 ![1] bcast_S8192_S1x8192_1 v) (ix2 i j)
      = v (ix1 j) := by
  refine (broadcastInDim_apply ![0, 1] bcast_S1x8192_S8192x8192_0_1 _ (ix2 i j) (ix2 (0 : Fin 1) j) ?_).trans ?_
  · intro a
    match a with
    | ⟨0, _⟩ => rfl
    | ⟨1, _⟩ => rfl
  · exact broadcastInDim_apply ![1] bcast_S8192_S1x8192_1 v (ix2 (0 : Fin 1) j) (ix1 j) (by
      intro a
      match a with
      | ⟨0, _⟩ => rfl)

/-- A scalar constant spread over the square matrix reads the extended real its word encodes. -/
theorem bconst_apply (c : BitVec 32) (p : S8192x8192.Idx) :
    broadcastInDim S8192x8192 ![] bcast_S_S8192x8192 (constant (F := Ideal) S_ .f32 c) p = Ideal.ofBits .f32 c :=
  broadcastInDim_scalar_apply bcast_S_S8192x8192 _ p

/-! ## The Gram matrix: a contraction over the two columns -/

theorem lhs_gram_0 (p : S8192x8192.Idx) (q : dot_S8192x2_S2x8192_S8192x8192_1_0_0_1_n_n.contr.Idx) :
    (dot_S8192x2_S2x8192_S8192x8192_1_0_0_1_n_n.lhsIdx p q 0).val = (p 0).val := by
  unfold DotDims.lhsIdx
  rw [dif_neg (show ¬(0 : Fin S8192x2.rank) ∈ dot_S8192x2_S2x8192_S8192x8192_1_0_0_1_n_n.lhsBatch by decide), dif_pos (show (0 : Fin S8192x2.rank) ∈ dot_S8192x2_S2x8192_S8192x8192_1_0_0_1_n_n.lhsNonContracting by decide)]
  rfl
theorem lhs_gram_1 (p : S8192x8192.Idx) (q : dot_S8192x2_S2x8192_S8192x8192_1_0_0_1_n_n.contr.Idx) :
    (dot_S8192x2_S2x8192_S8192x8192_1_0_0_1_n_n.lhsIdx p q 1).val = (q ⟨0, by decide⟩).val :=
  dot_S8192x2_S2x8192_S8192x8192_1_0_0_1_n_n.lhsIdx_val_of_single rfl p q
theorem rhs_gram_0 (p : S8192x8192.Idx) (q : dot_S8192x2_S2x8192_S8192x8192_1_0_0_1_n_n.contr.Idx) :
    (dot_S8192x2_S2x8192_S8192x8192_1_0_0_1_n_n.rhsIdx p q 0).val = (q ⟨0, by decide⟩).val :=
  dot_S8192x2_S2x8192_S8192x8192_1_0_0_1_n_n.rhsIdx_val_of_single rfl p q
theorem rhs_gram_1 (p : S8192x8192.Idx) (q : dot_S8192x2_S2x8192_S8192x8192_1_0_0_1_n_n.contr.Idx) :
    (dot_S8192x2_S2x8192_S8192x8192_1_0_0_1_n_n.rhsIdx p q 1).val = (p 1).val := by
  unfold DotDims.rhsIdx
  rw [dif_neg (show ¬(1 : Fin S2x8192.rank) ∈ dot_S8192x2_S2x8192_S8192x8192_1_0_0_1_n_n.rhsBatch by decide), dif_pos (show (1 : Fin S2x8192.rank) ∈ dot_S8192x2_S2x8192_S8192x8192_1_0_0_1_n_n.rhsNonContracting by decide)]
  rfl

/-- The product of an `8192 × 2` matrix with a `2 × 8192` one at `(i, j)`: the sum over the two shared coordinates. -/
theorem gram_dot_apply (A : (⟨S8192x2, .f32⟩ : BufTy).Contents (Elt Ideal)) (B : (⟨S2x8192, .f32⟩ : BufTy).Contents (Elt Ideal))
    (i j : Fin 8192) :
    Host.dotGeneral (F := Ideal) (φ₁ := .f32) (φ₂ := .f32) dot_S8192x2_S2x8192_S8192x8192_1_0_0_1_n_n none A B (ix2 i j) = ∑ k : Fin 2, A (ix2 i k) * B (ix2 k j) := by
  simp only [Host.dotGeneral]
  rw [Ideal.dotGeneral_apply, ← Equiv.sum_comp (contrEquiv1 dot_S8192x2_S2x8192_S8192x8192_1_0_0_1_n_n 2 rfl rfl).symm]
  refine Finset.sum_congr rfl fun k _ => ?_
  have hk := contrEquiv1_symm_val dot_S8192x2_S2x8192_S8192x8192_1_0_0_1_n_n 2 rfl rfl k
  have el : dot_S8192x2_S2x8192_S8192x8192_1_0_0_1_n_n.lhsIdx (ix2 i j) ((contrEquiv1 dot_S8192x2_S2x8192_S8192x8192_1_0_0_1_n_n 2 rfl rfl).symm k) = ix2 i k := funext fun a => Fin.ext (by
    match a with
    | ⟨0, _⟩ => exact lhs_gram_0 _ _
    | ⟨1, _⟩ => exact (lhs_gram_1 _ _).trans hk)
  have er : dot_S8192x2_S2x8192_S8192x8192_1_0_0_1_n_n.rhsIdx (ix2 i j) ((contrEquiv1 dot_S8192x2_S2x8192_S8192x8192_1_0_0_1_n_n 2 rfl rfl).symm k) = ix2 k j := funext fun a => Fin.ext (by
    match a with
    | ⟨0, _⟩ => exact (rhs_gram_0 _ _).trans hk
    | ⟨1, _⟩ => exact rhs_gram_1 _ _)
  rw [el, er]

/-- The Gram matrix `X Xᵀ` at `(i, j)`: the inner product of rows `i` and `j`. -/
theorem gram_apply (X : (⟨S8192x2, .f32⟩ : BufTy).Contents (Elt Ideal)) (i j : Fin 8192) :
    Host.dotGeneral (F := Ideal) (φ₁ := .f32) (φ₂ := .f32) dot_S8192x2_S2x8192_S8192x8192_1_0_0_1_n_n none X (transpose S2x8192 [1, 0] X transposes_S8192x2_S2x8192_1_0) (ix2 i j)
      = X (ix2 i (0 : Fin 2)) * X (ix2 j (0 : Fin 2)) + X (ix2 i (1 : Fin 2)) * X (ix2 j (1 : Fin 2)) := by
  rw [gram_dot_apply, Fin.sum_univ_two, transpose_ix2_apply, transpose_ix2_apply]

/-! ## The contraction with the weights -/

theorem lhs_out_0 (p : S8192x1.Idx) (q : dot_S8192x8192_S8192x1_S8192x1_1_0_0_1_n_n.contr.Idx) :
    (dot_S8192x8192_S8192x1_S8192x1_1_0_0_1_n_n.lhsIdx p q 0).val = (p 0).val := by
  unfold DotDims.lhsIdx
  rw [dif_neg (show ¬(0 : Fin S8192x8192.rank) ∈ dot_S8192x8192_S8192x1_S8192x1_1_0_0_1_n_n.lhsBatch by decide), dif_pos (show (0 : Fin S8192x8192.rank) ∈ dot_S8192x8192_S8192x1_S8192x1_1_0_0_1_n_n.lhsNonContracting by decide)]
  rfl
theorem lhs_out_1 (p : S8192x1.Idx) (q : dot_S8192x8192_S8192x1_S8192x1_1_0_0_1_n_n.contr.Idx) :
    (dot_S8192x8192_S8192x1_S8192x1_1_0_0_1_n_n.lhsIdx p q 1).val = (q ⟨0, by decide⟩).val :=
  dot_S8192x8192_S8192x1_S8192x1_1_0_0_1_n_n.lhsIdx_val_of_single rfl p q
theorem rhs_out_0 (p : S8192x1.Idx) (q : dot_S8192x8192_S8192x1_S8192x1_1_0_0_1_n_n.contr.Idx) :
    (dot_S8192x8192_S8192x1_S8192x1_1_0_0_1_n_n.rhsIdx p q 0).val = (q ⟨0, by decide⟩).val :=
  dot_S8192x8192_S8192x1_S8192x1_1_0_0_1_n_n.rhsIdx_val_of_single rfl p q
theorem rhs_out_1 (p : S8192x1.Idx) (q : dot_S8192x8192_S8192x1_S8192x1_1_0_0_1_n_n.contr.Idx) :
    (dot_S8192x8192_S8192x1_S8192x1_1_0_0_1_n_n.rhsIdx p q 1).val = (p 1).val := by
  unfold DotDims.rhsIdx
  rw [dif_neg (show ¬(1 : Fin S8192x1.rank) ∈ dot_S8192x8192_S8192x1_S8192x1_1_0_0_1_n_n.rhsBatch by decide), dif_pos (show (1 : Fin S8192x1.rank) ∈ dot_S8192x8192_S8192x1_S8192x1_1_0_0_1_n_n.rhsNonContracting by decide)]
  rfl

/-- The product of the square matrix with a column at `(i, 0)`: the sum over the 8192 shared coordinates. -/
theorem out_dot_apply (M : (⟨S8192x8192, .f32⟩ : BufTy).Contents (Elt Ideal)) (c : (⟨S8192x1, .f32⟩ : BufTy).Contents (Elt Ideal))
    (i : Fin 8192) (u : Fin 1) :
    Host.dotGeneral (F := Ideal) (φ₁ := .f32) (φ₂ := .f32) dot_S8192x8192_S8192x1_S8192x1_1_0_0_1_n_n none M c (ix2 i u) = ∑ j : Fin 8192, M (ix2 i j) * c (ix2 j u) := by
  simp only [Host.dotGeneral]
  rw [Ideal.dotGeneral_apply, ← Equiv.sum_comp (contrEquiv1 dot_S8192x8192_S8192x1_S8192x1_1_0_0_1_n_n 8192 rfl rfl).symm]
  refine Finset.sum_congr rfl fun k _ => ?_
  have hk := contrEquiv1_symm_val dot_S8192x8192_S8192x1_S8192x1_1_0_0_1_n_n 8192 rfl rfl k
  have el : dot_S8192x8192_S8192x1_S8192x1_1_0_0_1_n_n.lhsIdx (ix2 i u) ((contrEquiv1 dot_S8192x8192_S8192x1_S8192x1_1_0_0_1_n_n 8192 rfl rfl).symm k) = ix2 i k := funext fun a => Fin.ext (by
    match a with
    | ⟨0, _⟩ => exact lhs_out_0 _ _
    | ⟨1, _⟩ => exact (lhs_out_1 _ _).trans hk)
  have er : dot_S8192x8192_S8192x1_S8192x1_1_0_0_1_n_n.rhsIdx (ix2 i u) ((contrEquiv1 dot_S8192x8192_S8192x1_S8192x1_1_0_0_1_n_n 8192 rfl rfl).symm k) = ix2 k u := funext fun a => Fin.ext (by
    match a with
    | ⟨0, _⟩ => exact (rhs_out_0 _ _).trans hk
    | ⟨1, _⟩ => exact rhs_out_1 _ _)
  rw [el, er]

/-! ## The weights as a column, the bias, and the flattening -/

/-- The weights' row turned into a column: entry `(j, 0)` is the row's `(0, j)`. -/
theorem wcol_apply (w : (⟨S1x8192, .f32⟩ : BufTy).Contents (Elt Ideal)) (j : Fin 8192) :
    transpose S8192x1 [1, 0] w transposes_S1x8192_S8192x1_1_0 (ix2 j (0 : Fin 1)) = w (ix2 (0 : Fin 1) j) :=
  transpose_ix2_apply w transposes_S1x8192_S8192x1_1_0 j (0 : Fin 1)

/-- The one-entry bias spread down a column: every entry is that one entry. -/
theorem bias_apply (b : (⟨S1, .f32⟩ : BufTy).Contents (Elt Ideal)) (i : Fin 8192) :
    broadcastInDim S8192x1 ![0, 1] bcast_S1x1_S8192x1_0_1 (broadcastInDim S1x1 ![1] bcast_S1_S1x1_1 b) (ix2 i (0 : Fin 1))
      = b (ix1 (0 : Fin 1)) := by
  refine (broadcastInDim_apply ![0, 1] bcast_S1x1_S8192x1_0_1 _ (ix2 i (0 : Fin 1)) (ix2 (0 : Fin 1) (0 : Fin 1)) ?_).trans ?_
  · intro a
    match a with
    | ⟨0, _⟩ => rfl
    | ⟨1, _⟩ => rfl
  · exact broadcastInDim_apply ![1] bcast_S1_S1x1_1 b (ix2 (0 : Fin 1) (0 : Fin 1)) (ix1 (0 : Fin 1)) (by
      intro a
      match a with
      | ⟨0, _⟩ => rfl)

/-- A column read as a vector: entry `i` is the column's `(i, 0)`, the same row-major position. -/
theorem flat_apply (v : (⟨S8192x1, .f32⟩ : BufTy).Contents (Elt Ideal)) (i : Fin 8192) :
    shapeCast S8192 v shapeCasts_S8192x1_S8192 (ix1 i) = v (ix2 i (0 : Fin 1)) :=
  shapeCast_apply v shapeCasts_S8192x1_S8192 (ix1 i) (ix2 i (0 : Fin 1)) (by
    rw [Shape.rowMajor_val_two, Shape.rowMajor_val_one]
    show i.val * 1 + 0 = i.val
    omega)

/-! ## The composed term, stage by stage -/

/-- The squared row norms `|xᵣ|²`. -/
def sqNorm (X : (⟨S8192x2, .f32⟩ : BufTy).Contents (Elt Ideal)) : (⟨S8192, .f32⟩ : BufTy).Contents (Elt Ideal) :=
  Host.reduceAdd (F := Ideal) (mulf X X) (constant (F := Ideal) S_ .f32 0x00000000#32) reducesTo_S8192x2_S8192_d1 h_S_

/-- The clamped squared distances `max (|xᵢ|² + |xⱼ|² − 2 ⟨xᵢ, xⱼ⟩) 0`, as the operations form them. -/
def distMat (X : (⟨S8192x2, .f32⟩ : BufTy).Contents (Elt Ideal)) : (⟨S8192x8192, .f32⟩ : BufTy).Contents (Elt Ideal) :=
  maximumf
    (subf
      (addf
        (broadcastInDim S8192x8192 ![0, 1] bcast_S8192x1_S8192x8192_0_1 (broadcastInDim S8192x1 ![0] bcast_S8192_S8192x1_0 (sqNorm X)))
        (broadcastInDim S8192x8192 ![0, 1] bcast_S1x8192_S8192x8192_0_1 (broadcastInDim S1x8192 ![1] bcast_S8192_S1x8192_1 (sqNorm X))))
      (mulf (broadcastInDim S8192x8192 ![] bcast_S_S8192x8192 (constant (F := Ideal) S_ .f32 0x40000000#32))
        (Host.dotGeneral (F := Ideal) (φ₁ := .f32) (φ₂ := .f32) dot_S8192x2_S2x8192_S8192x8192_1_0_0_1_n_n none X
          (transpose S2x8192 [1, 0] X transposes_S8192x2_S2x8192_1_0))))
    (broadcastInDim S8192x8192 ![] bcast_S_S8192x8192 (constant (F := Ideal) S_ .f32 0x00000000#32))

/-- Entry `(i, j)` of the distance matrix is the specification's clamped squared distance of rows `i` and `j`. -/
theorem distMat_apply (X : (⟨S8192x2, .f32⟩ : BufTy).Contents (Elt Ideal)) (i j : Fin 8192) :
    distMat X (ix2 i j)
      = Cert.Spec.dist2 (X (ix2 i (0 : Fin 2))) (X (ix2 i (1 : Fin 2))) (X (ix2 j (0 : Fin 2))) (X (ix2 j (1 : Fin 2))) := by
  unfold distMat sqNorm Cert.Spec.dist2
  rw [maximumf_apply, subf_apply, addf_apply, mulf_apply, bcol_apply, brow_apply, sq_apply, sq_apply, bconst_apply, bconst_apply,
    gram_apply]

/-- The kernel matrix `(−½ K) · exp K`. -/
def kerMat (X : (⟨S8192x2, .f32⟩ : BufTy).Contents (Elt Ideal)) : (⟨S8192x8192, .f32⟩ : BufTy).Contents (Elt Ideal) :=
  mulf (mulf (broadcastInDim S8192x8192 ![] bcast_S_S8192x8192 (constant (F := Ideal) S_ .f32 0xBF000000#32)) (distMat X))
    (Host.exp (distMat X))

theorem kerMat_apply (X : (⟨S8192x2, .f32⟩ : BufTy).Contents (Elt Ideal)) (i j : Fin 8192) :
    kerMat X (ix2 i j)
      = (Cert.Spec.negHalf * Cert.Spec.dist2 (X (ix2 i (0 : Fin 2))) (X (ix2 i (1 : Fin 2))) (X (ix2 j (0 : Fin 2))) (X (ix2 j (1 : Fin 2))))
        * Ideal.exp (Cert.Spec.dist2 (X (ix2 i (0 : Fin 2))) (X (ix2 i (1 : Fin 2))) (X (ix2 j (0 : Fin 2))) (X (ix2 j (1 : Fin 2)))) := by
  unfold kerMat
  rw [mulf_apply, mulf_apply, bconst_apply]
  show (_ * distMat X (ix2 i j)) * Ideal.exp (distMat X (ix2 i j)) = _
  rw [distMat_apply]

/-- The whole of what follows the standardization, as one function of the standardized samples, the weights and the bias. -/
def tailTerm (X : (⟨S8192x2, .f32⟩ : BufTy).Contents (Elt Ideal)) (w : (⟨S1x8192, .f32⟩ : BufTy).Contents (Elt Ideal))
    (b : (⟨S1, .f32⟩ : BufTy).Contents (Elt Ideal)) : (⟨S8192, .f32⟩ : BufTy).Contents (Elt Ideal) :=
  fun i => shapeCast S8192
    (addf
      (Host.dotGeneral (F := Ideal) (φ₁ := .f32) (φ₂ := .f32) dot_S8192x8192_S8192x1_S8192x1_1_0_0_1_n_n none (kerMat X)
        (transpose S8192x1 [1, 0] w transposes_S1x8192_S8192x1_1_0))
      (broadcastInDim S8192x1 ![0, 1] bcast_S1x1_S8192x1_0_1 (broadcastInDim S1x1 ![1] bcast_S1_S1x1_1 b)))
    shapeCasts_S8192x1_S8192 i

/-- Entry `i` of that function: the specification's sum over all keys, plus the bias. -/
theorem tailTerm_apply (X : (⟨S8192x2, .f32⟩ : BufTy).Contents (Elt Ideal)) (w : (⟨S1x8192, .f32⟩ : BufTy).Contents (Elt Ideal))
    (b : (⟨S1, .f32⟩ : BufTy).Contents (Elt Ideal)) (i : Fin 8192) :
    tailTerm X w b (ix1 i) = Cert.Spec.G X w i + b (ix1 (0 : Fin 1)) := by
  unfold tailTerm
  rw [flat_apply, addf_apply, bias_apply, out_dot_apply]
  refine congrArg (· + b (ix1 (0 : Fin 1))) (Finset.sum_congr rfl fun j _ => ?_)
  rw [kerMat_apply, wcol_apply]
  rfl

end Cert.ReferenceIdeal.Hand.Tail

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx

/-! ## The result read at an index -/

set_option maxRecDepth 16384 in
/-- What the twenty-eight operations leave in the result is that function of what they start from. -/
theorem tail_term (Vp : Valuation τ sig (Elt Ideal)) :
    StableHlo.after (tailOps (F := Ideal)) Vp (Proc.devRef .tc main_v35)
      = Tail.tailTerm (Vp (Proc.devRef .tc main_v11)) (Vp (Proc.devRef .tc main_arg3)) (Vp (Proc.devRef .tc main_arg4)) := by
  after_results_simp
  rfl

/-- THE REFERENCE'S RESULT AT ROW `i`, from any contents: the specification's sum over all keys of the standardized
    samples against the weights, plus the bias. -/
theorem tail_value (Vp : Valuation τ sig (Elt Ideal)) (i : Fin 8192) :
    StableHlo.after (tailOps (F := Ideal)) Vp (Proc.devRef .tc main_v35) (ValueIdx.ix1 i)
      = Cert.Spec.G (Vp (Proc.devRef .tc main_v11)) (Vp (Proc.devRef .tc main_arg3)) i
        + Vp (Proc.devRef .tc main_arg4) (ValueIdx.ix1 (0 : Fin 1)) := by
  rw [tail_term]
  exact Tail.tailTerm_apply _ _ _ i

end Cert.ReferenceIdeal.Hand

end
-- ==== Proof.lean ====
/-
  The pairwise kernel against its reference: `Cert.Claim`.

  Both programs map samples `XX`, an affine layer `(W1, b1)`, weights `W2` and a bias `b2` to the vector whose entry
  `i` is `b2 + ∑ⱼ ((-1/2) Kᵢⱼ) (exp Kᵢⱼ) W2ⱼ`, where `X` is the affine image of the samples standardized over all its
  entries and `Kᵢⱼ = max (|Xᵢ|² + |Xⱼ|² - 2 ⟨Xᵢ, Xⱼ⟩) 0`. The reference forms the 8192 x 8192 matrix and contracts it with
  the weights; the kernel walks a 16 x 8 grid of row and column tiles, computes each tile's weighted row sums on the
  vector unit and accumulates them over the column tiles in the resident output block. Over the extended reals the two
  are the same sums in a different order and grouping, and addition there is commutative and associative, so the claim
  needs nothing of the inputs: the precondition is never opened.

  The kernel's two input windows on the samples read ONE array, so the pipeline's frame is proved by hand: the proof
  data and the accumulation (KI/Data), the body's runs (KI/Body), the run of @main as five segments with the shared
  array split in halves at the region's entry and joined at its exit (KI/Run), what the run leaves (KI/Final) and the
  output array's contents (KI/Value, KI/Payload); the same frame at the word level for the kernel as printed (K/…);
  the reference's run and its result at an index (RI/…); the two standardizations are one (Bridge); the parts put
  together (Assembly). The idealization rewrote nothing, so `preserves` is `True`.
-/
import proofs.«149665_j71691594105115_1_alg».proof.Defs
import proofs.«149665_j71691594105115_1_alg».proof.Proof.Gen.Kernel
import proofs.«149665_j71691594105115_1_alg».proof.Proof.Gen.KernelIdeal
import proofs.«149665_j71691594105115_1_alg».proof.Proof.Gen.ReferenceIdeal
import proofs.«149665_j71691594105115_1_alg».proof.Proof.Gen.Pre_finite_inputs
import proofs.«149665_j71691594105115_1_alg».proof.Proof.Assembly
import proofs.«149665_j71691594105115_1_alg».proof.Proof.KI.Body
import proofs.«149665_j71691594105115_1_alg».proof.Proof.K.Body
import proofs.«149665_j71691594105115_1_alg».proof.Proof.RI.Value

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Proof.Parts.frame_k (fun V c => Cert.Kernel.Hand.body_obligation V c),
    Cert.Proof.Parts.frame_ki (fun V c => Cert.KernelIdeal.Hand.body_obligation V c),
    Cert.Proof.Parts.frame_ri,
    trivial,
    Cert.Proof.Parts.algebraic (fun V c => Cert.KernelIdeal.Hand.body_obligation V c)
      (fun Vp i => Cert.ReferenceIdeal.Hand.tail_value Vp i)⟩

end Cert.Proof

end
